-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000 : Shape := ⟨1, ![200000]⟩
abbrev S256x128 : Shape := ⟨2, ![256, 128]⟩
abbrev S128 : Shape := ⟨1, ![128]⟩
abbrev S_ : Shape := ⟨0, ![]⟩
abbrev S128x1 : Shape := ⟨2, ![128, 1]⟩
abbrev S1 : Shape := ⟨1, ![1]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  reducesTo_S_S_d : S_.ReducesTo [] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S200000 : S_.BroadcastsInDim S200000 (![] : Fin 0 → Fin S200000.rank)
  reducesTo_S200000_S_d0 : S200000.ReducesTo [0] S_

variable [Facts]

def fn_part2 {F : FTy → Type} [FloatOps F] (main_v27 : IVec S_ 1) (main_v32 : IVec S200000 1) (main_c_12 : IVec S_ 1) : IVec S_ 1 :=
  let main_v33 : IVec S_ 1 := (fun x v => Host.reduce IntOp.andi x v reducesTo_S200000_S_d0 h_S_) main_v32 main_c_12
  let main_v34 : IVec S_ 1 := andi main_v27 main_v33
  main_v34

def fn_part1 {F : FTy → Type} [FloatOps F] (main_arg1 : IVec S200000 32) (main_arg5 : FVec F S128x1 .f32) (main_arg6 : FVec F S1 .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S128x1 .f32 := Host.absf main_arg5
  let main_cst_6 : FVec F S_ .f32 := constant S_ .f32 0x7F800000#32
  let main_v19 : FVec F S128x1 .f32 := broadcastInDim S128x1 ![] bcast_S_S128x1 main_cst_6
  let main_v20 : IVec S128x1 1 := cmpf .olt main_v18 main_v19
  let main_c_7 : IVec S_ 1 := constantI S_ 1 1#1
  let main_v21 : IVec S_ 1 := (fun x v => Host.reduce IntOp.andi x v reducesTo_S128x1_S_d0_1 h_S_) main_v20 main_c_7
  let main_v22 : IVec S_ 1 := andi main_v17 main_v21
  let main_v23 : FVec F S1 .f32 := Host.absf main_arg6
  let main_cst_8 : FVec F S_ .f32 := constant S_ .f32 0x7F800000#32
  let main_v24 : FVec F S1 .f32 := broadcastInDim S1 ![] bcast_S_S1 main_cst_8
  let main_v25 : IVec S1 1 := cmpf .olt main_v23 main_v24
  let main_c_9 : IVec S_ 1 := constantI S_ 1 1#1
  let main_v26 : IVec S_ 1 := (fun x v => Host.reduce IntOp.andi x v reducesTo_S1_S_d0 h_S_) main_v25 main_c_9
  let main_v27 : IVec S_ 1 := andi main_v22 main_v26
  let main_c_10 : IVec S_ 32 := constantI S_ 32 0#32
  let main_v28 : IVec S200000 32 := broadcastInDim S200000 ![] bcast_S_S200000 main_c_10
  let main_v29 : IVec S200000 1 := cmpi .sge main_arg1 main_v28
  let main_c_11 : IVec S_ 32 := constantI S_ 32 1024#32
  let main_v30 : IVec S200000 32 := broadcastInDim S200000 ![] bcast_S_S200000 main_c_11
  let main_v31 : IVec S200000 1 := cmpi .slt main_arg1 main_v30
  let main_v32 : IVec S200000 1 := andi main_v29 main_v31
  let main_c_12 : IVec S_ 1 := constantI S_ 1 1#1
  fn_part2 (F := F) main_v27 main_v32 main_c_12

def fn {F : FTy → Type} [FloatOps F] (main_arg0 : FVec F S200000x256 .f32) (main_arg1 : IVec S200000 32) (main_arg2 : FVec F S256x128 .f32) (main_arg3 : FVec F S128 .f32) (main_arg4 : FVec F S_ .f32) (main_arg5 : FVec F S128x1 .f32) (main_arg6 : FVec F S1 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S_ .f32 := Host.absf main_arg4
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg1 main_arg5 main_arg6 main_v13 main_v15 main_c_5
-- ==== Kernel.lean ====
abbrev S200000x256 : Shape := ⟨2, ![200000, 256]⟩
abbrev S200000 : Shape := ⟨1, ![200000]⟩
abbrev S256x128 : Shape := ⟨2, ![256, 128]⟩
abbrev S128 : Shape := ⟨1, ![128]⟩
abbrev S_ : Shape := ⟨0, ![]⟩
abbrev S128x1 : Shape := ⟨2, ![128, 1]⟩
abbrev S1 : Shape := ⟨1, ![1]⟩
abbrev S200704x256 : Shape := ⟨2, ![200704, 256]⟩
abbrev S200000x1 : Shape := ⟨2, ![200000, 1]⟩
abbrev S200704x1 : Shape := ⟨2, ![200704, 1]⟩
abbrev S1024x256 : Shape := ⟨2, ![1024, 256]⟩
abbrev S1x1024 : Shape := ⟨2, ![1, 1024]⟩
abbrev S2048x256 : Shape := ⟨2, ![2048, 256]⟩
abbrev S2048x1 : Shape := ⟨2, ![2048, 1]⟩
abbrev S2048x1024 : Shape := ⟨2, ![2048, 1024]⟩
abbrev S1024 : Shape := ⟨1, ![1024]⟩
abbrev S1024x1 : Shape := ⟨2, ![1024, 1]⟩
abbrev S1024x128 : Shape := ⟨2, ![1024, 128]⟩
abbrev S1x128 : Shape := ⟨2, ![1, 128]⟩
abbrev S1x1 : Shape := ⟨2, ![1, 1]⟩
abbrev S2048 : Shape := ⟨1, ![2048]⟩

abbrev nBuf : Space → Nat
  | .hbm => 47
  | .vmem => 15
  | .smem => 0
  | _ => 0

abbrev bufTy : (tb : Table) → Fin (tcTables nBuf tb) → BufTy
  | .hbm, ⟨0, _⟩ => ⟨S200000x256, .f32⟩
  | .hbm, ⟨1, _⟩ => ⟨S200000, .i32⟩
  | .hbm, ⟨2, _⟩ => ⟨S256x128, .f32⟩
  | .hbm, ⟨3, _⟩ => ⟨S128, .f32⟩
  | .hbm, ⟨4, _⟩ => ⟨S_, .f32⟩
  | .hbm, ⟨5, _⟩ => ⟨S128x1, .f32⟩
  | .hbm, ⟨6, _⟩ => ⟨S1, .f32⟩
  | .hbm, ⟨7, _⟩ => ⟨S_, .i32⟩
  | .hbm, ⟨8, _⟩ => ⟨S_, .f32⟩
  | .hbm, ⟨9, _⟩ => ⟨S200704x256, .f32⟩
  | .hbm, ⟨10, _⟩ => ⟨S200000x1, .i32⟩
  | .hbm, ⟨11, _⟩ => ⟨S_, .i32⟩
  | .hbm, ⟨12, _⟩ => ⟨S_, .i32⟩
  | .hbm, ⟨13, _⟩ => ⟨S200704x1, .i32⟩
  | .hbm, ⟨14, _⟩ => ⟨S1024x256, .f32⟩
  | .hbm, ⟨15, _⟩ => ⟨S1x1024, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x256, .f32⟩
  | .hbm, ⟨21, _⟩ => ⟨S1024x256, .f32⟩
  | .hbm, ⟨22, _⟩ => ⟨S1024x128, .f32⟩
  | .hbm, ⟨23, _⟩ => ⟨S1x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .i1⟩
  | .hbm, ⟨29, _⟩ => ⟨S1024x128, .f32⟩
  | .hbm, ⟨30, _⟩ => ⟨S1024x128, .f32⟩
  | .hbm, ⟨31, _⟩ => ⟨S1024x128, .f32⟩
  | .hbm, ⟨32, _⟩ => ⟨S1024x1, .f32⟩
  | .hbm, ⟨33, _⟩ => ⟨S1x1, .f32⟩
  | .hbm, ⟨34, _⟩ => ⟨S1024x1, .f32⟩
  | .hbm, ⟨35, _⟩ => ⟨S1024x1, .f32⟩
  | .hbm, ⟨36, _⟩ => ⟨S1024x1, .f32⟩
  | .hbm, ⟨37, _⟩ => ⟨S1024x1, .f32⟩
  | .hbm, ⟨38, _⟩ => ⟨S_, .f32⟩
  | .hbm, ⟨39, _⟩ => ⟨S1024x1, .f32⟩
  | .hbm, ⟨40, _⟩ => ⟨S1024x1, .f32⟩
  | .hbm, ⟨41, _⟩ => ⟨S_, .f32⟩
  | .hbm, ⟨42, _⟩ => ⟨S1024x1, .f32⟩
  | .hbm, ⟨43, _⟩ => ⟨S1024x1, .f32⟩
  | .hbm, ⟨44, _⟩ => ⟨S1x1024, .f32⟩
  | .hbm, ⟨45, _⟩ => ⟨S200704x256, .f32⟩
  | .hbm, ⟨46, _⟩ => ⟨S200000x256, .f32⟩
  | .local _ .vmem, ⟨0, _⟩ => ⟨S2048x256, .f32⟩
  | .local _ .vmem, ⟨1, _⟩ => ⟨S2048x256, .f32⟩
  | .local _ .vmem, ⟨2, _⟩ => ⟨S2048x1, .i32⟩
  | .local _ .vmem, ⟨3, _⟩ => ⟨S2048x1, .i32⟩
  | .local _ .vmem, ⟨4, _⟩ => ⟨S1024x256, .f32⟩
  | .local _ .vmem, ⟨5, _⟩ => ⟨S1x1024, .f32⟩
  | .local _ .vmem, ⟨6, _⟩ => ⟨S1024x256, .f32⟩
  | .local _ .vmem, ⟨7, _⟩ => ⟨S1x1024, .f32⟩
  | .local _ .vmem, ⟨8, _⟩ => ⟨S2048x256, .f32⟩
  | .local _ .vmem, ⟨9, _⟩ => ⟨S2048x256, .f32⟩
  | .local _ .vmem, ⟨10, _⟩ => ⟨S2048x1, .i32⟩
  | .local _ .vmem, ⟨11, _⟩ => ⟨S2048x1, .i32⟩
  | .local _ .vmem, ⟨12, _⟩ => ⟨S1x1024, .f32⟩
  | .local _ .vmem, ⟨13, _⟩ => ⟨S2048x256, .f32⟩
  | .local _ .vmem, ⟨14, _⟩ => ⟨S2048x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![98], ![false]⟩

def k0_cond2 (i : grid0.Coords) : BitVec 1 :=
  let arg0 : BitVec 32 := BitVec.ofNat 32 (i 0).val
  let c97_i32 : BitVec 32 := 97#32
  let v29 : BitVec 1 := Scalar.cmpi .eq arg0 c97_i32
  let v30 : BitVec 32 := Scalar.extui v29
  let c0_i32_13 : BitVec 32 := 0#32
  let v31 : BitVec 1 := Scalar.cmpi .ne v30 c0_i32_13
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  pads_S200000x256_S200704x256_07040_000 : S200000x256.Pads (![0, 0] : Fin 2 → Nat) ![704, 0] ![0, 0] S200704x256
  h_S_ : 0 < S_.numel
  shapeCasts_S200000_S200000x1 : S200000.ShapeCasts S200000x1
  pads_S200000x1_S200704x1_07040_000 : S200000x1.Pads (![0, 0] : Fin 2 → Nat) ![704, 0] ![0, 0] S200704x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x1024_d1_w32 : S2048x1024.Iotas .tc 32 [1]
  broadcasts_S2048x1_S2048x1024 : S2048x1.Broadcasts S2048x1024
  natLt_1_32 : 1 < 32
  reduces_S2048x1024_S1024 : S2048x1024.Reduces [0] S1024
  shapeCasts_S1024_S1x1024 : S1024.ShapeCasts S1x1024
  shapeCasts_S1x1024_S1024x1 : S1x1024.ShapeCasts S1024x1
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  shapeCasts_S1024x1_S1x1024 : S1024x1.ShapeCasts S1x1024
  broadcasts_S1x1024_S2048x1024 : S1x1024.Broadcasts S2048x1024
  reduces_S2048x1024_S2048 : S2048x1024.Reduces [1] S2048
  shapeCasts_S2048_S2048x1 : S2048.ShapeCasts S2048x1
  broadcasts_S2048x1_S2048x256 : S2048x1.Broadcasts S2048x256
  slices_S200704x256_S200000x256_0_0 : S200704x256.Slices ![0, 0] S200000x256
  dot_S2048x1024_S2048x256_S1024x256_0_0_1_1_n_n_wf : DotDims.WF S2048x1024 S2048x256 S1024x256 [0] [0] [1] [1] [] []
  dot_S1024x256_S256x128_S1024x128_1_0_0_1_n_n_wf : DotDims.WF S1024x256 S256x128 S1024x128 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S200704x256.size a
  hwx0_0 : ∀ i : grid0.Coords, EltTy.bits .f32 = 32 ∨ (Rect.block (s := S200704x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S200704x1.size a
  hwx0_1 : ∀ i : grid0.Coords, EltTy.bits .i32 = 32 ∨ (Rect.block (s := S200704x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S200704x256.size a
  hwx1_0 : ∀ i : grid1.Coords, EltTy.bits .f32 = 32 ∨ (Rect.block (s := S200704x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S200704x1.size a
  hwx1_1 : ∀ i : grid1.Coords, EltTy.bits .i32 = 32 ∨ (Rect.block (s := S200704x1) S2048x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S200704x256.size a
  hwx1_3 : ∀ i : grid1.Coords, EltTy.bits .f32 = 32 ∨ (Rect.block (s := S200704x256) S2048x256.size (cc1_transform_3 i) (hinb1_3 i)).WholeWords (EltTy.packing .f32)

variable [Facts₀]

def dot_S2048x1024_S2048x256_S1024x256_0_0_1_1_n_n : DotDims S2048x1024 S2048x256 S1024x256 where
  lhsContracting := [0]
  rhsContracting := [0]
  lhsNonContracting := [1]
  rhsNonContracting := [1]
  lhsBatch := []
  rhsBatch := []
  wf := dot_S2048x1024_S2048x256_S1024x256_0_0_1_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1024x256.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S200000x256 : Shape := ⟨2, ![200000, 256]⟩
abbrev S200000 : Shape := ⟨1, ![200000]⟩
abbrev S256x128 : Shape := ⟨2, ![256, 128]⟩
abbrev S128 : Shape := ⟨1, ![128]⟩
abbrev S_ : Shape := ⟨0, ![]⟩
abbrev S128x1 : Shape := ⟨2, ![128, 1]⟩
abbrev S1 : Shape := ⟨1, ![1]⟩
abbrev S1024x256 : Shape := ⟨2, ![1024, 256]⟩
abbrev S200000x1 : Shape := ⟨2, ![200000, 1]⟩
abbrev S1024x1 : Shape := ⟨2, ![1024, 1]⟩
abbrev S1024x128 : Shape := ⟨2, ![1024, 128]⟩
abbrev S1x128 : Shape := ⟨2, ![1, 128]⟩
abbrev S1x1 : Shape := ⟨2, ![1, 1]⟩

abbrev nBuf : Space → Nat
  | .hbm => 55
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000, .i32⟩
  | .hbm, ⟨2, _⟩ => ⟨S256x128, .f32⟩
  | .hbm, ⟨3, _⟩ => ⟨S128, .f32⟩
  | .hbm, ⟨4, _⟩ => ⟨S_, .f32⟩
  | .hbm, ⟨5, _⟩ => ⟨S128x1, .f32⟩
  | .hbm, ⟨6, _⟩ => ⟨S1, .f32⟩
  | .hbm, ⟨7, _⟩ => ⟨S_, .f32⟩
  | .hbm, ⟨8, _⟩ => ⟨S1024x256, .f32⟩
  | .hbm, ⟨9, _⟩ => ⟨S200000x1, .i32⟩
  | .hbm, ⟨10, _⟩ => ⟨S1024x256, .f32⟩
  | .hbm, ⟨11, _⟩ => ⟨S_, .f32⟩
  | .hbm, ⟨12, _⟩ => ⟨S200000x1, .f32⟩
  | .hbm, ⟨13, _⟩ => ⟨S_, .f32⟩
  | .hbm, ⟨14, _⟩ => ⟨S1024x1, .f32⟩
  | .hbm, ⟨15, _⟩ => ⟨S200000x1, .i32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x256, .f32⟩
  | .hbm, ⟨21, _⟩ => ⟨S1024x256, .f32⟩
  | .hbm, ⟨22, _⟩ => ⟨S1024x128, .f32⟩
  | .hbm, ⟨23, _⟩ => ⟨S1x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .i1⟩
  | .hbm, ⟨29, _⟩ => ⟨S1024x128, .f32⟩
  | .hbm, ⟨30, _⟩ => ⟨S1024x128, .f32⟩
  | .hbm, ⟨31, _⟩ => ⟨S1024x128, .f32⟩
  | .hbm, ⟨32, _⟩ => ⟨S1024x1, .f32⟩
  | .hbm, ⟨33, _⟩ => ⟨S1x1, .f32⟩
  | .hbm, ⟨34, _⟩ => ⟨S1024x1, .f32⟩
  | .hbm, ⟨35, _⟩ => ⟨S1024x1, .f32⟩
  | .hbm, ⟨36, _⟩ => ⟨S1024x1, .f32⟩
  | .hbm, ⟨37, _⟩ => ⟨S1024x1, .f32⟩
  | .hbm, ⟨38, _⟩ => ⟨S_, .f32⟩
  | .hbm, ⟨39, _⟩ => ⟨S1024x1, .f32⟩
  | .hbm, ⟨40, _⟩ => ⟨S1024x1, .f32⟩
  | .hbm, ⟨41, _⟩ => ⟨S_, .f32⟩
  | .hbm, ⟨42, _⟩ => ⟨S1024x1, .f32⟩
  | .hbm, ⟨43, _⟩ => ⟨S1024x1, .f32⟩
  | .hbm, ⟨44, _⟩ => ⟨S_, .i32⟩
  | .hbm, ⟨45, _⟩ => ⟨S200000, .i32⟩
  | .hbm, ⟨46, _⟩ => ⟨S200000, .i1⟩
  | .hbm, ⟨47, _⟩ => ⟨S_, .i32⟩
  | .hbm, ⟨48, _⟩ => ⟨S200000, .i32⟩
  | .hbm, ⟨49, _⟩ => ⟨S200000, .i32⟩
  | .hbm, ⟨50, _⟩ => ⟨S200000, .i32⟩
  | .hbm, ⟨51, _⟩ => ⟨S200000x1, .i32⟩
  | .hbm, ⟨52, _⟩ => ⟨S200000x1, .f32⟩
  | .hbm, ⟨53, _⟩ => ⟨S200000x256, .f32⟩
  | .hbm, ⟨54, _⟩ => ⟨S200000x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_c : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  bcast_S_S1024x256 : S_.BroadcastsInDim S1024x256 (![] : Fin 0 → Fin S1024x256.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S200000 : S_.BroadcastsInDim S200000 (![] : Fin 0 → Fin S200000.rank)
  bcast_S200000x1_S200000x256_0_1 : S200000x1.BroadcastsInDim S200000x256 (![0, 1] : Fin 2 → Fin S200000x256.rank)
  scatter_S1024x256_S200000x1_S200000x256_1_0_0_1_wf : ScatterDims.WF S1024x256 S200000x1 S200000x256 [1] [0] [0] 1
  scatter_S1024x1_S200000x1_S200000x1_1_0_0_1_wf : ScatterDims.WF S1024x1 S200000x1 S200000x1 [1] [0] [0] 1
  dot_S1024x256_S256x128_S1024x128_1_0_0_1_n_n_wf : DotDims.WF S1024x256 S256x128 S1024x128 [1] [0] [0] [1] [] []
  dot_S1024x128_S128x1_S1024x1_1_0_0_1_n_n_wf : DotDims.WF S1024x128 S128x1 S1024x1 [1] [0] [0] [1] [] []
  gather_S1024x1_S200000x1_S200000x1_1_0_n_n_0_1_11_wf : GatherDims.WF S1024x1 S200000x1 S200000x1 [1] [0] [] [0] [] 1 ![1, 1]

variable [Facts₀]

def scatter_S1024x256_S200000x1_S200000x256_1_0_0_1 : ScatterDims S1024x256 S200000x1 S200000x256 where
  updateWindowDims := [1]
  insertedWindowDims := [0]
  scatterDimsToOperandDims := [0]
  indexVectorDim := 1
  wf := scatter_S1024x256_S200000x1_S200000x256_1_0_0_1_wf
def scatter_S1024x1_S200000x1_S200000x1_1_0_0_1 : ScatterDims S1024x1 S200000x1 S200000x1 where
  updateWindowDims := [1]
  insertedWindowDims := [0]
  scatterDimsToOperandDims := [0]
  indexVectorDim := 1
  wf := scatter_S1024x1_S200000x1_S200000x1_1_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def gather_S1024x1_S200000x1_S200000x1_1_0_n_n_0_1_11 : GatherDims S1024x1 S200000x1 S200000x1 where
  offsetDims := [1]
  collapsedSliceDims := [0]
  operandBatchingDims := []
  startIndicesBatchingDims := []
  startIndexMap := [0]
  indexVectorDim := 1
  sliceSizes := ![1, 1]
  wf := gather_S1024x1_S200000x1_S200000x1_1_0_n_n_0_1_11_wf

class Facts : Prop extends Facts₀ where

variable [Facts]
-- ==== Proof.Bits.PoolDefs.lean ====
/-
  Region 0 (the pooling kernel), the definitions every later module shares: a window's block at a grid
  point read off the array as the region finds it; the two branch conditions of the body as
  propositions about the grid coordinate, in closed form over the 98 points (the first point resets
  the two accumulators, the last point copies them to the outputs); and the two accumulators after
  each point — the running sum  S_n = S_{n-1} + onehot(b_n)ᵀ · x_n  of the row tiles' one-hot
  products and the running count  C_n = C_{n-1} + Σ_rows onehot(b_n),  both started from zero at point 0.
-/
import proofs.«402786_j54597624267060_1_alg».proof.Proof.Gen.Kernel.Launch
import proofs.«402786_j54597624267060_1_alg».proof.Proof.Gen.Kernel.Skeleton
import proofs.«402786_j54597624267060_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's first conditional (reset the accumulators): the grid coordinate is 0. -/
abbrev cond0_0 (i : grid0.Coords) : Prop := (Scalar.cmpi .ne (Scalar.extui (Scalar.cmpi .eq (BitVec.ofNat 32 (i 0).val) 0#32)) 0#32) = 1#1
/-- The body's second conditional (copy the accumulators out): the grid coordinate is 97. -/
abbrev cond0_1 (i : grid0.Coords) : Prop := k0_cond2 i = 1#1

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 97 :=
  (by decide +kernel : ∀ t : Fin grid0.N, cond0_1 (grid0.coords t) ↔ t.val = 97)

/-- The two accumulators (sums, counts) after the body at point `n`. -/
def accAt0 (c : Dev nD) : (n : ℕ) → n < cfg0.N → Vec F S1024x256 .f32 × Vec F S1x1024 .f32
  | 0, hn => (k0_pay4 (iblk0 V c 0 ⟨0, hn⟩) (iblk0 V c 1 ⟨0, hn⟩) (k0_pay1 (F := F)),
              k0_pay5 (iblk0 V c 1 ⟨0, hn⟩) (k0_pay2 (F := F)))
  | n + 1, hn => (k0_pay4 (iblk0 V c 0 ⟨n + 1, hn⟩) (iblk0 V c 1 ⟨n + 1, hn⟩) (accAt0 c n (Nat.lt_of_succ_lt hn)).1,
                  k0_pay5 (iblk0 V c 1 ⟨n + 1, hn⟩) (accAt0 c n (Nat.lt_of_succ_lt hn)).2)

theorem accAt0_zero (c : Dev nD) (hn : 0 < cfg0.N) :
    accAt0 V c 0 hn = (k0_pay4 (iblk0 V c 0 ⟨0, hn⟩) (iblk0 V c 1 ⟨0, hn⟩) (k0_pay1 (F := F)),
              k0_pay5 (iblk0 V c 1 ⟨0, hn⟩) (k0_pay2 (F := F))) := rfl

theorem accAt0_succ (c : Dev nD) (n : ℕ) (hn : n + 1 < cfg0.N) :
    accAt0 V c (n + 1) hn = (k0_pay4 (iblk0 V c 0 ⟨n + 1, hn⟩) (iblk0 V c 1 ⟨n + 1, hn⟩) (accAt0 V c n (Nat.lt_of_succ_lt hn)).1,
                  k0_pay5 (iblk0 V c 1 ⟨n + 1, hn⟩) (accAt0 V c n (Nat.lt_of_succ_lt hn)).2) := rfl

end

end Cert.Kernel.Hand

end
-- ==== Proof.Bits.Pool.lean ====
/-
  Region 0 (the pooling kernel), the frame half: that the body, run at each of the 98 grid points on
  what the pipeline hands it, leaves every buffer at contents we can name.

  The body keeps two accumulators in scratch memory: the sums  S  (one row of 256 per graph) and the
  counts  C  (one per graph). At a point with row tile  x  and graph-id tile  b  it replaces
  S := S + onehot(b)ᵀ · x  and  C := C + Σ_rows onehot(b);  at the first point it first resets both to
  zero, and at the last point it copies both into the two output blocks. So after point n the
  accumulators are the running values  (S_n, C_n)  of the recurrence  S_n = step(x_n, b_n, S_{n-1}),
  C_n = count(b_n, C_{n-1})  started from zero, and the two output blocks, untouched before, hold
  (S_97, C_97)  after the last point.

  Three cases cover the points: the FIRST (reset, then accumulate), a MIDDLE one (accumulate only)
  and the LAST (accumulate, then copy out). In each the body's loads and stores go through the WHOLE
  of each buffer (the full rectangle at zero offsets), so a load reads the buffer's contents, a
  store leaves its value, and a load after a store reads the value stored. The region's invariant
  between points is the launch's own (every scoped buffer that is no staging buffer of this
  pipeline at some contents, the generator register at some state) with the two accumulators'
  contents named; the two output windows are idle at every point but the last, where the pipeline
  neither writes them back nor reads them, so there they are handed back as found.
-/
import proofs.«402786_j54597624267060_1_alg».proof.Proof.Gen.Kernel.Launch
import proofs.«402786_j54597624267060_1_alg».proof.Proof.Gen.Kernel.Skeleton
import proofs.«402786_j54597624267060_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«402786_j54597624267060_1_alg».proof.Proof.Bits.PoolDefs
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

section Readback
/-! ## Loads and stores through a whole buffer -/

variable {κ : Kind} {sp : Space} {S : Shape} {e : EltTy}

/-- Offsets `![0, 0]` are the zero offsets. -/
theorem zero2 : (![0, 0] : Fin 2 → Nat) = fun _ => 0 := funext fun a => by fin_cases a <;> rfl

/-- A load through the full rectangle at zero offsets reads the buffer's contents. -/
theorem readAt_full (v : View sig κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-- A store through it, made last, leaves its value whatever was stored before. -/
theorem read_store_full (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

end Readback

/-! ## Where the output windows are idle -/

/-- The two inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- The two outputs are idle exactly where the copy-out conditional is not taken. -/
theorem idleAt0_2 (t : Fin cfg0.N) (h : ¬cond0_1 (grid0.coords t)) : cfg0.idle 2 (grid0.coords t) = true := by
  show (!(k0_cond2 (grid0.coords t) == 1#1)) = true
  rw [Bool.not_eq_true', beq_eq_false_iff_ne]; exact h
theorem idleAt0_3 (t : Fin cfg0.N) (h : ¬cond0_1 (grid0.coords t)) : cfg0.idle 3 (grid0.coords t) = true := by
  show (!(k0_cond2 (grid0.coords t) == 1#1)) = true
  rw [Bool.not_eq_true', beq_eq_false_iff_ne]; exact h
theorem liveAt0_2 (t : Fin cfg0.N) (h : cond0_1 (grid0.coords t)) : cfg0.idle 2 (grid0.coords t) = false := by
  show (!(k0_cond2 (grid0.coords t) == 1#1)) = false
  rw [Bool.not_eq_false', beq_iff_eq]; exact h
theorem liveAt0_3 (t : Fin cfg0.N) (h : cond0_1 (grid0.coords t)) : cfg0.idle 3 (grid0.coords t) = false := by
  show (!(k0_cond2 (grid0.coords t) == 1#1)) = false
  rw [Bool.not_eq_false', beq_iff_eq]; exact h
/-- Before the last point the pipeline writes neither output back. -/
theorem noFlush0_2 (t : Fin cfg0.N) (h : t.val ≠ 97) : (cfg0.win 2).flush t = false := by
  have hN : t.val < 98 := lt_of_lt_of_eq t.isLt (show cfg0.N = 98 from N_0)
  rw [← Bool.not_eq_true, flush0_2 t]; omega
theorem noFlush0_3 (t : Fin cfg0.N) (h : t.val ≠ 97) : (cfg0.win 3).flush t = false := by
  have hN : t.val < 98 := lt_of_lt_of_eq t.isLt (show cfg0.N = 98 from N_0)
  rw [← Bool.not_eq_true, flush0_3 t]; omega

/-! ## The memrefs the body is called with -/

abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S1024x256 .f32 := Memref.whole cc0_scratch0
abbrev scM0_1 : Memref sig .tc .vmem S1x1024 .f32 := Memref.whole cc0_scratch1

/-! ## The region's invariant -/

/-- The scoped buffers that are neither a staging buffer of this pipeline nor an accumulator (the other pipeline's
    seven staging buffers), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The launch's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

/-- The invariant before position `n`: before the first point the launch's; afterwards the same with the two
    accumulators at the running sums and counts after point `n - 1`. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn).1 ∗ owns (c : Thread nD τ) scM0_1 fullShare (accAt0 V c n hn).2 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (accAt0 V c n hn).1 ∗ owns (c : Thread nD τ) scM0_1 fullShare (accAt0 V c n hn).2 ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (accAt0 V c (n - 1) (by omega)).1 ∗ owns (c : Thread nD τ) scM0_1 fullShare (accAt0 V c (n - 1) (by omega)).2 ∗ rest0 (F := F) c) ∗ (∃ r, prngReg c r)) := by
  cases n with
  | zero => exact absurd rfl hz
  | succ n => rfl

/-- The accumulators after the first point: one step from zero. -/
theorem accAt0_first (c : Dev nD) (t : Fin cfg0.N) (h0 : t.val = 0) :
    accAt0 V c t.val t.isLt = (k0_pay4 (iblk0 V c 0 t) (iblk0 V c 1 t) (k0_pay1 (F := F)), k0_pay5 (iblk0 V c 1 t) (k0_pay2 (F := F))) := by
  obtain ⟨n, hn⟩ := t
  cases n with
  | zero => rfl
  | succ n => exact absurd h0 (Nat.succ_ne_zero n)

/-- The accumulators after a later point: one step from the point before. -/
theorem accAt0_pos (c : Dev nD) (t : Fin cfg0.N) (hz : t.val ≠ 0) :
    accAt0 V c t.val t.isLt = (k0_pay4 (iblk0 V c 0 t) (iblk0 V c 1 t) (accAt0 V c (t.val - 1) (Nat.lt_of_le_of_lt (Nat.sub_le _ _) t.isLt)).1, k0_pay5 (iblk0 V c 1 t) (accAt0 V c (t.val - 1) (Nat.lt_of_le_of_lt (Nat.sub_le _ _) t.isLt)).2) := by
  obtain ⟨n, hn⟩ := t
  cases n with
  | zero => exact absurd rfl hz
  | succ n => rfl

/-! ## The pipeline's proof data -/

/-- The proof data of pipeline 0 on core `c`: the arrays as the region finds them; after the body at point `t` each
    input's buffer at its block and the two outputs' at the accumulators after `t` (consulted at the last point only:
    elsewhere the outputs are idle); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (accAt0 V c t.val t.isLt).1
    | ⟨3, _⟩ => (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (accAt0 V c t.val t.isLt).1 := by dsimp only [dat0]
theorem after0_3 (c : Dev nD) (t : Fin cfg0.N) : (dat0 V c).after 3 t = (accAt0 V c t.val t.isLt).2 := by dsimp only [dat0]

/-- Each input's current staging buffer holds its block at every point, fetched there or not: an input the body
    leaves in place, never idle, its blocks uncut. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body's triple, case by case

On whole memrefs, the inputs' at their contents `x`, `b`: each case runs to the continuation holding the inputs' as they
were and the accumulators one step on. Every access of the body goes through the whole of its buffer, so a load reads the
contents, a store leaves its value, and a load after a store reads the value stored. -/

set_option maxHeartbeats 1000000 in
/-- FIRST point (reset taken, copy-out not): the accumulators, at anything before, end one step from zero; the outputs
    are handed back as found. -/
theorem kernel0_first (c : Dev nD) (i : grid0.Coords)
    (arg1 : Memref sig .tc .vmem S2048x256 .f32) (harg1 : arg1.IsWhole) (arg2 : Memref sig .tc .vmem S2048x1 .i32) (harg2 : arg2.IsWhole)
    (arg3 : Memref sig .tc .vmem S1024x256 .f32) (harg3 : arg3.IsWhole) (arg4 : Memref sig .tc .vmem S1x1024 .f32) (harg4 : arg4.IsWhole)
    (arg5 : Memref sig .tc .vmem S1024x256 .f32) (harg5 : arg5.IsWhole) (arg6 : Memref sig .tc .vmem S1x1024 .f32) (harg6 : arg6.IsWhole)
    (hc0 : cond0_0 i) (hc1 : ¬cond0_1 i)
    (x : Vec F S2048x256 .f32) (b : Vec F S2048x1 .i32) (y2 : Vec F S1024x256 .f32) (y3 : Vec F S1x1024 .f32)
    (E : Set ℕ) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg3 fullShare y2 ∗ owns (c : Thread nD τ) arg4 fullShare y3
            ∗ owns (c : Thread nD τ) arg5 fullShare (k0_pay4 x b (k0_pay1 (F := F))) ∗ owns (c : Thread nD τ) arg6 fullShare (k0_pay5 b (k0_pay2 (F := F)))) -∗ K ⟨⟩))
      ⊢ wp frame (wpE (defs₀ (F := F)) Variants.none c none) E (cc0__pool_kernel i arg1 harg1 arg2 harg2 arg3 harg3 arg4 harg4 arg5 harg5 arg6 harg6) K := by
  simp only [cc0__pool_kernel_eq_skeleton]; unfold cc0__pool_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    rw [read_store_full (F := F) (S := S1024x256) arg5.view f5 zero2]
    sl_unfold_run_names
    rw [View.readCov_cons_toLoadRect, readAt_full (F := F) (S := S2048x256) arg1.view f1 zero2, readAt_full (F := F) (S := S2048x1) arg2.view f2 zero2]
  iexists _; isplitr
  swap; · iexact H6
  ipureintro
  rw [read_store_full (F := F) (S := S1x1024) arg6.view f6 zero2]
  sl_unfold_run_names
  rw [View.readCov_cons_toLoadRect, readAt_full (F := F) (S := S2048x1) arg2.view f2 zero2]

set_option maxHeartbeats 1000000 in
/-- A MIDDLE point (neither conditional taken): the accumulators go one step on; the outputs are handed back as found. -/
theorem kernel0_mid (c : Dev nD) (i : grid0.Coords)
    (arg1 : Memref sig .tc .vmem S2048x256 .f32) (harg1 : arg1.IsWhole) (arg2 : Memref sig .tc .vmem S2048x1 .i32) (harg2 : arg2.IsWhole)
    (arg3 : Memref sig .tc .vmem S1024x256 .f32) (harg3 : arg3.IsWhole) (arg4 : Memref sig .tc .vmem S1x1024 .f32) (harg4 : arg4.IsWhole)
    (arg5 : Memref sig .tc .vmem S1024x256 .f32) (harg5 : arg5.IsWhole) (arg6 : Memref sig .tc .vmem S1x1024 .f32) (harg6 : arg6.IsWhole)
    (hc0 : ¬cond0_0 i) (hc1 : ¬cond0_1 i)
    (x : Vec F S2048x256 .f32) (b : Vec F S2048x1 .i32) (y2 : Vec F S1024x256 .f32) (y3 : Vec F S1x1024 .f32)
    (s : Vec F S1024x256 .f32) (k : Vec F S1x1024 .f32) (E : Set ℕ) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare k
        ∗ (iprop(owns (c : Thread nD τ) arg1 fullShare x ∗ owns (c : Thread nD τ) arg2 fullShare b
            ∗ owns (c : Thread nD τ) arg3 fullShare y2 ∗ owns (c : Thread nD τ) arg4 fullShare y3
            ∗ owns (c : Thread nD τ) arg5 fullShare (k0_pay4 x b s) ∗ owns (c : Thread nD τ) arg6 fullShare (k0_pay5 b k)) -∗ K ⟨⟩))
      ⊢ wp frame (wpE (defs₀ (F := F)) Variants.none c none) E (cc0__pool_kernel i arg1 harg1 arg2 harg2 arg3 harg3 arg4 harg4 arg5 harg5 arg6 harg6) K := by
  simp only [cc0__pool_kernel_eq_skeleton]; unfold cc0__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1; subst hf2; subst hf3; subst hf4; subst hf5; subst hf6
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    rw [read_store_full (F := F) (S := S1024x256) arg5.view f5 zero2]
    rw [readAt_full (F := F) (S := S2048x256) arg1.view f1 zero2, readAt_full (F := F) (S := S2048x1) arg2.view f2 zero2, readAt_full (F := F) (S := S1024x256) arg5.view f5 zero2]
  iexists _; isplitr
  swap; · iexact H6
  ipureintro
  rw [read_store_full (F := F) (S := S1x1024) arg6.view f6 zero2]
  rw [readAt_full (F := F) (S := S2048x1) arg2.view f2 zero2, readAt_full (F := F) (S := S1x1024) arg6.view f6 zero2]

set_option maxHeartbeats 1000000 in
/-- LAST point (reset not taken, copy-out taken): the accumulators go one step on, and the two outputs, at anything
    before, end at the accumulators' new contents. -/
theorem kernel0_last (c : Dev nD) (i : grid0.Coords)
    (arg1 : Memref sig .tc .vmem S2048x256 .f32) (harg1 : arg1.IsWhole) (arg2 : Memref sig .tc .vmem S2048x1 .i32) (harg2 : arg2.IsWhole)
    (arg3 : Memref sig .tc .vmem S1024x256 .f32) (harg3 : arg3.IsWhole) (arg4 : Memref sig .tc .vmem S1x1024 .f32) (harg4 : arg4.IsWhole)
    (arg5 : Memref sig .tc .vmem S1024x256 .f32) (harg5 : arg5.IsWhole) (arg6 : Memref sig .tc .vmem S1x1024 .f32) (harg6 : arg6.IsWhole)
    (hc0 : ¬cond0_0 i) (hc1 : cond0_1 i)
    (x : Vec F S2048x256 .f32) (b : Vec F S2048x1 .i32)
    (s : Vec F S1024x256 .f32) (k : Vec F S1x1024 .f32) (E : Set ℕ) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s ∗ owns (c : Thread nD τ) arg6 fullShare k
        ∗ (iprop(owns (c : Thread nD τ) arg1 fullShare x ∗ owns (c : Thread nD τ) arg2 fullShare b
            ∗ owns (c : Thread nD τ) arg3 fullShare (k0_pay4 x b s) ∗ owns (c : Thread nD τ) arg4 fullShare (k0_pay5 b k)
            ∗ owns (c : Thread nD τ) arg5 fullShare (k0_pay4 x b s) ∗ owns (c : Thread nD τ) arg6 fullShare (k0_pay5 b k)) -∗ K ⟨⟩))
      ⊢ wp frame (wpE (defs₀ (F := F)) Variants.none c none) E (cc0__pool_kernel i arg1 harg1 arg2 harg2 arg3 harg3 arg4 harg4 arg5 harg5 arg6 harg6) K := by
  simp only [cc0__pool_kernel_eq_skeleton]; unfold cc0__pool_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf1; subst hf2; subst hf5; subst hf6
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr
    swap; · iexact H3
    ipureintro
    rw [read_store_full (F := F) (S := S1024x256) arg3.view f3 zero2]
    sl_unfold_run_names
    rw [View.readCov_cons_toLoadRect, readAt_full (F := F) (S := S2048x256) arg1.view f1 zero2, readAt_full (F := F) (S := S2048x1) arg2.view f2 zero2, readAt_full (F := F) (S := S1024x256) arg5.view f5 zero2]
  isplitl [H4]
  · iexists _; isplitr
    swap; · iexact H4
    ipureintro
    rw [read_store_full (F := F) (S := S1x1024) arg4.view f4 zero2]
    sl_unfold_run_names
    rw [View.readCov_cons_toLoadRect, readAt_full (F := F) (S := S2048x1) arg2.view f2 zero2, readAt_full (F := F) (S := S1x1024) arg6.view f6 zero2]
  isplitl [H5]
  · iexists _; isplitr
    swap; · iexact H5
    ipureintro
    sl_unfold_run_names
    rw [read_store_full (F := F) (S := S1024x256) arg5.view f5 zero2]
    rw [readAt_full (F := F) (S := S2048x256) arg1.view f1 zero2, readAt_full (F := F) (S := S2048x1) arg2.view f2 zero2, readAt_full (F := F) (S := S1024x256) arg5.view f5 zero2]
  iexists _; isplitr
  swap; · iexact H6
  ipureintro
  sl_unfold_run_names
  rw [read_store_full (F := F) (S := S1x1024) arg6.view f6 zero2]
  rw [readAt_full (F := F) (S := S2048x1) arg2.view f2 zero2, readAt_full (F := F) (S := S1x1024) arg6.view f6 zero2]

/-- The accumulators' two components, at the first point and at a later one. -/
theorem accAt0_first_1 (c : Dev nD) (t : Fin cfg0.N) (h0 : t.val = 0) :
    (accAt0 V c t.val t.isLt).1 = k0_pay4 (iblk0 V c 0 t) (iblk0 V c 1 t) (k0_pay1 (F := F)) := by rw [accAt0_first V c t h0]
theorem accAt0_first_2 (c : Dev nD) (t : Fin cfg0.N) (h0 : t.val = 0) :
    (accAt0 V c t.val t.isLt).2 = k0_pay5 (iblk0 V c 1 t) (k0_pay2 (F := F)) := by rw [accAt0_first V c t h0]
theorem accAt0_pos_1 (c : Dev nD) (t : Fin cfg0.N) (hz : t.val ≠ 0) :
    (accAt0 V c t.val t.isLt).1 = k0_pay4 (iblk0 V c 0 t) (iblk0 V c 1 t) (accAt0 V c (t.val - 1) (Nat.lt_of_le_of_lt (Nat.sub_le _ _) t.isLt)).1 := by rw [accAt0_pos V c t hz]
theorem accAt0_pos_2 (c : Dev nD) (t : Fin cfg0.N) (hz : t.val ≠ 0) :
    (accAt0 V c t.val t.isLt).2 = k0_pay5 (iblk0 V c 1 t) (accAt0 V c (t.val - 1) (Nat.lt_of_le_of_lt (Nat.sub_le _ _) t.isLt)).2 := by rw [accAt0_pos V c t hz]

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's position says which of the three cases it
    is in. The invariant hands the body the accumulators at the running values the point before left (at anything, at the
    first point) and takes them back one step on; at the last point the two outputs end at the new running values, and
    at every other point, where they are idle and not written back, they are handed back as found. Nothing is owed
    throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  have hN : t.val < 98 := lt_of_lt_of_eq t.isLt (show cfg0.N = 98 from N_0)
  by_cases h97 : t.val = 97
  · -- the last point: accumulate, then copy out
    have hc0 : ¬cond0_0 (grid0.coords t) := fun h => by have := (hcond0_0 t).mp h; omega
    have hc1 : cond0_1 (grid0.coords t) := (hcond0_1 t).mpr h97
    have hz : t.val ≠ 0 := by omega
    rw [show (dat0 V c).leavesExact 2 t = owns (c : Thread nD τ) (ms0_2 t) fullShare ((dat0 V c).after 2 t) from by
      unfold Dat.leavesExact; rw [liveAt0_2 t hc1], after0_2]
    rw [show (dat0 V c).leavesExact 3 t = owns (c : Thread nD τ) (ms0_3 t) fullShare ((dat0 V c).after 3 t) from by
      unfold Dat.leavesExact; rw [liveAt0_3 t hc1], after0_3]
    rw [accAt0_pos_1 V c t hz, accAt0_pos_2 V c t hz]
    rw [PhiS0_castSucc V c t, PhiS0_pos V c _ _ hz]
    iintro ⟨⟨⟨HS0, HS1, Hr⟩, Hg⟩, Ho, ⟨%d0, H0⟩, ⟨%d1, H1⟩, ⟨%d2, H2⟩, ⟨%d3, H3⟩⟩
    iapply (kernel0_last c (grid0.coords t) _ _ _ _ _ _ _ _ _ _ _ _ hc0 hc1 (iblk0 V c 0 t) (iblk0 V c 1 t) _ _ Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    isplitl [H2]; · iexact H2
    iexact H3
  · have hc1 : ¬cond0_1 (grid0.coords t) := fun h => h97 ((hcond0_1 t).mp h)
    rw [Dat.leavesExact_idle (dat0 V c) 2 t (idleAt0_2 t hc1) (noFlush0_2 t h97)]
    rw [Dat.leavesExact_idle (dat0 V c) 3 t (idleAt0_3 t hc1) (noFlush0_3 t h97)]
    by_cases h0 : t.val = 0
    · -- the first point: reset, then accumulate
      have hc0 : cond0_0 (grid0.coords t) := (hcond0_0 t).mpr h0
      rw [accAt0_first_1 V c t h0, accAt0_first_2 V c t h0]
      rw [PhiS0_castSucc V c t, PhiS0_zero V c _ _ h0, PhiA0_eq]
      iintro ⟨⟨⟨HS0, HS1, Hr⟩, Hg⟩, Ho, ⟨%d0, H0⟩, ⟨%d1, H1⟩, ⟨%d2, H2⟩, ⟨%d3, H3⟩⟩
      iapply (kernel0_first c (grid0.coords t) _ _ _ _ _ _ _ _ _ _ _ _ hc0 hc1 (iblk0 V c 0 t) (iblk0 V c 1 t) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexists _; iexact H2
      iexists _; iexact H3
    · -- a middle point: accumulate only
      have hc0 : ¬cond0_0 (grid0.coords t) := fun h => h0 ((hcond0_0 t).mp h)
      rw [accAt0_pos_1 V c t h0, accAt0_pos_2 V c t h0]
      rw [PhiS0_castSucc V c t, PhiS0_pos V c _ _ h0]
      iintro ⟨⟨⟨HS0, HS1, Hr⟩, Hg⟩, Ho, ⟨%d0, H0⟩, ⟨%d1, H1⟩, ⟨%d2, H2⟩, ⟨%d3, H3⟩⟩
      iapply (kernel0_mid c (grid0.coords t) _ _ _ _ _ _ _ _ _ _ _ _ hc0 hc1 (iblk0 V c 0 t) (iblk0 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 98 := N_0; omega)

end

end Cert.Kernel.Hand

end
-- ==== Proof.Bits.ScaleDefs.lean ====
/-
  Region 1 (the scaling kernel), the definitions every later module shares: a window's block at a grid
  point, and what the body leaves in the output window's buffer — its one store, of the product of the
  row tile with each row's score (the masked sum of the per-graph gate over the row's one-hot).
-/
import proofs.«402786_j54597624267060_1_alg».proof.Proof.Gen.Kernel.Launch
import proofs.«402786_j54597624267060_1_alg».proof.Proof.Gen.Kernel.Skeleton
import proofs.«402786_j54597624267060_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The one rectangle the body of region 1 loads and stores through: a whole 2048×256 buffer. -/
abbrev r1_0 : Rect S2048x256 := Rect.unit (s := S2048x256) ![0, 0] S2048x256.size inb_S2048x256_S2048x256_0_0
abbrev r1_1 : Rect S2048x1 := Rect.unit (s := S2048x1) ![0, 0] S2048x1.size inb_S2048x1_S2048x1_0_0
abbrev r1_2 : Rect S1x1024 := Rect.unit (s := S1x1024) ![0, 0] S1x1024.size inb_S1x1024_S1x1024_0_0

/-- The output window's buffer after the body, from the three input blocks. -/
def out1_3 (x0 : Vec F S2048x256 .f32) (x1 : Vec F S2048x1 .i32) (x2 : Vec F S1x1024 .f32) : Vec F S2048x256 .f32 :=
  View.canon [⟨r1_0, k1_pay1 (View.ld x0 r1_0) (View.ld x1 r1_1) (View.ld x2 r1_2)⟩]

end

end Cert.Kernel.Hand

end
-- ==== Proof.Bits.Scale.lean ====
/-
  Region 1 (the scaling kernel), the body half of its frame, at any float instance and at a PARAMETER
  `V`: the TensorCore's buffer contents when the region is entered.

  The kernel belongs to the plainest class of pipeline bodies. At every grid point it reads its three
  input windows whole — the row tile, the tile of graph ids, the row of per-graph gates —, computes, and
  writes its one output window whole; it keeps nothing from point to point and has no conditional. So:

  * what the body finds in an input window's buffer is that window's block at the point, whether or not
    the pipeline fetched it there. The row tile and the id tile are fetched at every point; the gate row
    is fetched at the first point only, and at every later point its block index has not moved, so the
    buffer still holds the block (`before1_0`, `before1_1`, `before1_2`);
  * what the body leaves in the output window's buffer is a closed function of the three input blocks:
    its single store covers the buffer, so whatever the buffer held before — the body also reads it, and
    discards what it read — is overwritten (`cover1_3`, `sound_kernel1`);
  * the proof data `dat1` records exactly this: the arrays as the region finds them, the inputs' buffers
    left at their blocks, the output's at `out1_3` of the blocks, the invariant that of the class (the
    scoped rest and the generator register untouched), nothing owed, full shares;
  * `body_obligation1`: the body's triple at every grid point, the invariant and what is owed passing
    through unread.
-/
import proofs.«402786_j54597624267060_1_alg».proof.Proof.Gen.Kernel.Launch
import proofs.«402786_j54597624267060_1_alg».proof.Proof.Gen.Kernel.Skeleton
import proofs.«402786_j54597624267060_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«402786_j54597624267060_1_alg».proof.Proof.Bits.ScaleDefs
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in each input window's buffer -/

/-- The row tile's current buffer holds its block at every point, for ANY proof data whose array is the
    region-entry contents and whose body leaves the block in place. The window is an input, never idle and
    uncut, so a point where it is not fetched has the block index of the point before. -/
theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

/-- The same of the tile of graph ids. -/
theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

/-- The same of the gate row, which the pipeline fetches at the first point only: its index map is
    constant, so at every later point the buffer still holds the one block there is. -/
theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t :=
  (dat.before_in_eq_fetched 2 rfl (fun _ => rfl) (fun _ _ _ => rfl)
      (fun t => by rw [hafter]; unfold Dat.blockOf iblk1; rw [hA]; try rfl) t d).trans
    (by unfold Dat.fetched Dat.blockOf iblk1; rw [hA]; try rfl)

/-! ## What the body leaves in the output window's buffer -/

/-- The body's one store is of the whole 2048×256 buffer: a single tile of the buffer's own size, so every
    index of the buffer lies in it. -/
theorem cover1_3 (p0 : Vec F S2048x256 .f32) (y : S2048x256.Idx) :
    ∃ pc ∈ ([⟨r1_0, p0⟩] : List (View.Piece (Elt F) S2048x256 .f32)), y ∈ pc.1.set :=
  View.cover_of_tiled [⟨r1_0, p0⟩] S2048x256.size (by rfl) y

/-! ## The body's triple -/

set_option maxHeartbeats 1000000 in
/-- The kernel body on whole staging memrefs — the three inputs' at read contents `x0`, `x1`, `x2`, the
    output's at anything — runs, at any grid point, to the continuation holding the inputs' as they were and
    the output's at `out1_3 x0 x1 x2`. The body reads the three inputs, reads the output's buffer and drops
    what it read, and stores the product over the whole buffer; the store covers the buffer, so what the
    buffer reads afterwards is the canonical contents of that one write, whatever was there before. -/
theorem sound_kernel1 (c : Dev nD) (E : Set ℕ) (i : grid1.Coords)
    (arg1 : Memref sig .tc .vmem S2048x256 .f32) (harg1 : arg1.IsWhole)
    (arg2 : Memref sig .tc .vmem S2048x1 .i32) (harg2 : arg2.IsWhole)
    (arg3 : Memref sig .tc .vmem S1x1024 .f32) (harg3 : arg3.IsWhole)
    (arg4 : Memref sig .tc .vmem S2048x256 .f32) (harg4 : arg4.IsWhole)
    (x0 : Vec F S2048x256 .f32) (x1 : Vec F S2048x1 .i32) (x2 : Vec F S1x1024 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out1_3 x0 x1 x2)) -∗ K ⟨⟩))
      ⊢ wp frame (wpE (defs₀ (F := F)) Variants.none c none) E
          (cc1__scale_kernel i arg1 harg1 arg2 harg2 arg3 harg3 arg4 harg4) K := by
  simp only [cc1__scale_kernel_eq_skeleton]; unfold cc1__scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point
    `t` each input's buffer at its block and the output's at `out1_3` of the three input blocks; the invariant
    that of the class (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, what is owed, and each window's current
    staging buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' memrefs hold their blocks, so the body's triple applies; the
    invariant and what is owed are the same before and after, and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.Bits.Run.lean ====
/-
  The run of the whole program, at any float instance: its ten items — four stretches of host operations that pad
  x with zero rows and the batch column with −1, the pooling region, three stretches that turn the pooled sums and
  counts into the per-graph gate, the scaling region, and the final slice — composed in order.
  Between two items every unscoped buffer of a core holds a known value: the launch memory, then each host stretch
  applied to it, and across a region the region's own arrays replaced by what its write-backs leave (every other
  buffer untouched). The last of these valuations, W10, is what every final memory holds; the frame — the seven
  argument arrays end as launched — is read off it, since no host stretch writes an argument and none is an array
  of either region.
-/
import proofs.«402786_j54597624267060_1_alg».proof.Proof.Gen.Kernel.Launch
import proofs.«402786_j54597624267060_1_alg».proof.Proof.Gen.Kernel.Skeleton
import proofs.«402786_j54597624267060_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«402786_j54597624267060_1_alg».proof.Proof.Bits.Pool
import proofs.«402786_j54597624267060_1_alg».proof.Proof.Bits.Scale
import proofs.«402786_j54597624267060_1_alg».proof.Proof.Gen.Kernel.Regions
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items of the program -/

/-- Core `c`'s buffers at launch. -/
abbrev W0 : Dev nD → Valuation τ sig (Elt F) := fun c b => (s₀ m ρ).mem ((c : Dev nD), b)
/-- After the constant 0 that pads x. -/
abbrev W1 : Dev nD → Valuation τ sig (Elt F) := fun c => StableHlo.after hostOps0 (W0 m ρ c)
/-- After x is padded with 704 zero rows. -/
abbrev W2 : Dev nD → Valuation τ sig (Elt F) := fun c => StableHlo.after hostOps0_1 (W1 m ρ c)
/-- After batch is reshaped to a column, and the constant −1 that pads it. -/
abbrev W3 : Dev nD → Valuation τ sig (Elt F) := fun c => StableHlo.after hostOps0_2 (W2 m ρ c)
/-- After the batch column is padded with 704 rows of −1: the pooling region's entry. -/
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b
/-- At the pooling region's exit: its four arrays at what its write-backs leave, every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)
/-- After the mean and the hidden layer up to a · h. -/
abbrev W6 : Dev nD → Valuation τ sig (Elt F) := fun c => StableHlo.after hostOps1 (W5 m ρ c)
/-- After the activation's select. -/
abbrev W7 : Dev nD → Valuation τ sig (Elt F) := fun c => StableHlo.after hostOps1_1 (W6 m ρ c)
/-- After the gate and its reshape to a row: the scaling region's entry. -/
abbrev W8 : Dev nD → Valuation τ sig (Elt F) := fun c => StableHlo.after hostOps1_2 (W7 m ρ c)
abbrev V8 : (c : Dev nD) → (b : Ref sig .tc) → Buf (Elt F) ((c : Thread nD τ).loc b) := fun c b => W8 m ρ c b
/-- At the scaling region's exit. -/
def W9 (c : Dev nD) : Valuation τ sig (Elt F) :=
  Pipeline.withArrays spec1 c (W8 m ρ c) fun w => (dat1 (V8 m ρ) c).arrAt w cfg1.N
theorem W9_arr (c : Dev nD) (w : Fin cfg1.W) :
    W9 m ρ c (Proc.devRef .tc (Pipeline.arrRef spec1 w)) = (dat1 (V8 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
abbrev V9 : (c : Dev nD) → (b : Ref sig .tc) → Buf (Elt F) ((c : Thread nD τ).loc b) := fun c b => W9 m ρ c b
theorem hF1 (c : Dev nD) (w : Fin cfg1.W) : (dat1 (V8 m ρ) c).arrAt w cfg1.N = V9 m ρ c (Pipeline.arrRef spec1 w) :=
  (W9_arr m ρ c w).symm
theorem hrest1 (c : Dev nD) : ∀ b, b ∉ Finset.univ.image (Pipeline.arrRef spec1) → V9 m ρ c b = V8 m ρ c b :=
  fun b hb => W9_of_ne m ρ c b fun w e => hb (Finset.mem_image.mpr ⟨w, Finset.mem_univ _, e⟩)
/-- After the slice back to 200000 rows: the end of the program. -/
abbrev W10 : Dev nD → Valuation τ sig (Elt F) := fun c => StableHlo.after hostOps2 (W9 m ρ c)

/-- A buffer that no host stretch writes and that is no array of either region holds at the end what it held at
    launch: the fold walked back one item at a time. -/
theorem W10_of_untouched (c : Dev nD) (r : Ref sig .tc)
    (h0 : r ∉ hostOps0_W) (h1 : r ∉ hostOps0_1_W) (h2 : r ∉ hostOps0_2_W) (h3 : r ∉ hostOps0_3_W)
    (h4 : ∀ w, Pipeline.arrRef spec0 w ≠ r) (h5 : r ∉ hostOps1_W) (h6 : r ∉ hostOps1_1_W) (h7 : r ∉ hostOps1_2_W)
    (h8 : ∀ w, Pipeline.arrRef spec1 w ≠ r) (h9 : r ∉ hostOps2_W) :
    W10 m ρ c (Proc.devRef .tc r) = m ((c : Thread nD τ).loc r) :=
  calc W10 m ρ c (Proc.devRef .tc r)
    _ = W9 m ρ c (Proc.devRef .tc r) := StableHlo.after_of_writes_sub hostOps2 _ hostOps2_writes h9
    _ = W8 m ρ c (Proc.devRef .tc r) := W9_of_ne m ρ c r h8
    _ = W7 m ρ c (Proc.devRef .tc r) := StableHlo.after_of_writes_sub hostOps1_2 _ hostOps1_2_writes h7
    _ = W6 m ρ c (Proc.devRef .tc r) := StableHlo.after_of_writes_sub hostOps1_1 _ hostOps1_1_writes h6
    _ = W5 m ρ c (Proc.devRef .tc r) := StableHlo.after_of_writes_sub hostOps1 _ hostOps1_writes h5
    _ = W4 m ρ c (Proc.devRef .tc r) := W5_of_ne m ρ c r h4
    _ = W3 m ρ c (Proc.devRef .tc r) := StableHlo.after_of_writes_sub hostOps0_3 _ hostOps0_3_writes h3
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V8 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

/-- The class invariant of a region is the scoped buffers no window of it stages, each at anything, and the
    generator register at some state: what the region's entry assembles it from, and what its exit takes it apart to. -/
theorem toPhiA (p : Fin 2) (c : Dev nD) (X : sProp 𝕄) :
    iprop((∃ r, prngReg c r) ∗ X ∗ Pipeline.scopedRest (Pipeline.pin (pcfgs (F := F)) adm p).spec c)
      ⊢ (Pipeline.ΦA (Pipeline.pin (pcfgs (F := F)) adm p).spec c : sProp 𝕄) := by
  unfold Pipeline.ΦA
  iintro ⟨Hp, -, Hr⟩
  isplitl [Hr]; · iexact Hr
  iexact Hp
theorem ofPhiA (p : Fin 2) (c : Dev nD) :
    (Pipeline.ΦA (Pipeline.pin (pcfgs (F := F)) adm p).spec c : sProp 𝕄)
      ⊢ iprop((∃ r, prngReg c r) ∗ BI.emp ∗ Pipeline.scopedRest (Pipeline.pin (pcfgs (F := F)) adm p).spec c) := by
  unfold Pipeline.ΦA
  iintro ⟨Hr, Hp⟩
  isplitl [Hp]; · iexact Hp
  isplitr; · iempintro
  iexact Hr

/-! ## The regions as segments -/

set_option backward.isDefEq.respectTransparency.types false in
/-- The pooling region over the thread state: entered from every unscoped buffer at `W4`, left at `W5`. Its four
    arrays are split out of the unscoped buffers and put back at the exit contents; the generator register and the
    scoped buffers it does not stage enter its invariant (whose first point is the class invariant) and come back
    from its last point; nothing is owed; it has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA 0 c _).trans (hin0 (V4 m ρ) c)
  hout c := by
    rw [Pipeline.ownSems0_none]
    exact (hout0 (V4 m ρ) c).trans (ofPhiA 0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scaling region over the thread state: entered from every unscoped buffer at `W8`, left at `W9`; the class
    invariant throughout. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V8 m ρ) c).loose
  hwaits := Pipeline.hwaits_of_owed_zero _ _ _ _ L lv 1 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec1 c (V8 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    exact toPhiA 1 c _
  hout c := by
    rw [Pipeline.ownSems0_none, show (pdats m ρ 1 c).Φ (Fin.last _) = Pipeline.ΦA spec1 c from rfl]
    exact ofPhiA 1 c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V8 m ρ c) (V9 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's ten items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .host (hseg hostOps1_1 hostOps1_1_sub hostOps1_1_fresh (W6 m ρ)),
    .host (hseg hostOps1_2 hostOps1_2_sub hostOps1_2_fresh (W7 m ρ)),
    .region (reg1 m ρ),
    .host (hseg hostOps2 hostOps2_sub hostOps2_fresh (W9 m ρ)) ]

theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and in every final state each unscoped buffer of each core holds what the fold `W10` says. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W10 m ρ c) ∗ R c) : sProp 𝕄) ⊢ _
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- THE FRAME at any float instance: the seven argument arrays end as launched — no host stretch writes one and
    none is an array of either region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W10_of_untouched m ρ c main_arg0 (by decide) (by decide) (by decide) (by decide) (by decide) (by decide) (by decide) (by decide) (by decide) (by decide)),
     (h c _ (mem_uc main_arg1 (by decide))).trans (W10_of_untouched m ρ c main_arg1 (by decide) (by decide) (by decide) (by decide) (by decide) (by decide) (by decide) (by decide) (by decide) (by decide)),
     (h c _ (mem_uc main_arg2 (by decide))).trans (W10_of_untouched m ρ c main_arg2 (by decide) (by decide) (by decide) (by decide) (by decide) (by decide) (by decide) (by decide) (by decide) (by decide)),
     (h c _ (mem_uc main_arg3 (by decide))).trans (W10_of_untouched m ρ c main_arg3 (by decide) (by decide) (by decide) (by decide) (by decide) (by decide) (by decide) (by decide) (by decide) (by decide)),
     (h c _ (mem_uc main_arg4 (by decide))).trans (W10_of_untouched m ρ c main_arg4 (by decide) (by decide) (by decide) (by decide) (by decide) (by decide) (by decide) (by decide) (by decide) (by decide)),
     (h c _ (mem_uc main_arg5 (by decide))).trans (W10_of_untouched m ρ c main_arg5 (by decide) (by decide) (by decide) (by decide) (by decide) (by decide) (by decide) (by decide) (by decide) (by decide)),
     (h c _ (mem_uc main_arg6 (by decide))).trans (W10_of_untouched m ρ c main_arg6 (by decide) (by decide) (by decide) (by decide) (by decide) (by decide) (by decide) (by decide) (by decide) (by decide))⟩)
    (run_main m ρ)

end Cert.Kernel.Hand

end
-- ==== Proof.PoolDefs.lean ====
/-
  Region 0 (the pooling kernel), the definitions every later module shares: a window's block at a grid
  point read off the array as the region finds it; the two branch conditions of the body as
  propositions about the grid coordinate, in closed form over the 98 points (the first point resets
  the two accumulators, the last point copies them to the outputs); and the two accumulators after
  each point — the running sum  S_n = S_{n-1} + onehot(b_n)ᵀ · x_n  of the row tiles' one-hot
  products and the running count  C_n = C_{n-1} + Σ_rows onehot(b_n),  both started from zero at point 0.
-/
import proofs.«402786_j54597624267060_1_alg».proof.Proof.Gen.KernelIdeal.Launch
import proofs.«402786_j54597624267060_1_alg».proof.Proof.Gen.KernelIdeal.Skeleton
import proofs.«402786_j54597624267060_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's first conditional (reset the accumulators): the grid coordinate is 0. -/
abbrev cond0_0 (i : grid0.Coords) : Prop := (Scalar.cmpi .ne (Scalar.extui (Scalar.cmpi .eq (BitVec.ofNat 32 (i 0).val) 0#32)) 0#32) = 1#1
/-- The body's second conditional (copy the accumulators out): the grid coordinate is 97. -/
abbrev cond0_1 (i : grid0.Coords) : Prop := k0_cond2 i = 1#1

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 97 :=
  (by decide +kernel : ∀ t : Fin grid0.N, cond0_1 (grid0.coords t) ↔ t.val = 97)

/-- The two accumulators (sums, counts) after the body at point `n`. -/
def accAt0 (c : Dev nD) : (n : ℕ) → n < cfg0.N → Vec F S1024x256 .f32 × Vec F S1x1024 .f32
  | 0, hn => (k0_pay4 (iblk0 V c 0 ⟨0, hn⟩) (iblk0 V c 1 ⟨0, hn⟩) (k0_pay1 (F := F)),
              k0_pay5 (iblk0 V c 1 ⟨0, hn⟩) (k0_pay2 (F := F)))
  | n + 1, hn => (k0_pay4 (iblk0 V c 0 ⟨n + 1, hn⟩) (iblk0 V c 1 ⟨n + 1, hn⟩) (accAt0 c n (Nat.lt_of_succ_lt hn)).1,
                  k0_pay5 (iblk0 V c 1 ⟨n + 1, hn⟩) (accAt0 c n (Nat.lt_of_succ_lt hn)).2)

theorem accAt0_zero (c : Dev nD) (hn : 0 < cfg0.N) :
    accAt0 V c 0 hn = (k0_pay4 (iblk0 V c 0 ⟨0, hn⟩) (iblk0 V c 1 ⟨0, hn⟩) (k0_pay1 (F := F)),
              k0_pay5 (iblk0 V c 1 ⟨0, hn⟩) (k0_pay2 (F := F))) := rfl

theorem accAt0_succ (c : Dev nD) (n : ℕ) (hn : n + 1 < cfg0.N) :
    accAt0 V c (n + 1) hn = (k0_pay4 (iblk0 V c 0 ⟨n + 1, hn⟩) (iblk0 V c 1 ⟨n + 1, hn⟩) (accAt0 V c n (Nat.lt_of_succ_lt hn)).1,
                  k0_pay5 (iblk0 V c 1 ⟨n + 1, hn⟩) (accAt0 V c n (Nat.lt_of_succ_lt hn)).2) := rfl

end

end Cert.KernelIdeal.Hand

end
-- ==== Proof.Pool.lean ====
/-
  Region 0 (the pooling kernel), the frame half: that the body, run at each of the 98 grid points on
  what the pipeline hands it, leaves every buffer at contents we can name.

  The body keeps two accumulators in scratch memory: the sums  S  (one row of 256 per graph) and the
  counts  C  (one per graph). At a point with row tile  x  and graph-id tile  b  it replaces
  S := S + onehot(b)ᵀ · x  and  C := C + Σ_rows onehot(b);  at the first point it first resets both to
  zero, and at the last point it copies both into the two output blocks. So after point n the
  accumulators are the running values  (S_n, C_n)  of the recurrence  S_n = step(x_n, b_n, S_{n-1}),
  C_n = count(b_n, C_{n-1})  started from zero, and the two output blocks, untouched before, hold
  (S_97, C_97)  after the last point.

  Three cases cover the points: the FIRST (reset, then accumulate), a MIDDLE one (accumulate only)
  and the LAST (accumulate, then copy out). In each the body's loads and stores go through the WHOLE
  of each buffer (the full rectangle at zero offsets), so a load reads the buffer's contents, a
  store leaves its value, and a load after a store reads the value stored. The region's invariant
  between points is the launch's own (every scoped buffer that is no staging buffer of this
  pipeline at some contents, the generator register at some state) with the two accumulators'
  contents named; the two output windows are idle at every point but the last, where the pipeline
  neither writes them back nor reads them, so there they are handed back as found.
-/
import proofs.«402786_j54597624267060_1_alg».proof.Proof.Gen.KernelIdeal.Launch
import proofs.«402786_j54597624267060_1_alg».proof.Proof.Gen.KernelIdeal.Skeleton
import proofs.«402786_j54597624267060_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«402786_j54597624267060_1_alg».proof.Proof.PoolDefs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

section Readback
/-! ## Loads and stores through a whole buffer -/

variable {κ : Kind} {sp : Space} {S : Shape} {e : EltTy}

/-- Offsets `![0, 0]` are the zero offsets. -/
theorem zero2 : (![0, 0] : Fin 2 → Nat) = fun _ => 0 := funext fun a => by fin_cases a <;> rfl

/-- A load through the full rectangle at zero offsets reads the buffer's contents. -/
theorem readAt_full (v : View sig κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-- A store through it, made last, leaves its value whatever was stored before. -/
theorem read_store_full (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

end Readback

/-! ## Where the output windows are idle -/

/-- The two inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- The two outputs are idle exactly where the copy-out conditional is not taken. -/
theorem idleAt0_2 (t : Fin cfg0.N) (h : ¬cond0_1 (grid0.coords t)) : cfg0.idle 2 (grid0.coords t) = true := by
  show (!(k0_cond2 (grid0.coords t) == 1#1)) = true
  rw [Bool.not_eq_true', beq_eq_false_iff_ne]; exact h
theorem idleAt0_3 (t : Fin cfg0.N) (h : ¬cond0_1 (grid0.coords t)) : cfg0.idle 3 (grid0.coords t) = true := by
  show (!(k0_cond2 (grid0.coords t) == 1#1)) = true
  rw [Bool.not_eq_true', beq_eq_false_iff_ne]; exact h
theorem liveAt0_2 (t : Fin cfg0.N) (h : cond0_1 (grid0.coords t)) : cfg0.idle 2 (grid0.coords t) = false := by
  show (!(k0_cond2 (grid0.coords t) == 1#1)) = false
  rw [Bool.not_eq_false', beq_iff_eq]; exact h
theorem liveAt0_3 (t : Fin cfg0.N) (h : cond0_1 (grid0.coords t)) : cfg0.idle 3 (grid0.coords t) = false := by
  show (!(k0_cond2 (grid0.coords t) == 1#1)) = false
  rw [Bool.not_eq_false', beq_iff_eq]; exact h
/-- Before the last point the pipeline writes neither output back. -/
theorem noFlush0_2 (t : Fin cfg0.N) (h : t.val ≠ 97) : (cfg0.win 2).flush t = false := by
  have hN : t.val < 98 := lt_of_lt_of_eq t.isLt (show cfg0.N = 98 from N_0)
  rw [← Bool.not_eq_true, flush0_2 t]; omega
theorem noFlush0_3 (t : Fin cfg0.N) (h : t.val ≠ 97) : (cfg0.win 3).flush t = false := by
  have hN : t.val < 98 := lt_of_lt_of_eq t.isLt (show cfg0.N = 98 from N_0)
  rw [← Bool.not_eq_true, flush0_3 t]; omega

/-! ## The memrefs the body is called with -/

abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S1024x256 .f32 := Memref.whole cc0_scratch0
abbrev scM0_1 : Memref sig .tc .vmem S1x1024 .f32 := Memref.whole cc0_scratch1

/-! ## The region's invariant -/

/-- The scoped buffers that are neither a staging buffer of this pipeline nor an accumulator (the other pipeline's
    seven staging buffers), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The launch's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

/-- The invariant before position `n`: before the first point the launch's; afterwards the same with the two
    accumulators at the running sums and counts after point `n - 1`. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn).1 ∗ owns (c : Thread nD τ) scM0_1 fullShare (accAt0 V c n hn).2 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (accAt0 V c n hn).1 ∗ owns (c : Thread nD τ) scM0_1 fullShare (accAt0 V c n hn).2 ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (accAt0 V c (n - 1) (by omega)).1 ∗ owns (c : Thread nD τ) scM0_1 fullShare (accAt0 V c (n - 1) (by omega)).2 ∗ rest0 (F := F) c) ∗ (∃ r, prngReg c r)) := by
  cases n with
  | zero => exact absurd rfl hz
  | succ n => rfl

/-- The accumulators after the first point: one step from zero. -/
theorem accAt0_first (c : Dev nD) (t : Fin cfg0.N) (h0 : t.val = 0) :
    accAt0 V c t.val t.isLt = (k0_pay4 (iblk0 V c 0 t) (iblk0 V c 1 t) (k0_pay1 (F := F)), k0_pay5 (iblk0 V c 1 t) (k0_pay2 (F := F))) := by
  obtain ⟨n, hn⟩ := t
  cases n with
  | zero => rfl
  | succ n => exact absurd h0 (Nat.succ_ne_zero n)

/-- The accumulators after a later point: one step from the point before. -/
theorem accAt0_pos (c : Dev nD) (t : Fin cfg0.N) (hz : t.val ≠ 0) :
    accAt0 V c t.val t.isLt = (k0_pay4 (iblk0 V c 0 t) (iblk0 V c 1 t) (accAt0 V c (t.val - 1) (Nat.lt_of_le_of_lt (Nat.sub_le _ _) t.isLt)).1, k0_pay5 (iblk0 V c 1 t) (accAt0 V c (t.val - 1) (Nat.lt_of_le_of_lt (Nat.sub_le _ _) t.isLt)).2) := by
  obtain ⟨n, hn⟩ := t
  cases n with
  | zero => exact absurd rfl hz
  | succ n => rfl

/-! ## The pipeline's proof data -/

/-- The proof data of pipeline 0 on core `c`: the arrays as the region finds them; after the body at point `t` each
    input's buffer at its block and the two outputs' at the accumulators after `t` (consulted at the last point only:
    elsewhere the outputs are idle); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (accAt0 V c t.val t.isLt).1
    | ⟨3, _⟩ => (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (accAt0 V c t.val t.isLt).1 := by dsimp only [dat0]
theorem after0_3 (c : Dev nD) (t : Fin cfg0.N) : (dat0 V c).after 3 t = (accAt0 V c t.val t.isLt).2 := by dsimp only [dat0]

/-- Each input's current staging buffer holds its block at every point, fetched there or not: an input the body
    leaves in place, never idle, its blocks uncut. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body's triple, case by case

On whole memrefs, the inputs' at their contents `x`, `b`: each case runs to the continuation holding the inputs' as they
were and the accumulators one step on. Every access of the body goes through the whole of its buffer, so a load reads the
contents, a store leaves its value, and a load after a store reads the value stored. -/

set_option maxHeartbeats 1000000 in
/-- FIRST point (reset taken, copy-out not): the accumulators, at anything before, end one step from zero; the outputs
    are handed back as found. -/
theorem kernel0_first (c : Dev nD) (i : grid0.Coords)
    (arg1 : Memref sig .tc .vmem S2048x256 .f32) (harg1 : arg1.IsWhole) (arg2 : Memref sig .tc .vmem S2048x1 .i32) (harg2 : arg2.IsWhole)
    (arg3 : Memref sig .tc .vmem S1024x256 .f32) (harg3 : arg3.IsWhole) (arg4 : Memref sig .tc .vmem S1x1024 .f32) (harg4 : arg4.IsWhole)
    (arg5 : Memref sig .tc .vmem S1024x256 .f32) (harg5 : arg5.IsWhole) (arg6 : Memref sig .tc .vmem S1x1024 .f32) (harg6 : arg6.IsWhole)
    (hc0 : cond0_0 i) (hc1 : ¬cond0_1 i)
    (x : Vec F S2048x256 .f32) (b : Vec F S2048x1 .i32) (y2 : Vec F S1024x256 .f32) (y3 : Vec F S1x1024 .f32)
    (E : Set ℕ) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg3 fullShare y2 ∗ owns (c : Thread nD τ) arg4 fullShare y3
            ∗ owns (c : Thread nD τ) arg5 fullShare (k0_pay4 x b (k0_pay1 (F := F))) ∗ owns (c : Thread nD τ) arg6 fullShare (k0_pay5 b (k0_pay2 (F := F)))) -∗ K ⟨⟩))
      ⊢ wp frame (wpE (defs₀ (F := F)) Variants.none c none) E (cc0__pool_kernel i arg1 harg1 arg2 harg2 arg3 harg3 arg4 harg4 arg5 harg5 arg6 harg6) K := by
  simp only [cc0__pool_kernel_eq_skeleton]; unfold cc0__pool_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    rw [read_store_full (F := F) (S := S1024x256) arg5.view f5 zero2]
    sl_unfold_run_names
    rw [View.readCov_cons_toLoadRect, readAt_full (F := F) (S := S2048x256) arg1.view f1 zero2, readAt_full (F := F) (S := S2048x1) arg2.view f2 zero2]
  iexists _; isplitr
  swap; · iexact H6
  ipureintro
  rw [read_store_full (F := F) (S := S1x1024) arg6.view f6 zero2]
  sl_unfold_run_names
  rw [View.readCov_cons_toLoadRect, readAt_full (F := F) (S := S2048x1) arg2.view f2 zero2]

set_option maxHeartbeats 1000000 in
/-- A MIDDLE point (neither conditional taken): the accumulators go one step on; the outputs are handed back as found. -/
theorem kernel0_mid (c : Dev nD) (i : grid0.Coords)
    (arg1 : Memref sig .tc .vmem S2048x256 .f32) (harg1 : arg1.IsWhole) (arg2 : Memref sig .tc .vmem S2048x1 .i32) (harg2 : arg2.IsWhole)
    (arg3 : Memref sig .tc .vmem S1024x256 .f32) (harg3 : arg3.IsWhole) (arg4 : Memref sig .tc .vmem S1x1024 .f32) (harg4 : arg4.IsWhole)
    (arg5 : Memref sig .tc .vmem S1024x256 .f32) (harg5 : arg5.IsWhole) (arg6 : Memref sig .tc .vmem S1x1024 .f32) (harg6 : arg6.IsWhole)
    (hc0 : ¬cond0_0 i) (hc1 : ¬cond0_1 i)
    (x : Vec F S2048x256 .f32) (b : Vec F S2048x1 .i32) (y2 : Vec F S1024x256 .f32) (y3 : Vec F S1x1024 .f32)
    (s : Vec F S1024x256 .f32) (k : Vec F S1x1024 .f32) (E : Set ℕ) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare k
        ∗ (iprop(owns (c : Thread nD τ) arg1 fullShare x ∗ owns (c : Thread nD τ) arg2 fullShare b
            ∗ owns (c : Thread nD τ) arg3 fullShare y2 ∗ owns (c : Thread nD τ) arg4 fullShare y3
            ∗ owns (c : Thread nD τ) arg5 fullShare (k0_pay4 x b s) ∗ owns (c : Thread nD τ) arg6 fullShare (k0_pay5 b k)) -∗ K ⟨⟩))
      ⊢ wp frame (wpE (defs₀ (F := F)) Variants.none c none) E (cc0__pool_kernel i arg1 harg1 arg2 harg2 arg3 harg3 arg4 harg4 arg5 harg5 arg6 harg6) K := by
  simp only [cc0__pool_kernel_eq_skeleton]; unfold cc0__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1; subst hf2; subst hf3; subst hf4; subst hf5; subst hf6
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    rw [read_store_full (F := F) (S := S1024x256) arg5.view f5 zero2]
    rw [readAt_full (F := F) (S := S2048x256) arg1.view f1 zero2, readAt_full (F := F) (S := S2048x1) arg2.view f2 zero2, readAt_full (F := F) (S := S1024x256) arg5.view f5 zero2]
  iexists _; isplitr
  swap; · iexact H6
  ipureintro
  rw [read_store_full (F := F) (S := S1x1024) arg6.view f6 zero2]
  rw [readAt_full (F := F) (S := S2048x1) arg2.view f2 zero2, readAt_full (F := F) (S := S1x1024) arg6.view f6 zero2]

set_option maxHeartbeats 1000000 in
/-- LAST point (reset not taken, copy-out taken): the accumulators go one step on, and the two outputs, at anything
    before, end at the accumulators' new contents. -/
theorem kernel0_last (c : Dev nD) (i : grid0.Coords)
    (arg1 : Memref sig .tc .vmem S2048x256 .f32) (harg1 : arg1.IsWhole) (arg2 : Memref sig .tc .vmem S2048x1 .i32) (harg2 : arg2.IsWhole)
    (arg3 : Memref sig .tc .vmem S1024x256 .f32) (harg3 : arg3.IsWhole) (arg4 : Memref sig .tc .vmem S1x1024 .f32) (harg4 : arg4.IsWhole)
    (arg5 : Memref sig .tc .vmem S1024x256 .f32) (harg5 : arg5.IsWhole) (arg6 : Memref sig .tc .vmem S1x1024 .f32) (harg6 : arg6.IsWhole)
    (hc0 : ¬cond0_0 i) (hc1 : cond0_1 i)
    (x : Vec F S2048x256 .f32) (b : Vec F S2048x1 .i32)
    (s : Vec F S1024x256 .f32) (k : Vec F S1x1024 .f32) (E : Set ℕ) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s ∗ owns (c : Thread nD τ) arg6 fullShare k
        ∗ (iprop(owns (c : Thread nD τ) arg1 fullShare x ∗ owns (c : Thread nD τ) arg2 fullShare b
            ∗ owns (c : Thread nD τ) arg3 fullShare (k0_pay4 x b s) ∗ owns (c : Thread nD τ) arg4 fullShare (k0_pay5 b k)
            ∗ owns (c : Thread nD τ) arg5 fullShare (k0_pay4 x b s) ∗ owns (c : Thread nD τ) arg6 fullShare (k0_pay5 b k)) -∗ K ⟨⟩))
      ⊢ wp frame (wpE (defs₀ (F := F)) Variants.none c none) E (cc0__pool_kernel i arg1 harg1 arg2 harg2 arg3 harg3 arg4 harg4 arg5 harg5 arg6 harg6) K := by
  simp only [cc0__pool_kernel_eq_skeleton]; unfold cc0__pool_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf1; subst hf2; subst hf5; subst hf6
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr
    swap; · iexact H3
    ipureintro
    rw [read_store_full (F := F) (S := S1024x256) arg3.view f3 zero2]
    sl_unfold_run_names
    rw [View.readCov_cons_toLoadRect, readAt_full (F := F) (S := S2048x256) arg1.view f1 zero2, readAt_full (F := F) (S := S2048x1) arg2.view f2 zero2, readAt_full (F := F) (S := S1024x256) arg5.view f5 zero2]
  isplitl [H4]
  · iexists _; isplitr
    swap; · iexact H4
    ipureintro
    rw [read_store_full (F := F) (S := S1x1024) arg4.view f4 zero2]
    sl_unfold_run_names
    rw [View.readCov_cons_toLoadRect, readAt_full (F := F) (S := S2048x1) arg2.view f2 zero2, readAt_full (F := F) (S := S1x1024) arg6.view f6 zero2]
  isplitl [H5]
  · iexists _; isplitr
    swap; · iexact H5
    ipureintro
    sl_unfold_run_names
    rw [read_store_full (F := F) (S := S1024x256) arg5.view f5 zero2]
    rw [readAt_full (F := F) (S := S2048x256) arg1.view f1 zero2, readAt_full (F := F) (S := S2048x1) arg2.view f2 zero2, readAt_full (F := F) (S := S1024x256) arg5.view f5 zero2]
  iexists _; isplitr
  swap; · iexact H6
  ipureintro
  sl_unfold_run_names
  rw [read_store_full (F := F) (S := S1x1024) arg6.view f6 zero2]
  rw [readAt_full (F := F) (S := S2048x1) arg2.view f2 zero2, readAt_full (F := F) (S := S1x1024) arg6.view f6 zero2]

/-- The accumulators' two components, at the first point and at a later one. -/
theorem accAt0_first_1 (c : Dev nD) (t : Fin cfg0.N) (h0 : t.val = 0) :
    (accAt0 V c t.val t.isLt).1 = k0_pay4 (iblk0 V c 0 t) (iblk0 V c 1 t) (k0_pay1 (F := F)) := by rw [accAt0_first V c t h0]
theorem accAt0_first_2 (c : Dev nD) (t : Fin cfg0.N) (h0 : t.val = 0) :
    (accAt0 V c t.val t.isLt).2 = k0_pay5 (iblk0 V c 1 t) (k0_pay2 (F := F)) := by rw [accAt0_first V c t h0]
theorem accAt0_pos_1 (c : Dev nD) (t : Fin cfg0.N) (hz : t.val ≠ 0) :
    (accAt0 V c t.val t.isLt).1 = k0_pay4 (iblk0 V c 0 t) (iblk0 V c 1 t) (accAt0 V c (t.val - 1) (Nat.lt_of_le_of_lt (Nat.sub_le _ _) t.isLt)).1 := by rw [accAt0_pos V c t hz]
theorem accAt0_pos_2 (c : Dev nD) (t : Fin cfg0.N) (hz : t.val ≠ 0) :
    (accAt0 V c t.val t.isLt).2 = k0_pay5 (iblk0 V c 1 t) (accAt0 V c (t.val - 1) (Nat.lt_of_le_of_lt (Nat.sub_le _ _) t.isLt)).2 := by rw [accAt0_pos V c t hz]

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's position says which of the three cases it
    is in. The invariant hands the body the accumulators at the running values the point before left (at anything, at the
    first point) and takes them back one step on; at the last point the two outputs end at the new running values, and
    at every other point, where they are idle and not written back, they are handed back as found. Nothing is owed
    throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  have hN : t.val < 98 := lt_of_lt_of_eq t.isLt (show cfg0.N = 98 from N_0)
  by_cases h97 : t.val = 97
  · -- the last point: accumulate, then copy out
    have hc0 : ¬cond0_0 (grid0.coords t) := fun h => by have := (hcond0_0 t).mp h; omega
    have hc1 : cond0_1 (grid0.coords t) := (hcond0_1 t).mpr h97
    have hz : t.val ≠ 0 := by omega
    rw [show (dat0 V c).leavesExact 2 t = owns (c : Thread nD τ) (ms0_2 t) fullShare ((dat0 V c).after 2 t) from by
      unfold Dat.leavesExact; rw [liveAt0_2 t hc1], after0_2]
    rw [show (dat0 V c).leavesExact 3 t = owns (c : Thread nD τ) (ms0_3 t) fullShare ((dat0 V c).after 3 t) from by
      unfold Dat.leavesExact; rw [liveAt0_3 t hc1], after0_3]
    rw [accAt0_pos_1 V c t hz, accAt0_pos_2 V c t hz]
    rw [PhiS0_castSucc V c t, PhiS0_pos V c _ _ hz]
    iintro ⟨⟨⟨HS0, HS1, Hr⟩, Hg⟩, Ho, ⟨%d0, H0⟩, ⟨%d1, H1⟩, ⟨%d2, H2⟩, ⟨%d3, H3⟩⟩
    iapply (kernel0_last c (grid0.coords t) _ _ _ _ _ _ _ _ _ _ _ _ hc0 hc1 (iblk0 V c 0 t) (iblk0 V c 1 t) _ _ Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    isplitl [H2]; · iexact H2
    iexact H3
  · have hc1 : ¬cond0_1 (grid0.coords t) := fun h => h97 ((hcond0_1 t).mp h)
    rw [Dat.leavesExact_idle (dat0 V c) 2 t (idleAt0_2 t hc1) (noFlush0_2 t h97)]
    rw [Dat.leavesExact_idle (dat0 V c) 3 t (idleAt0_3 t hc1) (noFlush0_3 t h97)]
    by_cases h0 : t.val = 0
    · -- the first point: reset, then accumulate
      have hc0 : cond0_0 (grid0.coords t) := (hcond0_0 t).mpr h0
      rw [accAt0_first_1 V c t h0, accAt0_first_2 V c t h0]
      rw [PhiS0_castSucc V c t, PhiS0_zero V c _ _ h0, PhiA0_eq]
      iintro ⟨⟨⟨HS0, HS1, Hr⟩, Hg⟩, Ho, ⟨%d0, H0⟩, ⟨%d1, H1⟩, ⟨%d2, H2⟩, ⟨%d3, H3⟩⟩
      iapply (kernel0_first c (grid0.coords t) _ _ _ _ _ _ _ _ _ _ _ _ hc0 hc1 (iblk0 V c 0 t) (iblk0 V c 1 t) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexists _; iexact H2
      iexists _; iexact H3
    · -- a middle point: accumulate only
      have hc0 : ¬cond0_0 (grid0.coords t) := fun h => h0 ((hcond0_0 t).mp h)
      rw [accAt0_pos_1 V c t h0, accAt0_pos_2 V c t h0]
      rw [PhiS0_castSucc V c t, PhiS0_pos V c _ _ h0]
      iintro ⟨⟨⟨HS0, HS1, Hr⟩, Hg⟩, Ho, ⟨%d0, H0⟩, ⟨%d1, H1⟩, ⟨%d2, H2⟩, ⟨%d3, H3⟩⟩
      iapply (kernel0_mid c (grid0.coords t) _ _ _ _ _ _ _ _ _ _ _ _ hc0 hc1 (iblk0 V c 0 t) (iblk0 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 98 := N_0; omega)

end

end Cert.KernelIdeal.Hand

end
-- ==== Proof.ScaleDefs.lean ====
/-
  Region 1 (the scaling kernel), the definitions every later module shares: a window's block at a grid
  point, and what the body leaves in the output window's buffer — its one store, of the product of the
  row tile with each row's score (the masked sum of the per-graph gate over the row's one-hot).
-/
import proofs.«402786_j54597624267060_1_alg».proof.Proof.Gen.KernelIdeal.Launch
import proofs.«402786_j54597624267060_1_alg».proof.Proof.Gen.KernelIdeal.Skeleton
import proofs.«402786_j54597624267060_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The one rectangle the body of region 1 loads and stores through: a whole 2048×256 buffer. -/
abbrev r1_0 : Rect S2048x256 := Rect.unit (s := S2048x256) ![0, 0] S2048x256.size inb_S2048x256_S2048x256_0_0
abbrev r1_1 : Rect S2048x1 := Rect.unit (s := S2048x1) ![0, 0] S2048x1.size inb_S2048x1_S2048x1_0_0
abbrev r1_2 : Rect S1x1024 := Rect.unit (s := S1x1024) ![0, 0] S1x1024.size inb_S1x1024_S1x1024_0_0

/-- The output window's buffer after the body, from the three input blocks. -/
def out1_3 (x0 : Vec F S2048x256 .f32) (x1 : Vec F S2048x1 .i32) (x2 : Vec F S1x1024 .f32) : Vec F S2048x256 .f32 :=
  View.canon [⟨r1_0, k1_pay1 (View.ld x0 r1_0) (View.ld x1 r1_1) (View.ld x2 r1_2)⟩]

end

end Cert.KernelIdeal.Hand

end
-- ==== Proof.Scale.lean ====
/-
  Region 1 (the scaling kernel), the body half of its frame, at any float instance and at a PARAMETER
  `V`: the TensorCore's buffer contents when the region is entered.

  The kernel belongs to the plainest class of pipeline bodies. At every grid point it reads its three
  input windows whole — the row tile, the tile of graph ids, the row of per-graph gates —, computes, and
  writes its one output window whole; it keeps nothing from point to point and has no conditional. So:

  * what the body finds in an input window's buffer is that window's block at the point, whether or not
    the pipeline fetched it there. The row tile and the id tile are fetched at every point; the gate row
    is fetched at the first point only, and at every later point its block index has not moved, so the
    buffer still holds the block (`before1_0`, `before1_1`, `before1_2`);
  * what the body leaves in the output window's buffer is a closed function of the three input blocks:
    its single store covers the buffer, so whatever the buffer held before — the body also reads it, and
    discards what it read — is overwritten (`cover1_3`, `sound_kernel1`);
  * the proof data `dat1` records exactly this: the arrays as the region finds them, the inputs' buffers
    left at their blocks, the output's at `out1_3` of the blocks, the invariant that of the class (the
    scoped rest and the generator register untouched), nothing owed, full shares;
  * `body_obligation1`: the body's triple at every grid point, the invariant and what is owed passing
    through unread.
-/
import proofs.«402786_j54597624267060_1_alg».proof.Proof.Gen.KernelIdeal.Launch
import proofs.«402786_j54597624267060_1_alg».proof.Proof.Gen.KernelIdeal.Skeleton
import proofs.«402786_j54597624267060_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«402786_j54597624267060_1_alg».proof.Proof.ScaleDefs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in each input window's buffer -/

/-- The row tile's current buffer holds its block at every point, for ANY proof data whose array is the
    region-entry contents and whose body leaves the block in place. The window is an input, never idle and
    uncut, so a point where it is not fetched has the block index of the point before. -/
theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

/-- The same of the tile of graph ids. -/
theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

/-- The same of the gate row, which the pipeline fetches at the first point only: its index map is
    constant, so at every later point the buffer still holds the one block there is. -/
theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t :=
  (dat.before_in_eq_fetched 2 rfl (fun _ => rfl) (fun _ _ _ => rfl)
      (fun t => by rw [hafter]; unfold Dat.blockOf iblk1; rw [hA]; try rfl) t d).trans
    (by unfold Dat.fetched Dat.blockOf iblk1; rw [hA]; try rfl)

/-! ## What the body leaves in the output window's buffer -/

/-- The body's one store is of the whole 2048×256 buffer: a single tile of the buffer's own size, so every
    index of the buffer lies in it. -/
theorem cover1_3 (p0 : Vec F S2048x256 .f32) (y : S2048x256.Idx) :
    ∃ pc ∈ ([⟨r1_0, p0⟩] : List (View.Piece (Elt F) S2048x256 .f32)), y ∈ pc.1.set :=
  View.cover_of_tiled [⟨r1_0, p0⟩] S2048x256.size (by rfl) y

/-! ## The body's triple -/

set_option maxHeartbeats 1000000 in
/-- The kernel body on whole staging memrefs — the three inputs' at read contents `x0`, `x1`, `x2`, the
    output's at anything — runs, at any grid point, to the continuation holding the inputs' as they were and
    the output's at `out1_3 x0 x1 x2`. The body reads the three inputs, reads the output's buffer and drops
    what it read, and stores the product over the whole buffer; the store covers the buffer, so what the
    buffer reads afterwards is the canonical contents of that one write, whatever was there before. -/
theorem sound_kernel1 (c : Dev nD) (E : Set ℕ) (i : grid1.Coords)
    (arg1 : Memref sig .tc .vmem S2048x256 .f32) (harg1 : arg1.IsWhole)
    (arg2 : Memref sig .tc .vmem S2048x1 .i32) (harg2 : arg2.IsWhole)
    (arg3 : Memref sig .tc .vmem S1x1024 .f32) (harg3 : arg3.IsWhole)
    (arg4 : Memref sig .tc .vmem S2048x256 .f32) (harg4 : arg4.IsWhole)
    (x0 : Vec F S2048x256 .f32) (x1 : Vec F S2048x1 .i32) (x2 : Vec F S1x1024 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out1_3 x0 x1 x2)) -∗ K ⟨⟩))
      ⊢ wp frame (wpE (defs₀ (F := F)) Variants.none c none) E
          (cc1__scale_kernel i arg1 harg1 arg2 harg2 arg3 harg3 arg4 harg4) K := by
  simp only [cc1__scale_kernel_eq_skeleton]; unfold cc1__scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point
    `t` each input's buffer at its block and the output's at `out1_3` of the three input blocks; the invariant
    that of the class (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, what is owed, and each window's current
    staging buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' memrefs hold their blocks, so the body's triple applies; the
    invariant and what is owed are the same before and after, and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.Run.lean ====
/-
  The run of the whole program, at any float instance: its ten items — four stretches of host operations that pad
  x with zero rows and the batch column with −1, the pooling region, three stretches that turn the pooled sums and
  counts into the per-graph gate, the scaling region, and the final slice — composed in order.
  Between two items every unscoped buffer of a core holds a known value: the launch memory, then each host stretch
  applied to it, and across a region the region's own arrays replaced by what its write-backs leave (every other
  buffer untouched). The last of these valuations, W10, is what every final memory holds; the frame — the seven
  argument arrays end as launched — is read off it, since no host stretch writes an argument and none is an array
  of either region.
-/
import proofs.«402786_j54597624267060_1_alg».proof.Proof.Gen.KernelIdeal.Launch
import proofs.«402786_j54597624267060_1_alg».proof.Proof.Gen.KernelIdeal.Skeleton
import proofs.«402786_j54597624267060_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«402786_j54597624267060_1_alg».proof.Proof.Pool
import proofs.«402786_j54597624267060_1_alg».proof.Proof.Scale
import proofs.«402786_j54597624267060_1_alg».proof.Proof.Gen.KernelIdeal.Regions
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items of the program -/

/-- Core `c`'s buffers at launch. -/
abbrev W0 : Dev nD → Valuation τ sig (Elt F) := fun c b => (s₀ m ρ).mem ((c : Dev nD), b)
/-- After the constant 0 that pads x. -/
abbrev W1 : Dev nD → Valuation τ sig (Elt F) := fun c => StableHlo.after hostOps0 (W0 m ρ c)
/-- After x is padded with 704 zero rows. -/
abbrev W2 : Dev nD → Valuation τ sig (Elt F) := fun c => StableHlo.after hostOps0_1 (W1 m ρ c)
/-- After batch is reshaped to a column, and the constant −1 that pads it. -/
abbrev W3 : Dev nD → Valuation τ sig (Elt F) := fun c => StableHlo.after hostOps0_2 (W2 m ρ c)
/-- After the batch column is padded with 704 rows of −1: the pooling region's entry. -/
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b
/-- At the pooling region's exit: its four arrays at what its write-backs leave, every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)
/-- After the mean and the hidden layer up to a · h. -/
abbrev W6 : Dev nD → Valuation τ sig (Elt F) := fun c => StableHlo.after hostOps1 (W5 m ρ c)
/-- After the activation's select. -/
abbrev W7 : Dev nD → Valuation τ sig (Elt F) := fun c => StableHlo.after hostOps1_1 (W6 m ρ c)
/-- After the gate and its reshape to a row: the scaling region's entry. -/
abbrev W8 : Dev nD → Valuation τ sig (Elt F) := fun c => StableHlo.after hostOps1_2 (W7 m ρ c)
abbrev V8 : (c : Dev nD) → (b : Ref sig .tc) → Buf (Elt F) ((c : Thread nD τ).loc b) := fun c b => W8 m ρ c b
/-- At the scaling region's exit. -/
def W9 (c : Dev nD) : Valuation τ sig (Elt F) :=
  Pipeline.withArrays spec1 c (W8 m ρ c) fun w => (dat1 (V8 m ρ) c).arrAt w cfg1.N
theorem W9_arr (c : Dev nD) (w : Fin cfg1.W) :
    W9 m ρ c (Proc.devRef .tc (Pipeline.arrRef spec1 w)) = (dat1 (V8 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
abbrev V9 : (c : Dev nD) → (b : Ref sig .tc) → Buf (Elt F) ((c : Thread nD τ).loc b) := fun c b => W9 m ρ c b
theorem hF1 (c : Dev nD) (w : Fin cfg1.W) : (dat1 (V8 m ρ) c).arrAt w cfg1.N = V9 m ρ c (Pipeline.arrRef spec1 w) :=
  (W9_arr m ρ c w).symm
theorem hrest1 (c : Dev nD) : ∀ b, b ∉ Finset.univ.image (Pipeline.arrRef spec1) → V9 m ρ c b = V8 m ρ c b :=
  fun b hb => W9_of_ne m ρ c b fun w e => hb (Finset.mem_image.mpr ⟨w, Finset.mem_univ _, e⟩)
/-- After the slice back to 200000 rows: the end of the program. -/
abbrev W10 : Dev nD → Valuation τ sig (Elt F) := fun c => StableHlo.after hostOps2 (W9 m ρ c)

/-- A buffer that no host stretch writes and that is no array of either region holds at the end what it held at
    launch: the fold walked back one item at a time. -/
theorem W10_of_untouched (c : Dev nD) (r : Ref sig .tc)
    (h0 : r ∉ hostOps0_W) (h1 : r ∉ hostOps0_1_W) (h2 : r ∉ hostOps0_2_W) (h3 : r ∉ hostOps0_3_W)
    (h4 : ∀ w, Pipeline.arrRef spec0 w ≠ r) (h5 : r ∉ hostOps1_W) (h6 : r ∉ hostOps1_1_W) (h7 : r ∉ hostOps1_2_W)
    (h8 : ∀ w, Pipeline.arrRef spec1 w ≠ r) (h9 : r ∉ hostOps2_W) :
    W10 m ρ c (Proc.devRef .tc r) = m ((c : Thread nD τ).loc r) :=
  calc W10 m ρ c (Proc.devRef .tc r)
    _ = W9 m ρ c (Proc.devRef .tc r) := StableHlo.after_of_writes_sub hostOps2 _ hostOps2_writes h9
    _ = W8 m ρ c (Proc.devRef .tc r) := W9_of_ne m ρ c r h8
    _ = W7 m ρ c (Proc.devRef .tc r) := StableHlo.after_of_writes_sub hostOps1_2 _ hostOps1_2_writes h7
    _ = W6 m ρ c (Proc.devRef .tc r) := StableHlo.after_of_writes_sub hostOps1_1 _ hostOps1_1_writes h6
    _ = W5 m ρ c (Proc.devRef .tc r) := StableHlo.after_of_writes_sub hostOps1 _ hostOps1_writes h5
    _ = W4 m ρ c (Proc.devRef .tc r) := W5_of_ne m ρ c r h4
    _ = W3 m ρ c (Proc.devRef .tc r) := StableHlo.after_of_writes_sub hostOps0_3 _ hostOps0_3_writes h3
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V8 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

/-- The class invariant of a region is the scoped buffers no window of it stages, each at anything, and the
    generator register at some state: what the region's entry assembles it from, and what its exit takes it apart to. -/
theorem toPhiA (p : Fin 2) (c : Dev nD) (X : sProp 𝕄) :
    iprop((∃ r, prngReg c r) ∗ X ∗ Pipeline.scopedRest (Pipeline.pin (pcfgs (F := F)) adm p).spec c)
      ⊢ (Pipeline.ΦA (Pipeline.pin (pcfgs (F := F)) adm p).spec c : sProp 𝕄) := by
  unfold Pipeline.ΦA
  iintro ⟨Hp, -, Hr⟩
  isplitl [Hr]; · iexact Hr
  iexact Hp
theorem ofPhiA (p : Fin 2) (c : Dev nD) :
    (Pipeline.ΦA (Pipeline.pin (pcfgs (F := F)) adm p).spec c : sProp 𝕄)
      ⊢ iprop((∃ r, prngReg c r) ∗ BI.emp ∗ Pipeline.scopedRest (Pipeline.pin (pcfgs (F := F)) adm p).spec c) := by
  unfold Pipeline.ΦA
  iintro ⟨Hr, Hp⟩
  isplitl [Hp]; · iexact Hp
  isplitr; · iempintro
  iexact Hr

/-! ## The regions as segments -/

set_option backward.isDefEq.respectTransparency.types false in
/-- The pooling region over the thread state: entered from every unscoped buffer at `W4`, left at `W5`. Its four
    arrays are split out of the unscoped buffers and put back at the exit contents; the generator register and the
    scoped buffers it does not stage enter its invariant (whose first point is the class invariant) and come back
    from its last point; nothing is owed; it has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA 0 c _).trans (hin0 (V4 m ρ) c)
  hout c := by
    rw [Pipeline.ownSems0_none]
    exact (hout0 (V4 m ρ) c).trans (ofPhiA 0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scaling region over the thread state: entered from every unscoped buffer at `W8`, left at `W9`; the class
    invariant throughout. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V8 m ρ) c).loose
  hwaits := Pipeline.hwaits_of_owed_zero _ _ _ _ L lv 1 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec1 c (V8 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    exact toPhiA 1 c _
  hout c := by
    rw [Pipeline.ownSems0_none, show (pdats m ρ 1 c).Φ (Fin.last _) = Pipeline.ΦA spec1 c from rfl]
    exact ofPhiA 1 c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V8 m ρ c) (V9 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's ten items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .host (hseg hostOps1_1 hostOps1_1_sub hostOps1_1_fresh (W6 m ρ)),
    .host (hseg hostOps1_2 hostOps1_2_sub hostOps1_2_fresh (W7 m ρ)),
    .region (reg1 m ρ),
    .host (hseg hostOps2 hostOps2_sub hostOps2_fresh (W9 m ρ)) ]

theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and in every final state each unscoped buffer of each core holds what the fold `W10` says. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W10 m ρ c) ∗ R c) : sProp 𝕄) ⊢ _
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- THE FRAME at any float instance: the seven argument arrays end as launched — no host stretch writes one and
    none is an array of either region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W10_of_untouched m ρ c main_arg0 (by decide) (by decide) (by decide) (by decide) (by decide) (by decide) (by decide) (by decide) (by decide) (by decide)),
     (h c _ (mem_uc main_arg1 (by decide))).trans (W10_of_untouched m ρ c main_arg1 (by decide) (by decide) (by decide) (by decide) (by decide) (by decide) (by decide) (by decide) (by decide) (by decide)),
     (h c _ (mem_uc main_arg2 (by decide))).trans (W10_of_untouched m ρ c main_arg2 (by decide) (by decide) (by decide) (by decide) (by decide) (by decide) (by decide) (by decide) (by decide) (by decide)),
     (h c _ (mem_uc main_arg3 (by decide))).trans (W10_of_untouched m ρ c main_arg3 (by decide) (by decide) (by decide) (by decide) (by decide) (by decide) (by decide) (by decide) (by decide) (by decide)),
     (h c _ (mem_uc main_arg4 (by decide))).trans (W10_of_untouched m ρ c main_arg4 (by decide) (by decide) (by decide) (by decide) (by decide) (by decide) (by decide) (by decide) (by decide) (by decide)),
     (h c _ (mem_uc main_arg5 (by decide))).trans (W10_of_untouched m ρ c main_arg5 (by decide) (by decide) (by decide) (by decide) (by decide) (by decide) (by decide) (by decide) (by decide) (by decide)),
     (h c _ (mem_uc main_arg6 (by decide))).trans (W10_of_untouched m ρ c main_arg6 (by decide) (by decide) (by decide) (by decide) (by decide) (by decide) (by decide) (by decide) (by decide) (by decide))⟩)
    (run_main m ρ)

end Cert.KernelIdeal.Hand

end
-- ==== Proof.ValueDefs.lean ====
/-
  The two pure functions the value proof is organised around.
  * accOf: the pooling kernel's two accumulators after point n, as a fold over the row tiles given as
    sequences of blocks:  S_0 = 0 + onehot(b_0)ᵀ x_0,  S_{n+1} = S_n + onehot(b_{n+1})ᵀ x_{n+1},  and the
    same for the counts with the column sums of the one-hot matrix.
  * gate: the per-graph gate as a function of the pooled sums [1024, 256] and counts [1024, 1]:
    mean = sums / max(counts, 1);  h = mean · W1 + b1;  PReLU(h) = h where h ≥ 0, a·h elsewhere;
    gate = 1 / (1 + exp(−(PReLU(h) · W2 + b2))).  Both programs apply exactly this chain of host
    operations, so it is carried as one function and never opened.
-/
import proofs.«402786_j54597624267060_1_alg».proof.Proof.Gen.KernelIdeal.Skeleton

noncomputable section

namespace Cert.KernelIdeal.Hand

open Idealize.ShloMosaic Idealize.SL.Sem
open Cert.KernelIdeal Cert.KernelIdeal.Gen

variable {F : FTy → Type} [FloatOps F]

/-- The accumulators (sums, counts) after point `n`, over the tiles `xs t`, `bs t`. -/
def accOf (xs : ℕ → Vec F S2048x256 .f32) (bs : ℕ → Vec F S2048x1 .i32) : ℕ → Vec F S1024x256 .f32 × Vec F S1x1024 .f32
  | 0 => (k0_pay4 (xs 0) (bs 0) (k0_pay1 (F := F)), k0_pay5 (bs 0) (k0_pay2 (F := F)))
  | n + 1 => (k0_pay4 (xs (n + 1)) (bs (n + 1)) (accOf xs bs n).1, k0_pay5 (bs (n + 1)) (accOf xs bs n).2)

theorem accOf_zero (xs : ℕ → Vec F S2048x256 .f32) (bs : ℕ → Vec F S2048x1 .i32) :
    accOf xs bs 0 = (k0_pay4 (xs 0) (bs 0) (k0_pay1 (F := F)), k0_pay5 (bs 0) (k0_pay2 (F := F))) := rfl
theorem accOf_succ (xs : ℕ → Vec F S2048x256 .f32) (bs : ℕ → Vec F S2048x1 .i32) (n : ℕ) :
    accOf xs bs (n + 1) = (k0_pay4 (xs (n + 1)) (bs (n + 1)) (accOf xs bs n).1, k0_pay5 (bs (n + 1)) (accOf xs bs n).2) := rfl

/-- The hidden layer before the activation. -/
def gateHidden (s : FVec F S1024x256 .f32) (cnt : FVec F S1024x1 .f32) (W1 : FVec F S256x128 .f32) (b1 : FVec F S128 .f32) : FVec F S1024x128 .f32 :=
  addf (Host.dotGeneral dot_S1024x256_S256x128_S1024x128_1_0_0_1_n_n none
      (Host.divf s (broadcastInDim S1024x256 ![0, 1] bcast_S1024x1_S1024x256_0_1
        (maximumf cnt (broadcastInDim S1024x1 ![] bcast_S_S1024x1 (constant (F := F) S_ .f32 0x3F800000#32))))) W1)
    (broadcastInDim S1024x128 ![0, 1] bcast_S1x128_S1024x128_0_1 (broadcastInDim S1x128 ![1] bcast_S128_S1x128_1 b1))

/-- The gate, per graph. -/
def gate (s : FVec F S1024x256 .f32) (cnt : FVec F S1024x1 .f32) (W1 : FVec F S256x128 .f32) (b1 : FVec F S128 .f32)
    (a : FVec F S_ .f32) (W2 : FVec F S128x1 .f32) (b2 : FVec F S1 .f32) : FVec F S1024x1 .f32 :=
  Host.divf (broadcastInDim S1024x1 ![] bcast_S_S1024x1 (constant (F := F) S_ .f32 0x3F800000#32))
    (addf (broadcastInDim S1024x1 ![] bcast_S_S1024x1 (constant (F := F) S_ .f32 0x3F800000#32))
      (Host.exp (Host.negf (addf
        (Host.dotGeneral dot_S1024x128_S128x1_S1024x1_1_0_0_1_n_n none
          (select (cmpf .oge (gateHidden s cnt W1 b1) (broadcastInDim S1024x128 ![] bcast_S_S1024x128 (constant (F := F) S_ .f32 0x00000000#32)))
            (gateHidden s cnt W1 b1)
            (mulf (broadcastInDim S1024x128 ![] bcast_S_S1024x128 a) (gateHidden s cnt W1 b1))) W2)
        (broadcastInDim S1024x1 ![0, 1] bcast_S1x1_S1024x1_0_1 (broadcastInDim S1x1 ![1] bcast_S1_S1x1_1 b2))))))

end Cert.KernelIdeal.Hand

end
-- ==== Proof.HostValue.lean ====
/-
  What the host stretches of the program write, each as a term of the valuation before it: the padded x
  (704 zero rows appended), the padded batch column (704 rows of −1 appended), the gate row — the shared
  gate function of the pooled sums and the pooled counts turned into a column, then laid out as a row — and
  the final slice of the first 200000 rows.
-/
import proofs.«402786_j54597624267060_1_alg».proof.Proof.Gen.KernelIdeal.Launch
import proofs.«402786_j54597624267060_1_alg».proof.Proof.ValueDefs
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- The pad value of x is the constant written just before. -/
theorem after_c (W : Valuation τ sig (Elt F)) :
    StableHlo.after (hostOps0 (F := F)) W (Proc.devRef .tc main_c) = constantI S_ 32 0#32 := by
  after_results

/-- x padded: 704 rows of the (converted) pad value appended. -/
theorem after_padx (W : Valuation τ sig (Elt F)) :
    StableHlo.after (hostOps0_1 (F := F)) W (Proc.devRef .tc main_v0)
      = pad S200704x256 ![0, 0] ![704, 0] ![0, 0] (W (Proc.devRef .tc main_arg0)) (sitofp (F := F) .f32 (W (Proc.devRef .tc main_c)))
          pads_S200000x256_S200704x256_07040_000 h_S_ := by
  after_results <;> rfl

/-- The batch vector as a column. -/
theorem after_bcol (W : Valuation τ sig (Elt F)) :
    StableHlo.after (hostOps0_2 (F := F)) W (Proc.devRef .tc main_v1)
      = shapeCast S200000x1 (W (Proc.devRef .tc main_arg1)) shapeCasts_S200000_S200000x1 := by
  after_results <;> rfl

/-- The pad value of the batch column: −1. -/
theorem after_cneg (W : Valuation τ sig (Elt F)) :
    StableHlo.after (hostOps0_2 (F := F)) W (Proc.devRef .tc main_c_0) = constantI S_ 32 4294967295#32 := by
  after_results

/-- The batch column padded: 704 rows of the pad value appended. -/
theorem after_padb (W : Valuation τ sig (Elt F)) :
    StableHlo.after (hostOps0_3 (F := F)) W (Proc.devRef .tc main_v2)
      = pad S200704x1 ![0, 0] ![704, 0] ![0, 0] (W (Proc.devRef .tc main_v1)) (W (Proc.devRef .tc main_c_0))
          pads_S200000x1_S200704x1_07040_000 h_S_ := by
  after_results <;> rfl

/-- The final slice. -/
theorem after_slice (W : Valuation τ sig (Elt F)) :
    StableHlo.after (hostOps2 (F := F)) W (Proc.devRef .tc main_v30)
      = extractStridedSlice S200000x256 ![0, 0] (W (Proc.devRef .tc main_v29)) slices_S200704x256_S200000x256_0_0 := by
  after_results

/-- The hidden layer h = mean · W1 + b1, from the pooled sums and the pooled count row. -/
theorem after_hidden (W : Valuation τ sig (Elt F)) :
    StableHlo.after (hostOps1 (F := F)) W (Proc.devRef .tc main_v12)
      = gateHidden (W (Proc.devRef .tc main_v3_0)) (shapeCast S1024x1 (W (Proc.devRef .tc main_v3_1)) shapeCasts_S1x1024_S1024x1)
          (W (Proc.devRef .tc main_arg2)) (W (Proc.devRef .tc main_arg3)) := by
  after_results <;> rfl

/-- The mask h ≥ 0. -/
theorem after_mask (W : Valuation τ sig (Elt F)) :
    StableHlo.after (hostOps1 (F := F)) W (Proc.devRef .tc main_v14)
      = cmpf .oge (gateHidden (W (Proc.devRef .tc main_v3_0)) (shapeCast S1024x1 (W (Proc.devRef .tc main_v3_1)) shapeCasts_S1x1024_S1024x1)
            (W (Proc.devRef .tc main_arg2)) (W (Proc.devRef .tc main_arg3)))
          (broadcastInDim S1024x128 ![] bcast_S_S1024x128 (constant (F := F) S_ .f32 0x00000000#32)) := by
  after_results <;> rfl

/-- The scaled branch a · h. -/
theorem after_scaled (W : Valuation τ sig (Elt F)) :
    StableHlo.after (hostOps1 (F := F)) W (Proc.devRef .tc main_v16)
      = mulf (broadcastInDim S1024x128 ![] bcast_S_S1024x128 (W (Proc.devRef .tc main_arg4)))
          (gateHidden (W (Proc.devRef .tc main_v3_0)) (shapeCast S1024x1 (W (Proc.devRef .tc main_v3_1)) shapeCasts_S1x1024_S1024x1)
            (W (Proc.devRef .tc main_arg2)) (W (Proc.devRef .tc main_arg3))) := by
  after_results <;> rfl

/-- The activation's select. -/
theorem after_act (W : Valuation τ sig (Elt F)) :
    StableHlo.after (hostOps1_1 (F := F)) W (Proc.devRef .tc main_v17)
      = select (W (Proc.devRef .tc main_v14)) (W (Proc.devRef .tc main_v12)) (W (Proc.devRef .tc main_v16)) := by
  after_results <;> rfl

/-- The gate row from the activated hidden layer. -/
theorem after_out (W : Valuation τ sig (Elt F)) :
    StableHlo.after (hostOps1_2 (F := F)) W (Proc.devRef .tc main_v28)
      = shapeCast S1x1024
          (Host.divf (broadcastInDim S1024x1 ![] bcast_S_S1024x1 (constant (F := F) S_ .f32 0x3F800000#32))
            (addf (broadcastInDim S1024x1 ![] bcast_S_S1024x1 (constant (F := F) S_ .f32 0x3F800000#32))
              (Host.exp (Host.negf (addf
                (Host.dotGeneral dot_S1024x128_S128x1_S1024x1_1_0_0_1_n_n none (W (Proc.devRef .tc main_v17)) (W (Proc.devRef .tc main_arg5)))
                (broadcastInDim S1024x1 ![0, 1] bcast_S1x1_S1024x1_0_1 (broadcastInDim S1x1 ![1] bcast_S1_S1x1_1 (W (Proc.devRef .tc main_arg6)))))))))
          shapeCasts_S1024x1_S1x1024 := by
  after_results <;> rfl

end Cert.KernelIdeal.Hand

end
-- ==== Proof.PoolArr.lean ====
/-
  Region 0 (the pooling kernel), from blocks to arrays.

  * The row tiles.  Window 0 walks the padded feature array  x : [200704, 256]  in 98 tiles of 2048 rows and
    window 1 walks the padded graph-id column  b : [200704, 1]  the same way: both index maps send point t to
    block (t, 0), so element (k, d) of tile t is element (2048·t + k, d) of the array.
  * The two outputs.  Windows 2 and 3 are one block each, the whole of the sums [1024, 256] and of the counts
    [1, 1024], at block index (0, 0) at every point; they are written back at the last point, t = 97, and at no
    other.  That one write-back covers every index of its array, and what it writes is the accumulator the body
    left there, so after the region each output array IS the accumulator after point 97.
  * The fold.  The accumulators after point n, defined over the windows' blocks, are the fold  accOf  over any
    two sequences of tiles that agree with those blocks on the 98 points: by induction on n, both sides taking
    the same step  S_{n+1} = S_n + onehot(b_{n+1})ᵀ x_{n+1},  C_{n+1} = C_n + Σ_rows onehot(b_{n+1}).
-/
import proofs.«402786_j54597624267060_1_alg».proof.Proof.Gen.KernelIdeal.Launch
import proofs.«402786_j54597624267060_1_alg».proof.Proof.Gen.KernelIdeal.Skeleton
import proofs.«402786_j54597624267060_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«402786_j54597624267060_1_alg».proof.Proof.PoolDefs
import proofs.«402786_j54597624267060_1_alg».proof.Proof.ValueDefs
import Idealize.ShloMosaic.Lib.Pipeline.Value
import Idealize.ShloMosaic.Lib.ValueIdx
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- Region 0 has 98 points. -/
theorem pt_lt (t : Fin cfg0.N) : t.val < 98 := lt_of_lt_of_eq t.isLt N_0

/-- Row k of tile t is a row of the padded array: 2048·t + k < 98·2048 = 200704. -/
theorem tile_row_lt (t : Fin cfg0.N) (k : Fin 2048) : 2048 * t.val + k.val < 200704 := by
  have ht := pt_lt t
  have hk := k.isLt
  omega

/-- The last point, 97, is a point of the grid. -/
theorem last_lt : 97 < cfg0.N := by rw [show cfg0.N = 98 from N_0]; decide

/-- The four printed index maps, decided over the 98 points: the two inputs' block at point t is (t, 0), the
    two outputs' is (0, 0). -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

section
variable (V : (c : Dev nD) → (b : Ref sig .tc) → Buf (Elt F) ((c : Thread nD τ).loc b))

/-- Element (k, d) of the feature tile at point t is element (2048·t + k, d) of the padded feature array. -/
theorem iblk0_0_apply (c : Dev nD) (t : Fin cfg0.N) (k : Fin 2048) (d : Fin 256) :
    iblk0 V c 0 t (ix2 k d) = V c main_v0 (ix2 ⟨2048 * t.val + k.val, tile_row_lt t k⟩ d) := by
  obtain ⟨e0, e1, -⟩ := blockIdx0 t
  unfold iblk0
  rw [View.read_apply]
  show V c main_v0 _ = V c main_v0 _
  congr 1
  funext a
  apply Fin.ext
  match a with
  | ⟨0, _⟩ => show win0_0.index t (0 : Fin 2) * 2048 + 1 * k.val = 2048 * t.val + k.val; rw [e0]; omega
  | ⟨1, _⟩ => show win0_0.index t (1 : Fin 2) * 256 + 1 * d.val = d.val; rw [e1]; omega

/-- Element (k, 0) of the graph-id tile at point t is element (2048·t + k, 0) of the padded graph-id column. -/
theorem iblk0_1_apply (c : Dev nD) (t : Fin cfg0.N) (k : Fin 2048) :
    iblk0 V c 1 t (ix2 k (0 : Fin 1)) = V c main_v2 (ix2 ⟨2048 * t.val + k.val, tile_row_lt t k⟩ (0 : Fin 1)) := by
  obtain ⟨-, -, e0, e1, -⟩ := blockIdx0 t
  unfold iblk0
  rw [View.read_apply]
  show V c main_v2 _ = V c main_v2 _
  congr 1
  funext a
  apply Fin.ext
  match a with
  | ⟨0, _⟩ => show win0_1.index t (0 : Fin 2) * 2048 + 1 * k.val = 2048 * t.val + k.val; rw [e0]; omega
  | ⟨1, _⟩ => show win0_1.index t (1 : Fin 2) * 1 + 1 * (0 : Fin 1).val = (0 : Fin 1).val; rw [e1]; rfl

/-- The accumulators over the windows' blocks are the fold over any tile sequences that agree with the blocks. -/
theorem accAt0_eq_accOf (c : Dev nD) (xs : ℕ → Vec F S2048x256 .f32) (bs : ℕ → Vec F S2048x1 .i32)
    (hxs : ∀ (t : ℕ) (h : t < cfg0.N), xs t = iblk0 V c 0 ⟨t, h⟩) (hbs : ∀ (t : ℕ) (h : t < cfg0.N), bs t = iblk0 V c 1 ⟨t, h⟩)
    (n : ℕ) (hn : n < cfg0.N) : accAt0 V c n hn = accOf xs bs n := by
  induction n with
  | zero => rw [accAt0_zero, accOf_zero, hxs 0 hn, hbs 0 hn]
  | succ n ih => rw [accAt0_succ, accOf_succ, ih (Nat.lt_of_succ_lt hn), hxs (n + 1) hn, hbs (n + 1) hn]

end

section
variable (V : (c : Dev nD) → (b : Ref sig .tc) → Buf (Elt F) ((c : Thread nD τ).loc b))

/-! ## The two outputs: one block, the whole array, written back once -/

/-- The sums' block at any point sits at offset (0, 0) and has the array's own extents [1024, 256]: what a
    write-back moves out of a staging buffer holding G, and the array G read back through the block, are both G. -/
theorem sums_block_whole (t : Fin cfg0.N) (G : Vec F S1024x256 .f32) :
    (cfg0.win 2).cut (cfg0.grid.coords t) G = ((cfg0.win 2).blk t).view.read (Elt F) G := by
  obtain ⟨-, -, -, -, e0, e1, -⟩ := blockIdx0 t
  funext j
  rw [View.read_apply]
  show G _ = G _
  congr 1
  funext a
  apply Fin.ext
  match a with
  | ⟨0, _⟩ => show (j 0).val = win0_2.index t (0 : Fin 2) * 1024 + 1 * (j 0).val; rw [e0]; omega
  | ⟨1, _⟩ => show (j 1).val = win0_2.index t (1 : Fin 2) * 256 + 1 * (j 1).val; rw [e1]; omega

/-- The same for the counts' block, [1, 1024] at offset (0, 0). -/
theorem counts_block_whole (t : Fin cfg0.N) (G : Vec F S1x1024 .f32) :
    (cfg0.win 3).cut (cfg0.grid.coords t) G = ((cfg0.win 3).blk t).view.read (Elt F) G := by
  obtain ⟨-, -, -, -, -, -, e0, e1⟩ := blockIdx0 t
  funext j
  rw [View.read_apply]
  show G _ = G _
  congr 1
  funext a
  apply Fin.ext
  match a with
  | ⟨0, _⟩ => show (j 0).val = win0_3.index t (0 : Fin 2) * 1 + 1 * (j 0).val; rw [e0]; omega
  | ⟨1, _⟩ => show (j 1).val = win0_3.index t (1 : Fin 2) * 1024 + 1 * (j 1).val; rw [e1]; omega

/-- Every index of the sums array lies in the sums' block: 0·1024 ≤ i₀ < 0·1024 + 1024 and 0·256 ≤ i₁ < 0·256 + 256. -/
theorem sums_block_covers (t : Fin cfg0.N) (i : S1024x256.Idx) : i ∈ ((cfg0.win 2).blk t).view.set := by
  obtain ⟨-, -, -, -, e0, e1, -⟩ := blockIdx0 t
  have h0 : (i 0 : ℕ) < 1024 := (i 0).isLt
  have h1 : (i 1 : ℕ) < 256 := (i 1).isLt
  show i ∈ ((View.whole main_v3_0).slice (win0_2.rect t)).set
  rw [View.set_slice_whole, Rect.mem_set_unit]
  intro a
  match a with
  | ⟨0, _⟩ => show win0_2.index t (0 : Fin 2) * 1024 ≤ (i 0 : ℕ) ∧ (i 0 : ℕ) < win0_2.index t (0 : Fin 2) * 1024 + 1024; rw [e0]; omega
  | ⟨1, _⟩ => show win0_2.index t (1 : Fin 2) * 256 ≤ (i 1 : ℕ) ∧ (i 1 : ℕ) < win0_2.index t (1 : Fin 2) * 256 + 256; rw [e1]; omega

/-- Every index of the counts array lies in the counts' block. -/
theorem counts_block_covers (t : Fin cfg0.N) (i : S1x1024.Idx) : i ∈ ((cfg0.win 3).blk t).view.set := by
  obtain ⟨-, -, -, -, -, -, e0, e1⟩ := blockIdx0 t
  have h0 : (i 0 : ℕ) < 1 := (i 0).isLt
  have h1 : (i 1 : ℕ) < 1024 := (i 1).isLt
  show i ∈ ((View.whole main_v3_1).slice (win0_3.rect t)).set
  rw [View.set_slice_whole, Rect.mem_set_unit]
  intro a
  match a with
  | ⟨0, _⟩ => show win0_3.index t (0 : Fin 2) * 1 ≤ (i 0 : ℕ) ∧ (i 0 : ℕ) < win0_3.index t (0 : Fin 2) * 1 + 1; rw [e0]; omega
  | ⟨1, _⟩ => show win0_3.index t (1 : Fin 2) * 1024 ≤ (i 1 : ℕ) ∧ (i 1 : ℕ) < win0_3.index t (1 : Fin 2) * 1024 + 1024; rw [e1]; omega

/-- A point that writes the sums back is the last one. -/
theorem flush_sums_last (t : Fin cfg0.N) (hf : (cfg0.win 2).flush t = true) : t = ⟨97, last_lt⟩ := by
  have h := (flush0_2 t).mp hf
  have ht := pt_lt t
  exact Fin.ext (by show t.val = 97; omega)

/-- A point that writes the counts back is the last one. -/
theorem flush_counts_last (t : Fin cfg0.N) (hf : (cfg0.win 3).flush t = true) : t = ⟨97, last_lt⟩ := by
  have h := (flush0_3 t).mp hf
  have ht := pt_lt t
  exact Fin.ext (by show t.val = 97; omega)

/-- THE SUMS ARRAY after region 0 is the first accumulator after point 97: the one write-back, at point 97,
    writes the whole array, and writes what the body left in the staging buffer there. -/
theorem pool_arr2 (c : Dev nD) (dat : Dat τ (Elt F) Unit ℕ (UR sig nD τ) ℕ cfg0 c)
    (hafter : ∀ t, dat.after 2 t = (accAt0 V c t.val t.isLt).1) :
    dat.arrAt 2 cfg0.N = (accAt0 V c 97 last_lt).1 := by
  refine dat.arrAt_eq_of_cover 2 _ (fun t hf => ?_)
    (fun i => ⟨⟨97, last_lt⟩, (flush0_2 _).mpr rfl, sums_block_covers _ i⟩)
  obtain rfl := flush_sums_last t hf
  show (cfg0.win 2).cut (cfg0.grid.coords _) (dat.after 2 _) = _
  rw [hafter]
  exact sums_block_whole _ _

/-- THE COUNTS ARRAY after region 0 is the second accumulator after point 97. -/
theorem pool_arr3 (c : Dev nD) (dat : Dat τ (Elt F) Unit ℕ (UR sig nD τ) ℕ cfg0 c)
    (hafter : ∀ t, dat.after 3 t = (accAt0 V c t.val t.isLt).2) :
    dat.arrAt 3 cfg0.N = (accAt0 V c 97 last_lt).2 := by
  refine dat.arrAt_eq_of_cover 3 _ (fun t hf => ?_)
    (fun i => ⟨⟨97, last_lt⟩, (flush0_3 _).mpr rfl, counts_block_covers _ i⟩)
  obtain rfl := flush_counts_last t hf
  show (cfg0.win 3).cut (cfg0.grid.coords _) (dat.after 3 _) = _
  rw [hafter]
  exact counts_block_whole _ _

end

end Cert.KernelIdeal.Hand

end
-- ==== Proof.PoolValue.lean ====
/-
  The pooling fold equals the reference's two scatter-adds, element by element, at the exact reals.

  One tile adds to the running sums, at graph g and feature d, the sum over the tile's rows k of
  [batch k = g] · x[k, d]  (the product of the transposed one-hot matrix of the tile's batch column with
  the tile's rows), and to the running counts the number of rows k of the tile with batch k = g.  The fold
  over the 98 tiles of 2048 rows is therefore the double sum over (tile, row in tile), which is the single
  sum over the 200704 padded rows r = 2048 · t + k; the padded rows (r ≥ 200000) carry the batch word −1,
  which is no graph number, and contribute nothing.  The reference's scatter-add into a zero array adds, at
  (g, d), every update element (r, c) whose target (batch r read signed, c) is (g, d): the same sum.
-/
import proofs.«402786_j54597624267060_1_alg».proof.Proof.ValueDefs
import proofs.«402786_j54597624267060_1_alg».proof.Proof.Gen.ReferenceIdeal.Read
import Idealize.ShloMosaic.Lib.ValueIdx
import Idealize.ShloMosaic.Lib.Pipeline.Value
import Idealize.ShloMosaic.Lib.StableHlo.Predicate
import Idealize.ShloMosaic.PureOps.Ideal.Laws

noncomputable section

namespace Cert.KernelIdeal.Hand

open Idealize.ShloMosaic Idealize.ShloMosaic.TcCoe Idealize.SL.Sem Idealize.ShloMosaic.ValueIdx
open Cert.KernelIdeal Cert.KernelIdeal.Gen
open scoped BigOperators

/-! ## One tile -/

/-- A one-bit word widened to 32 bits and read as a real is 1 or 0. -/
theorem bit_toReal (b : BitVec 1) : (((b.setWidth 32).toInt : ℝ) : EReal) = if b = 1#1 then 1 else 0 := by
  rcases BitVec.eq_zero_or_eq_one b with rfl | rfl
  · rw [if_neg (by decide)]
    show (((0 : ℤ) : ℝ) : EReal) = 0
    rw [Int.cast_zero, EReal.coe_zero]
  · rw [if_pos rfl]
    show (((1 : ℤ) : ℝ) : EReal) = 1
    rw [Int.cast_one, EReal.coe_one]

/-- The one-hot matrix of a tile's batch column at (row k, graph g): the batch word of row k against g. -/
theorem onehot_bit (bt : Vec Ideal S2048x1 .i32) (k : Fin 2048) (g : Fin 1024) :
    k0_pay3 (F := Ideal) bt (ix2 k g) = IntOp.cmpi .eq (bt (ix2 k (0 : Fin 1))) (BitVec.ofNat 32 g.val) := by
  unfold k0_pay3
  show IntOp.cmpi .eq (broadcastTo S2048x1024 (shapeCast S2048x1 bt shapeCasts_S2048x1_S2048x1) broadcasts_S2048x1_S2048x1024 (ix2 k g))
      (iota .tc S2048x1024 32 [1] iota_S2048x1024_d1_w32 (ix2 k g)) = _
  rw [shapeCast_self, iota_single_apply,
    broadcastTo_apply bt broadcasts_S2048x1_S2048x1024 (ix2 k g) (ix2 k (0 : Fin 1)) (fun a => match a with
      | ⟨0, _⟩ => by show k.val = if (2048 : Nat) = 1 then 0 else k.val; rw [if_neg (by decide)]
      | ⟨1, _⟩ => by show 0 = if (1 : Nat) = 1 then 0 else _; rw [if_pos rfl])]

/-- The one-hot entry as an extended real: 1 where the batch word of row k is g, else 0. -/
theorem onehot_val (bt : Vec Ideal S2048x1 .i32) (k : Fin 2048) (g : Fin 1024) :
    (sitofp .f32 (extui 32 (k0_pay3 (F := Ideal) bt) natLt_1_32) : FVec Ideal S2048x1024 .f32) (ix2 k g)
      = if bt (ix2 k (0 : Fin 1)) = BitVec.ofNat 32 g.val then 1 else 0 := by
  rw [sitofp_apply, extui_apply, onehot_bit]
  show ((((IntOp.cmpi .eq (bt (ix2 k (0 : Fin 1))) (BitVec.ofNat 32 g.val)).setWidth 32).toInt : ℝ) : EReal) = _
  rw [bit_toReal]
  by_cases h : bt (ix2 k (0 : Fin 1)) = BitVec.ofNat 32 g.val
  · rw [if_pos h, if_pos (StableHlo.Predicate.cmpi_eq_iff.mpr h)]
  · rw [if_neg h, if_neg (fun h' => h (StableHlo.Predicate.cmpi_eq_iff.mp h'))]

/-! ### The tile's product: the contraction runs over the tile's rows -/

theorem lhs_pool_0 (i : S1024x256.Idx) (q : dot_S2048x1024_S2048x256_S1024x256_0_0_1_1_n_n.contr.Idx) :
    (dot_S2048x1024_S2048x256_S1024x256_0_0_1_1_n_n.lhsIdx i q 0).val = (q ⟨0, by decide⟩).val :=
  dot_S2048x1024_S2048x256_S1024x256_0_0_1_1_n_n.lhsIdx_val_of_single rfl i q
theorem lhs_pool_1 (i : S1024x256.Idx) (q : dot_S2048x1024_S2048x256_S1024x256_0_0_1_1_n_n.contr.Idx) :
    (dot_S2048x1024_S2048x256_S1024x256_0_0_1_1_n_n.lhsIdx i q 1).val = (i 0).val := by
  unfold DotDims.lhsIdx
  rw [dif_neg (show ¬(1 : Fin S2048x1024.rank) ∈ dot_S2048x1024_S2048x256_S1024x256_0_0_1_1_n_n.lhsBatch by decide), dif_pos (show (1 : Fin S2048x1024.rank) ∈ dot_S2048x1024_S2048x256_S1024x256_0_0_1_1_n_n.lhsNonContracting by decide)]
  rfl
theorem rhs_pool_0 (i : S1024x256.Idx) (q : dot_S2048x1024_S2048x256_S1024x256_0_0_1_1_n_n.contr.Idx) :
    (dot_S2048x1024_S2048x256_S1024x256_0_0_1_1_n_n.rhsIdx i q 0).val = (q ⟨0, by decide⟩).val :=
  dot_S2048x1024_S2048x256_S1024x256_0_0_1_1_n_n.rhsIdx_val_of_single rfl i q
theorem rhs_pool_1 (i : S1024x256.Idx) (q : dot_S2048x1024_S2048x256_S1024x256_0_0_1_1_n_n.contr.Idx) :
    (dot_S2048x1024_S2048x256_S1024x256_0_0_1_1_n_n.rhsIdx i q 1).val = (i 1).val := by
  unfold DotDims.rhsIdx
  rw [dif_neg (show ¬(1 : Fin S2048x256.rank) ∈ dot_S2048x1024_S2048x256_S1024x256_0_0_1_1_n_n.rhsBatch by decide), dif_pos (show (1 : Fin S2048x256.rank) ∈ dot_S2048x1024_S2048x256_S1024x256_0_0_1_1_n_n.rhsNonContracting by decide)]
  rfl

/-- The product of the transposed left operand with the right one, into a zero accumulator, at (g, d):
    the sum over the 2048 rows of left[k, g] · right[k, d]. -/
theorem pool_matmul_apply (A : FVec Ideal S2048x1024 .bf16) (B : FVec Ideal S2048x256 .bf16) (g : Fin 1024) (d : Fin 256) :
    matmul dot_S2048x1024_S2048x256_S1024x256_0_0_1_1_n_n none A B (constant (F := Ideal) S1024x256 .f32 0x00000000#32) (ix2 g d)
      = ∑ k : Fin 2048, A (ix2 k g) * B (ix2 k d) := by
  simp only [matmul]
  rw [Ideal.matmul_constant_zero_apply, ← Equiv.sum_comp (ValueIdx.contrEquiv1 dot_S2048x1024_S2048x256_S1024x256_0_0_1_1_n_n 2048 rfl rfl).symm]
  refine Finset.sum_congr rfl fun k _ => ?_
  have hk := ValueIdx.contrEquiv1_symm_val dot_S2048x1024_S2048x256_S1024x256_0_0_1_1_n_n 2048 rfl rfl k
  have el : dot_S2048x1024_S2048x256_S1024x256_0_0_1_1_n_n.lhsIdx (ix2 g d) ((ValueIdx.contrEquiv1 dot_S2048x1024_S2048x256_S1024x256_0_0_1_1_n_n 2048 rfl rfl).symm k) = ix2 k g := funext fun a => Fin.ext (by
    match a with
    | ⟨0, _⟩ => exact (lhs_pool_0 _ _).trans hk
    | ⟨1, _⟩ => exact lhs_pool_1 _ _)
  have er : dot_S2048x1024_S2048x256_S1024x256_0_0_1_1_n_n.rhsIdx (ix2 g d) ((ValueIdx.contrEquiv1 dot_S2048x1024_S2048x256_S1024x256_0_0_1_1_n_n 2048 rfl rfl).symm k) = ix2 k d := funext fun a => Fin.ext (by
    match a with
    | ⟨0, _⟩ => exact (rhs_pool_0 _ _).trans hk
    | ⟨1, _⟩ => exact rhs_pool_1 _ _)
  rw [el, er]

/-- One tile's contribution to the sums at (g, d): the rows of the tile whose batch word is g. -/
def tileSum (xt : Vec Ideal S2048x256 .f32) (bt : Vec Ideal S2048x1 .i32) (g : Fin 1024) (d : Fin 256) : EReal :=
  ∑ k : Fin 2048, (if bt (ix2 k (0 : Fin 1)) = BitVec.ofNat 32 g.val then xt (ix2 k d) else 0)

/-- One tile's contribution to the counts at g: the number of rows of the tile whose batch word is g. -/
def tileCount (bt : Vec Ideal S2048x1 .i32) (g : Fin 1024) : EReal :=
  ∑ k : Fin 2048, (if bt (ix2 k (0 : Fin 1)) = BitVec.ofNat 32 g.val then 1 else 0)

/-- The sums after one more tile. -/
theorem pay4_apply (xt : Vec Ideal S2048x256 .f32) (bt : Vec Ideal S2048x1 .i32) (s : Vec Ideal S1024x256 .f32)
    (g : Fin 1024) (d : Fin 256) :
    k0_pay4 (F := Ideal) xt bt s (ix2 g d) = s (ix2 g d) + tileSum xt bt g d := by
  unfold k0_pay4 tileSum
  show (shapeCast S1024x256 (addf s (matmul dot_S2048x1024_S2048x256_S1024x256_0_0_1_1_n_n none
      (truncf .bf16 (sitofp .f32 (extui 32 (k0_pay3 (F := Ideal) bt) natLt_1_32) : FVec Ideal S2048x1024 .f32) bitsLt_bf16_f32)
      (truncf .bf16 (shapeCast S2048x256 xt shapeCasts_S2048x256_S2048x256) bitsLt_bf16_f32)
      (constant (F := Ideal) S1024x256 .f32 0x00000000#32))) shapeCasts_S1024x256_S1024x256) (ix2 g d) = _
  rw [shapeCast_self, addf_apply, pool_matmul_apply]
  refine congrArg (s (ix2 g d) + ·) (Finset.sum_congr rfl fun k _ => ?_)
  rw [truncf_apply, truncf_apply, shapeCast_self, onehot_val]
  by_cases h : bt (ix2 k (0 : Fin 1)) = BitVec.ofNat 32 g.val
  · rw [if_pos h, if_pos h, one_mul]
  · rw [if_neg h, if_neg h, zero_mul]

/-- A sum over the rows of a [2048, 1024] matrix, at column g. -/
theorem colsum_apply (M : FVec Ideal S2048x1024 .f32) (hφ : FKind.Formats .f32)
    (hacc : (0x00000000#32 : BitVec 32) = FKind.add.neutral .f32 hφ) (g : Fin 1024) :
    multiReduction .add [0] S1024 M 0x00000000#32 reduces_S2048x1024_S1024 hφ hacc (ix1 g) = ∑ k : Fin 2048, M (ix2 k g) := by
  refine (Ideal.multiReduction_add_single M 0x00000000#32 reduces_S2048x1024_S1024 hφ hacc (ix1 g)).trans ?_
  show ∑ k : Fin 2048, M (reduces_S2048x1024_S1024.lift (ix1 g) k) = ∑ k : Fin 2048, M (ix2 k g)
  refine Finset.sum_congr rfl fun k _ => congrArg M (funext fun a => Fin.ext ?_)
  match a with
  | ⟨0, _⟩ => rfl
  | ⟨1, _⟩ => rfl

/-- The counts after one more tile. -/
theorem pay5_apply (bt : Vec Ideal S2048x1 .i32) (c : Vec Ideal S1x1024 .f32) (g : Fin 1024) :
    k0_pay5 (F := Ideal) bt c (ix2 (0 : Fin 1) g) = c (ix2 (0 : Fin 1) g) + tileCount bt g := by
  unfold k0_pay5 tileCount
  show (shapeCast S1x1024 (addf c (shapeCast S1x1024 (multiReduction .add [0] S1024
      (sitofp .f32 (extui 32 (k0_pay3 (F := Ideal) bt) natLt_1_32) : FVec Ideal S2048x1024 .f32) 0x00000000#32
      reduces_S2048x1024_S1024 (.inl rfl) rfl) shapeCasts_S1024_S1x1024)) shapeCasts_S1x1024_S1x1024) (ix2 (0 : Fin 1) g) = _
  rw [shapeCast_self, addf_apply]
  refine congrArg (c (ix2 (0 : Fin 1) g) + ·) ?_
  refine (shapeCast_addUnit_apply (![1024]) _ shapeCasts_S1024_S1x1024 (ix2 (0 : Fin 1) g)).trans ?_
  have e : (fun a : Fin 1 => (ix2 (0 : Fin 1) g) a.succ) = ix1 g := funext fun a => by
    match a with
    | ⟨0, _⟩ => rfl
  rw [e]
  refine (colsum_apply _ _ _ g).trans ?_
  exact Finset.sum_congr rfl fun k _ => onehot_val bt k g

/-- The two accumulators start from zero. -/
theorem pay1_apply (i : S1024x256.Idx) : k0_pay1 (F := Ideal) i = 0 := by
  unfold k0_pay1
  show shapeCast S1024x256 (broadcast S1024x256 (Scalar.ofBits (F := Ideal) .f32 0x00000000#32)) shapeCasts_S1024x256_S1024x256 i = 0
  rw [shapeCast_self]
  exact Ideal.ofBits_zero_f32
theorem pay2_apply (i : S1x1024.Idx) : k0_pay2 (F := Ideal) i = 0 := by
  unfold k0_pay2
  show shapeCast S1x1024 (broadcast S1x1024 (Scalar.ofBits (F := Ideal) .f32 0x00000000#32)) shapeCasts_S1x1024_S1x1024 i = 0
  rw [shapeCast_self]
  exact Ideal.ofBits_zero_f32

/-! ## The fold over the tiles -/

/-- The sums after tile n: the tiles' contributions added up. -/
theorem accOf_sums_apply (xs : ℕ → Vec Ideal S2048x256 .f32) (bs : ℕ → Vec Ideal S2048x1 .i32) (n : ℕ) (g : Fin 1024) (d : Fin 256) :
    (accOf xs bs n).1 (ix2 g d) = ∑ t ∈ Finset.range (n + 1), tileSum (xs t) (bs t) g d := by
  induction n with
  | zero =>
    rw [accOf_zero]
    show k0_pay4 (F := Ideal) (xs 0) (bs 0) (k0_pay1 (F := Ideal)) (ix2 g d) = _
    rw [pay4_apply, pay1_apply, zero_add, Finset.sum_range_one]
  | succ n ih =>
    rw [accOf_succ]
    show k0_pay4 (F := Ideal) (xs (n + 1)) (bs (n + 1)) (accOf xs bs n).1 (ix2 g d) = _
    rw [pay4_apply, ih, Finset.sum_range_succ _ (n + 1)]

/-- The counts after tile n. -/
theorem accOf_counts_apply (xs : ℕ → Vec Ideal S2048x256 .f32) (bs : ℕ → Vec Ideal S2048x1 .i32) (n : ℕ) (g : Fin 1024) :
    (accOf xs bs n).2 (ix2 (0 : Fin 1) g) = ∑ t ∈ Finset.range (n + 1), tileCount (bs t) g := by
  induction n with
  | zero =>
    rw [accOf_zero]
    show k0_pay5 (F := Ideal) (bs 0) (k0_pay2 (F := Ideal)) (ix2 (0 : Fin 1) g) = _
    rw [pay5_apply, pay2_apply, zero_add, Finset.sum_range_one]
  | succ n ih =>
    rw [accOf_succ]
    show k0_pay5 (F := Ideal) (bs (n + 1)) (accOf xs bs n).2 (ix2 (0 : Fin 1) g) = _
    rw [pay5_apply, ih, Finset.sum_range_succ _ (n + 1)]

/-! ## From (tile, row in tile) to the padded row -/

/-- A double sum over n blocks of m consecutive naturals is the sum over the first m · n naturals. -/
theorem sum_blocks (G : ℕ → EReal) (m n : ℕ) :
    ∑ t ∈ Finset.range n, ∑ k ∈ Finset.range m, G (m * t + k) = ∑ r ∈ Finset.range (m * n), G r := by
  induction n with
  | zero => simp
  | succ n ih => rw [Finset.sum_range_succ, ih, Nat.mul_succ, Finset.sum_range_add]

/-- Row r's contribution at graph g, for a per-row value f: f r where r is a real row whose batch word is g. -/
def rowTerm (batch : IVec S200000 32) (f : Fin 200000 → EReal) (g : Fin 1024) (r : ℕ) : EReal :=
  if h : r < 200000 then (if batch (ix1 ⟨r, h⟩) = BitVec.ofNat 32 g.val then f ⟨r, h⟩ else 0) else 0

/-- The padding word −1 is no graph number. -/
theorem pad_ne_graph (g : Fin 1024) : ¬ (0xFFFFFFFF#32 : BitVec 32) = BitVec.ofNat 32 g.val := by
  intro h
  have h' : (0xFFFFFFFF#32 : BitVec 32).toNat = (BitVec.ofNat 32 g.val).toNat := congrArg BitVec.toNat h
  have hg := g.isLt
  have e1 : (BitVec.ofNat 32 g.val).toNat = g.val % 2 ^ 32 := BitVec.toNat_ofNat _ _
  have e2 : g.val % 2 ^ 32 = g.val := Nat.mod_eq_of_lt (by omega)
  have e : (0xFFFFFFFF#32 : BitVec 32).toNat = 4294967295 := rfl
  rw [e1, e2, e] at h'
  omega

/-- A tile's entry (batch word w, value v) at padded row r is row r's contribution. -/
theorem tile_term (batch : IVec S200000 32) (f : Fin 200000 → EReal) (g : Fin 1024) (w : BitVec 32) (v : EReal) (r : ℕ)
    (hw : w = if h : r < 200000 then batch (ix1 ⟨r, h⟩) else 0xFFFFFFFF#32)
    (hv : ∀ h : r < 200000, v = f ⟨r, h⟩) :
    (if w = BitVec.ofNat 32 g.val then v else 0) = rowTerm batch f g r := by
  unfold rowTerm
  by_cases h : r < 200000
  · rw [dif_pos h] at hw
    rw [dif_pos h, hw, hv h]
  · rw [dif_neg h] at hw
    rw [dif_neg h, hw, if_neg (pad_ne_graph g)]

/-- The sum over the 98 tiles of 2048 rows of the rows' contributions is the sum over the 200000 real rows. -/
theorem sum_tiles_eq_sum_rows (batch : IVec S200000 32) (f : Fin 200000 → EReal) (g : Fin 1024) :
    ∑ t ∈ Finset.range 98, ∑ k : Fin 2048, rowTerm batch f g (2048 * t + k.val)
      = ∑ r : Fin 200000, (if batch (ix1 r) = BitVec.ofNat 32 g.val then f r else 0) := by
  have e1 : ∀ t ∈ Finset.range 98, ∑ k : Fin 2048, rowTerm batch f g (2048 * t + k.val)
      = ∑ k ∈ Finset.range 2048, rowTerm batch f g (2048 * t + k) :=
    fun t _ => Fin.sum_univ_eq_sum_range (fun k => rowTerm batch f g (2048 * t + k)) 2048
  rw [Finset.sum_congr rfl e1, sum_blocks (rowTerm batch f g) 2048 98,
    show 2048 * 98 = 200000 + 704 from rfl, Finset.sum_range_add,
    Finset.sum_eq_zero (s := Finset.range 704) (f := fun x => rowTerm batch f g (200000 + x)) (fun x _ => by
      unfold rowTerm; rw [dif_neg (by omega)]),
    add_zero, ← Fin.sum_univ_eq_sum_range (rowTerm batch f g) 200000]
  refine Finset.sum_congr rfl fun r _ => ?_
  unfold rowTerm
  rw [dif_pos r.isLt]

/-! ## The reference's scatter-add, read at an index -/

/-- The dimension numbers of a row scatter: update row r of an [R, C] array is added to row idx[r, 0] of a
    [G, C] array (update window axis 1, inserted window axis 0, the start index names operand axis 0,
    the index vector along axis 1 of the [R, 1] indices). -/
abbrev rowScatter (G R C : ℕ) (wf : ScatterDims.WF ⟨2, ![G, C]⟩ ⟨2, ![R, 1]⟩ ⟨2, ![R, C]⟩ [1] [0] [0] 1) :
    ScatterDims ⟨2, ![G, C]⟩ ⟨2, ![R, 1]⟩ ⟨2, ![R, C]⟩ where
  updateWindowDims := [1]
  insertedWindowDims := [0]
  scatterDimsToOperandDims := [0]
  indexVectorDim := 1
  wf := wf

section RowScatter
variable (G R C : ℕ) (wf : ScatterDims.WF ⟨2, ![G, C]⟩ ⟨2, ![R, 1]⟩ ⟨2, ![R, C]⟩ [1] [0] [0] 1)

/-- On operand axis 0 the window starts at the row's index word, read signed. -/
theorem rowScatter_start_0 {w : ℕ} (idx : IVec ⟨2, ![R, 1]⟩ w) (r : Fin R) (c : Fin C) :
    (rowScatter G R C wf).start (ix2 r c) idx 0 = (idx (ix2 r (0 : Fin 1))).toInt := by
  unfold ScatterDims.start
  rw [dif_pos (show (0 : Fin 2) ∈ (rowScatter G R C wf).scatterDimsToOperandDims from List.mem_singleton.mpr rfl)]
  have hsi : (rowScatter G R C wf).siIdx (ix2 r c) ⟨List.idxOf (0 : Fin 2) (rowScatter G R C wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
/-- On operand axis 1 it starts at 0. -/
theorem rowScatter_start_1 {w : ℕ} (idx : IVec ⟨2, ![R, 1]⟩ w) (j : (⟨2, ![R, C]⟩ : Shape).Idx) :
    (rowScatter G R C wf).start j idx 1 = 0 := by
  unfold ScatterDims.start
  rw [dif_neg (show ¬ (1 : Fin 2) ∈ (rowScatter G R C wf).scatterDimsToOperandDims from (by decide : ¬ (1 : Fin 2) ∈ ([0] : List (Fin 2))))]
/-- The operand's axes that are not inserted: axis 1. -/
theorem rowScatter_sKept : (rowScatter G R C wf).sKept = [1] := rfl
/-- The window has no extent on the inserted axis 0 … -/
theorem rowScatter_window_0 (j : (⟨2, ![R, C]⟩ : Shape).Idx) : (rowScatter G R C wf).window j 0 = 0 := by
  unfold ScatterDims.window
  rw [dif_neg (show ¬ (0 : Fin 2) ∈ (rowScatter G R C wf).sKept from
    fun h => absurd (rowScatter_sKept G R C wf ▸ h) (by decide : ¬ (0 : Fin 2) ∈ ([1] : List (Fin 2))))]
/-- … and on axis 1 its coordinate is the update's column. -/
theorem rowScatter_window_1 (j : (⟨2, ![R, C]⟩ : Shape).Idx) : (rowScatter G R C wf).window j 1 = (j 1).val := by
  unfold ScatterDims.window
  rw [dif_pos (show (1 : Fin 2) ∈ (rowScatter G R C wf).sKept from
    (rowScatter_sKept G R C wf).symm ▸ (by decide : (1 : Fin 2) ∈ ([1] : List (Fin 2))))]
  rfl

/-- Update element (r, c) lands on (g, d) exactly when row r's index word, read signed, is g and c = d. -/
theorem rowScatter_resultIdx_iff {w : ℕ} (idx : IVec ⟨2, ![R, 1]⟩ w) (r : Fin R) (c : Fin C) (g : Fin G) (d : Fin C) :
    (rowScatter G R C wf).resultIdx? (ix2 r c) idx = some (ix2 g d) ↔ (idx (ix2 r (0 : Fin 1))).toInt = (g.val : ℤ) ∧ c = d := by
  have h0 : (rowScatter G R C wf).start (ix2 r c) idx 0 + ((rowScatter G R C wf).window (ix2 r c) 0 : ℤ) = (idx (ix2 r (0 : Fin 1))).toInt := by
    rw [rowScatter_start_0, rowScatter_window_0, Nat.cast_zero, add_zero]
  have h1 : (rowScatter G R C wf).start (ix2 r c) idx 1 + ((rowScatter G R C wf).window (ix2 r c) 1 : ℤ) = (c.val : ℤ) := by
    rw [rowScatter_start_1, rowScatter_window_1, zero_add]
    rfl
  have hG : (⟨2, ![G, C]⟩ : Shape).size 0 = G := rfl
  have hC : (⟨2, ![G, C]⟩ : Shape).size 1 = C := rfl
  have hg := g.isLt
  have hc := c.isLt
  unfold ScatterDims.resultIdx?
  constructor
  · intro hs
    by_cases h : ∀ a, 0 ≤ (rowScatter G R C wf).start (ix2 r c) idx a + ((rowScatter G R C wf).window (ix2 r c) a : ℤ)
        ∧ (rowScatter G R C wf).start (ix2 r c) idx a + ((rowScatter G R C wf).window (ix2 r c) a : ℤ) < ((⟨2, ![G, C]⟩ : Shape).size a : ℤ)
    · rw [dif_pos h] at hs
      have hf := Option.some.inj hs
      have e0 : ((rowScatter G R C wf).start (ix2 r c) idx 0 + ((rowScatter G R C wf).window (ix2 r c) 0 : ℤ)).toNat = g.val :=
        congrArg (fun f : (⟨2, ![G, C]⟩ : Shape).Idx => (f 0).val) hf
      have e1 : ((rowScatter G R C wf).start (ix2 r c) idx 1 + ((rowScatter G R C wf).window (ix2 r c) 1 : ℤ)).toNat = d.val :=
        congrArg (fun f : (⟨2, ![G, C]⟩ : Shape).Idx => (f 1).val) hf
      have p0 := (h 0).1
      rw [h0] at e0 p0
      rw [h1] at e1
      exact ⟨by omega, Fin.ext (by omega)⟩
    · rw [dif_neg h] at hs
      exact absurd hs (by simp)
  · rintro ⟨hgd, rfl⟩
    have h : ∀ a, 0 ≤ (rowScatter G R C wf).start (ix2 r c) idx a + ((rowScatter G R C wf).window (ix2 r c) a : ℤ)
        ∧ (rowScatter G R C wf).start (ix2 r c) idx a + ((rowScatter G R C wf).window (ix2 r c) a : ℤ) < ((⟨2, ![G, C]⟩ : Shape).size a : ℤ) := by
      refine Fin.forall_fin_two.mpr ⟨?_, ?_⟩
      · rw [h0, hG]; omega
      · rw [h1, hC]; omega
    rw [dif_pos h]
    refine congrArg some (Shape.idx_ext₂ ?_ ?_)
    · show ((rowScatter G R C wf).start (ix2 r c) idx 0 + ((rowScatter G R C wf).window (ix2 r c) 0 : ℤ)).toNat = g.val
      rw [h0]; omega
    · show ((rowScatter G R C wf).start (ix2 r c) idx 1 + ((rowScatter G R C wf).window (ix2 r c) 1 : ℤ)).toNat = c.val
      rw [h1]; omega

/-- The row scatter-add at (g, d): the operand there plus the updates of the rows whose index word is g. -/
theorem rowScatterAdd_apply (z : FVec Ideal ⟨2, ![G, C]⟩ .f32) (idx : IVec ⟨2, ![R, 1]⟩ 32) (upd : FVec Ideal ⟨2, ![R, C]⟩ .f32)
    (g : Fin G) (d : Fin C) :
    Host.scatterAdd (F := Ideal) (rowScatter G R C wf) z idx upd (ix2 g d)
      = z (ix2 g d) + ∑ r : Fin R, (if (idx (ix2 r (0 : Fin 1))).toInt = (g.val : ℤ) then upd (ix2 r d) else 0) := by
  simp only [Host.scatterAdd]
  rw [Ideal.hostScatterAdd_def]
  unfold Ideal.hostScatterAdd
  refine congrArg (z (ix2 g d) + ·) ?_
  rw [Finset.sum_filter, sum_idx2]
  refine Finset.sum_congr rfl fun r _ => ?_
  by_cases hg : (idx (ix2 r (0 : Fin 1))).toInt = (g.val : ℤ)
  · rw [if_pos hg, Finset.sum_eq_single d]
    · rw [if_pos ((rowScatter_resultIdx_iff G R C wf idx r d g d).mpr ⟨hg, rfl⟩)]
    · intro c _ hc
      rw [if_neg (fun h => hc ((rowScatter_resultIdx_iff G R C wf idx r c g d).mp h).2)]
    · intro h; exact absurd (Finset.mem_univ d) h
  · rw [if_neg hg]
    refine Finset.sum_eq_zero fun c _ => ?_
    rw [if_neg (fun h => hg ((rowScatter_resultIdx_iff G R C wf idx r c g d).mp h).1)]

end RowScatter

/-- A 32-bit word read signed is the graph number g (below 1024) exactly when it is g's word. -/
theorem toInt_eq_graph (w : BitVec 32) (g : ℕ) (hg : g < 1024) : w.toInt = (g : ℤ) ↔ w = BitVec.ofNat 32 g := by
  have hw := w.isLt
  have hm : g % 2 ^ 32 = g := Nat.mod_eq_of_lt (by omega)
  constructor
  · intro h
    apply BitVec.eq_of_toNat_eq
    rw [BitVec.toNat_ofNat, hm]
    rw [BitVec.toInt_eq_toNat_cond] at h
    split_ifs at h <;> omega
  · rintro rfl
    rw [BitVec.toInt_eq_toNat_cond, BitVec.toNat_ofNat, hm, if_pos (by omega)]

/-! ## The reference's two scatter-adds as sums over the rows -/

/-- The reference's batch column at row r is the batch word of row r. -/
theorem ref_index_apply (batch : IVec S200000 32) (r : Fin 200000) :
    Cert.ReferenceIdeal.Read.val_main_v1 (F := Ideal) batch (ix2 r (0 : Fin 1)) = batch (ix1 r) := by
  rw [Cert.ReferenceIdeal.Read.val_main_v1_apply]
  refine congrArg batch (funext fun a => ?_)
  match a with
  | ⟨0, _⟩ => rfl

/-- The reference's sums at (g, d): the rows whose batch word is g. -/
theorem ref_sums_apply (x : FVec Ideal S200000x256 .f32) (batch : IVec S200000 32) (g : Fin 1024) (d : Fin 256) :
    Cert.ReferenceIdeal.Read.val_main_v2 (F := Ideal) x batch (ix2 g d)
      = ∑ r : Fin 200000, (if batch (ix1 r) = BitVec.ofNat 32 g.val then x (ix2 r d) else 0) := by
  unfold Cert.ReferenceIdeal.Read.val_main_v2
  show Host.scatterAdd (F := Ideal) (rowScatter 1024 200000 256 Cert.ReferenceIdeal.Gen.scatter_S1024x256_S200000x1_S200000x256_1_0_0_1_wf)
      (Cert.ReferenceIdeal.Read.val_main_v0 (F := Ideal)) (Cert.ReferenceIdeal.Read.val_main_v1 (F := Ideal) batch) x (ix2 g d) = _
  rw [rowScatterAdd_apply, Cert.ReferenceIdeal.Read.val_main_v0_apply, Cert.ReferenceIdeal.Read.val_main_cst_apply]
  have z : FloatOps.ofBits (F := Ideal) .f32 0x00000000#32 = (0 : EReal) := Ideal.ofBits_zero_f32
  rw [z, zero_add]
  refine Finset.sum_congr rfl fun r _ => ?_
  rw [ref_index_apply]
  by_cases h : batch (ix1 r) = BitVec.ofNat 32 g.val
  · rw [if_pos h, if_pos ((toInt_eq_graph _ _ g.isLt).mpr h)]
  · rw [if_neg h, if_neg (fun h' => h ((toInt_eq_graph _ _ g.isLt).mp h'))]

/-- The reference's counts at g: the number of rows whose batch word is g. -/
theorem ref_counts_apply (batch : IVec S200000 32) (g : Fin 1024) :
    Cert.ReferenceIdeal.Read.val_main_v6 (F := Ideal) batch (ix2 g (0 : Fin 1))
      = ∑ r : Fin 200000, (if batch (ix1 r) = BitVec.ofNat 32 g.val then 1 else 0) := by
  unfold Cert.ReferenceIdeal.Read.val_main_v6
  show Host.scatterAdd (F := Ideal) (rowScatter 1024 200000 1 Cert.ReferenceIdeal.Gen.scatter_S1024x1_S200000x1_S200000x1_1_0_0_1_wf)
      (Cert.ReferenceIdeal.Read.val_main_v4 (F := Ideal)) (Cert.ReferenceIdeal.Read.val_main_v5 (F := Ideal) batch)
      (Cert.ReferenceIdeal.Read.val_main_v3 (F := Ideal)) (ix2 g (0 : Fin 1)) = _
  rw [rowScatterAdd_apply, Cert.ReferenceIdeal.Read.val_main_v4_apply, Cert.ReferenceIdeal.Read.val_main_cst_1_apply]
  have z : FloatOps.ofBits (F := Ideal) .f32 0x00000000#32 = (0 : EReal) := Ideal.ofBits_zero_f32
  rw [z, zero_add]
  refine Finset.sum_congr rfl fun r _ => ?_
  have e1 : Cert.ReferenceIdeal.Read.val_main_v3 (F := Ideal) (ix2 r (0 : Fin 1)) = (1 : EReal) := by
    rw [Cert.ReferenceIdeal.Read.val_main_v3_apply, Cert.ReferenceIdeal.Read.val_main_cst_0_apply]
    exact IdealRules.sign_bit.ideal_onePat .f32
  have e5 : Cert.ReferenceIdeal.Read.val_main_v5 (F := Ideal) batch (ix2 r (0 : Fin 1)) = batch (ix1 r) := ref_index_apply batch r
  rw [e1, e5]
  by_cases h : batch (ix1 r) = BitVec.ofNat 32 g.val
  · rw [if_pos h, if_pos ((toInt_eq_graph _ _ g.isLt).mpr h)]
  · rw [if_neg h, if_neg (fun h' => h ((toInt_eq_graph _ _ g.isLt).mp h'))]

/-! ## The fold over the tiles is the reference's scatter-add -/

/-- The pooled sums: the accumulator after the last tile is the reference's scatter-add of the rows. -/
theorem pool_sums (x : FVec Ideal S200000x256 .f32) (batch : IVec S200000 32)
    (xs : ℕ → Vec Ideal S2048x256 .f32) (bs : ℕ → Vec Ideal S2048x1 .i32)
    (hx : ∀ (t : ℕ), t < 98 → ∀ (k : Fin 2048) (d : Fin 256), xs t (ix2 k d) = if h : 2048 * t + k.val < 200000 then x (ix2 ⟨2048 * t + k.val, h⟩ d) else 0)
    (hb : ∀ (t : ℕ), t < 98 → ∀ (k : Fin 2048), bs t (ix2 k (0 : Fin 1)) = if h : 2048 * t + k.val < 200000 then batch (ix1 ⟨2048 * t + k.val, h⟩) else 0xFFFFFFFF#32)
    (g : Fin 1024) (d : Fin 256) :
    (accOf xs bs 97).1 (ix2 g d) = Cert.ReferenceIdeal.Read.val_main_v2 (F := Ideal) x batch (ix2 g d) := by
  rw [accOf_sums_apply, ref_sums_apply, ← sum_tiles_eq_sum_rows batch (fun r => x (ix2 r d)) g]
  refine Finset.sum_congr rfl fun t ht => ?_
  have ht' : t < 98 := Finset.mem_range.mp ht
  unfold tileSum
  refine Finset.sum_congr rfl fun k _ => ?_
  exact tile_term batch (fun r => x (ix2 r d)) g _ _ (2048 * t + k.val) (hb t ht' k) (fun h => by rw [hx t ht' k d, dif_pos h])

/-- The pooled counts: the count accumulator after the last tile is the reference's scatter-add of ones. -/
theorem pool_counts (x : FVec Ideal S200000x256 .f32) (batch : IVec S200000 32)
    (xs : ℕ → Vec Ideal S2048x256 .f32) (bs : ℕ → Vec Ideal S2048x1 .i32)
    (hx : ∀ (t : ℕ), t < 98 → ∀ (k : Fin 2048) (d : Fin 256), xs t (ix2 k d) = if h : 2048 * t + k.val < 200000 then x (ix2 ⟨2048 * t + k.val, h⟩ d) else 0)
    (hb : ∀ (t : ℕ), t < 98 → ∀ (k : Fin 2048), bs t (ix2 k (0 : Fin 1)) = if h : 2048 * t + k.val < 200000 then batch (ix1 ⟨2048 * t + k.val, h⟩) else 0xFFFFFFFF#32)
    (g : Fin 1024) :
    (accOf xs bs 97).2 (ix2 (0 : Fin 1) g) = Cert.ReferenceIdeal.Read.val_main_v6 (F := Ideal) batch (ix2 g (0 : Fin 1)) := by
  rw [accOf_counts_apply, ref_counts_apply, ← sum_tiles_eq_sum_rows batch (fun _ => 1) g]
  refine Finset.sum_congr rfl fun t ht => ?_
  have ht' : t < 98 := Finset.mem_range.mp ht
  unfold tileCount
  refine Finset.sum_congr rfl fun k _ => ?_
  exact tile_term batch (fun _ => 1) g _ _ (2048 * t + k.val) (hb t ht' k) (fun _ => rfl)

end Cert.KernelIdeal.Hand

end
-- ==== Proof.LayoutValue.lean ====
/-
  The program's layout operations, read at an index. None of them computes: each places the entries of its operand.
  • The two pads add 704 rows after the 200000 rows of their operand and nothing elsewhere (low padding 0, no interior
    padding): row r' of the result is row r' of the operand when r' < 200000, and the padding value otherwise.
  • A reshape keeps the row-major position. Between [n] and [n, 1], and between [n, 1] and [1, n], the row-major
    position of an entry is its one free coordinate (r · 1 + 0 = r = 0 · n + r), so the entry at coordinate r goes to
    the entry at coordinate r.
  • The final slice keeps the first 200000 of 200704 rows, from offset 0 on both axes: row r of the result is row r of
    the operand.
  • The two padding values: the integer 0 converted to an exact real is 0; the other is the word of 32 ones, which is
    −1 read signed.
-/
import proofs.«402786_j54597624267060_1_alg».proof.Proof.Gen.KernelIdeal
import Idealize.ShloMosaic.Lib.ValueIdx
import Idealize.ShloMosaic.Lib.Pipeline.Value
import Idealize.ShloMosaic.Lib.KernelVsHost
import Idealize.ShloMosaic.PureOps.Ideal

noncomputable section

namespace Cert.KernelIdeal.Hand

open Cert.KernelIdeal Cert.KernelIdeal.Gen Idealize.ShloMosaic Idealize.ShloMosaic.ValueIdx

/-- The padded feature array at row r', column d: the operand's entry when r' is one of its 200000 rows, else the
    padding value. Inside, the result coordinate on each axis is 0 + (operand coordinate) · (0 + 1). -/
theorem padx_apply {α : Type} (x : S200000x256.Idx → α) (v : S_.Idx → α) (r' : Fin 200704) (d : Fin 256) :
    pad S200704x256 ![0, 0] ![704, 0] ![0, 0] x v pads_S200000x256_S200704x256_07040_000 h_S_ (ix2 r' d)
      = if h : r'.val < 200000 then x (ix2 ⟨r'.val, h⟩ d) else v ix0 := by
  by_cases h : r'.val < 200000
  · rw [dif_pos h]
    refine pad_apply_of_inside _ _ _ x v _ _ _ (ix2 ⟨r'.val, h⟩ d) fun a => ?_
    match a with
    | ⟨0, _⟩ => show r'.val = 0 + r'.val * (0 + 1); omega
    | ⟨1, _⟩ => show d.val = 0 + d.val * (0 + 1); omega
  · rw [dif_neg h]
    refine (pad_apply_of_not_inside _ _ _ x v _ _ _ (0 : Fin 2) ?_).trans (congrArg v (eq_ix0 _))
    rintro ⟨-, -, h3⟩
    have h3' : (r'.val - 0) / (0 + 1) < 200000 := h3
    rw [Nat.sub_zero, Nat.zero_add, Nat.div_one] at h3'
    exact h h3'

/-- The padded batch column at row r': the operand's word when r' is one of its 200000 rows, else the padding word. -/
theorem padb_apply {α : Type} (b : S200000x1.Idx → α) (v : S_.Idx → α) (r' : Fin 200704) :
    pad S200704x1 ![0, 0] ![704, 0] ![0, 0] b v pads_S200000x1_S200704x1_07040_000 h_S_ (ix2 r' (0 : Fin 1))
      = if h : r'.val < 200000 then b (ix2 ⟨r'.val, h⟩ (0 : Fin 1)) else v ix0 := by
  by_cases h : r'.val < 200000
  · rw [dif_pos h]
    refine pad_apply_of_inside _ _ _ b v _ _ _ (ix2 ⟨r'.val, h⟩ (0 : Fin 1)) fun a => ?_
    match a with
    | ⟨0, _⟩ => show r'.val = 0 + r'.val * (0 + 1); omega
    | ⟨1, _⟩ => show (0 : Nat) = 0 + 0 * (0 + 1); omega
  · rw [dif_neg h]
    refine (pad_apply_of_not_inside _ _ _ b v _ _ _ (0 : Fin 2) ?_).trans (congrArg v (eq_ix0 _))
    rintro ⟨-, -, h3⟩
    have h3' : (r'.val - 0) / (0 + 1) < 200000 := h3
    rw [Nat.sub_zero, Nat.zero_add, Nat.div_one] at h3'
    exact h h3'

/-- The batch vector as a column: entry r of [200000] sits at row-major position r, as does entry (r, 0) of [200000, 1]. -/
theorem bcol_apply {α : Type} (b : S200000.Idx → α) (r : Fin 200000) :
    shapeCast S200000x1 b shapeCasts_S200000_S200000x1 (ix2 r (0 : Fin 1)) = b (ix1 r) := by
  refine shapeCast_apply b _ (ix2 r (0 : Fin 1)) (ix1 r) ?_
  rw [Shape.rowMajor_val_one, Shape.rowMajor_val_two]
  show r.val = r.val * 1 + 0
  omega

/-- The gate column as a row: entry (g, 0) of [1024, 1] and entry (0, g) of [1, 1024] both sit at row-major position g. -/
theorem grow_apply {α : Type} (G : S1024x1.Idx → α) (g : Fin 1024) :
    shapeCast S1x1024 G shapeCasts_S1024x1_S1x1024 (ix2 (0 : Fin 1) g) = G (ix2 g (0 : Fin 1)) := by
  refine shapeCast_apply G _ (ix2 (0 : Fin 1) g) (ix2 g (0 : Fin 1)) ?_
  rw [Shape.rowMajor_val_two, Shape.rowMajor_val_two]
  show g.val * 1 + 0 = 0 * 1024 + g.val
  omega

/-- The count row as a column: entry (0, g) of [1, 1024] and entry (g, 0) of [1024, 1] both sit at row-major position g. -/
theorem cntcol_apply {α : Type} (C : S1x1024.Idx → α) (g : Fin 1024) :
    shapeCast S1024x1 C shapeCasts_S1x1024_S1024x1 (ix2 g (0 : Fin 1)) = C (ix2 (0 : Fin 1) g) := by
  refine shapeCast_apply C _ (ix2 g (0 : Fin 1)) (ix2 (0 : Fin 1) g) ?_
  rw [Shape.rowMajor_val_two, Shape.rowMajor_val_two]
  show 0 * 1024 + g.val = g.val * 1 + 0
  omega

/-- The final slice at row r, column d: the padded result's entry at the same row and column (offsets 0 and 0). -/
theorem slice_apply {α : Type} (y : S200704x256.Idx → α) (r : Fin 200000) (d : Fin 256) :
    extractStridedSlice S200000x256 ![0, 0] y slices_S200704x256_S200000x256_0_0 (ix2 r d) = y (ix2 ⟨r.val, by omega⟩ d) := by
  refine extractStridedSlice_apply _ y _ (ix2 r d) _ fun a => ?_
  match a with
  | ⟨0, _⟩ => show r.val = 0 + r.val; omega
  | ⟨1, _⟩ => show d.val = 0 + d.val; omega

/-- The feature array's padding value: the integer 0, converted exactly, is the real 0. -/
theorem padval_zero : sitofp (F := Ideal) .f32 (constantI S_ 32 0#32) ix0 = (0 : EReal) := by
  show (((0#32 : BitVec 32).toInt : ℝ) : EReal) = 0
  have e : (0#32 : BitVec 32).toInt = 0 := by decide
  rw [e, Int.cast_zero, EReal.coe_zero]

/-- The batch column's padding word: 32 ones (−1 read signed). -/
theorem padval_neg : constantI S_ 32 4294967295#32 ix0 = (0xFFFFFFFF#32 : BitVec 32) := rfl

end Cert.KernelIdeal.Hand

end
-- ==== Proof.EntryValue.lean ====
/-
  At the exact-real instance: what the two regions find in their arrays and what the pooling region leaves,
  as functions of the program's arguments x and batch.
  * Both regions read the padded x (x on the first 200000 rows, 0 on the 704 rows appended) and the padded batch
    column (batch on the first 200000 rows, the word −1 below).
  * The pooling region leaves in its two outputs the accumulators after the last tile; the fold over the 98 tiles
    is the sum over all rows, the appended rows contributing nothing (their x is 0 and their batch word matches no
    graph), so the outputs are the reference's scatter-added sums and counts.
  * The scaling region finds the gate row: the shared gate function of those sums and counts.
-/
import proofs.«402786_j54597624267060_1_alg».proof.Proof.Run
import proofs.«402786_j54597624267060_1_alg».proof.Proof.HostValue
import proofs.«402786_j54597624267060_1_alg».proof.Proof.PoolArr
import proofs.«402786_j54597624267060_1_alg».proof.Proof.PoolValue
import proofs.«402786_j54597624267060_1_alg».proof.Proof.LayoutValue

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-- The argument x on core `c`. -/
abbrev xarg : FVec Ideal S200000x256 .f32 := m ((c : Thread nD τ).loc main_arg0)
/-- The argument batch on core `c`. -/
abbrev barg : IVec S200000 32 := m ((c : Thread nD τ).loc main_arg1)

/-! ## Buffers nothing has written yet -/

theorem W1_of (r : Ref sig .tc) (h0 : r ∉ hostOps0_W) : W1 m ρ c (Proc.devRef .tc r) = m ((c : Thread nD τ).loc r) :=
  (StableHlo.after_of_writes_sub hostOps0 _ hostOps0_writes h0).trans rfl
theorem W2_of (r : Ref sig .tc) (h0 : r ∉ hostOps0_W) (h1 : r ∉ hostOps0_1_W) :
    W2 m ρ c (Proc.devRef .tc r) = m ((c : Thread nD τ).loc r) :=
  (StableHlo.after_of_writes_sub hostOps0_1 _ hostOps0_1_writes h1).trans (W1_of m ρ c r h0)
theorem W4_of (r : Ref sig .tc) (h0 : r ∉ hostOps0_W) (h1 : r ∉ hostOps0_1_W) (h2 : r ∉ hostOps0_2_W) (h3 : r ∉ hostOps0_3_W) :
    W4 m ρ c (Proc.devRef .tc r) = m ((c : Thread nD τ).loc r) :=
  (StableHlo.after_of_writes_sub hostOps0_3 _ hostOps0_3_writes h3).trans
    ((StableHlo.after_of_writes_sub hostOps0_2 _ hostOps0_2_writes h2).trans (W2_of m ρ c r h0 h1))
theorem W5_of (r : Ref sig .tc) (h0 : r ∉ hostOps0_W) (h1 : r ∉ hostOps0_1_W) (h2 : r ∉ hostOps0_2_W) (h3 : r ∉ hostOps0_3_W)
    (h4 : ∀ w, Pipeline.arrRef spec0 w ≠ r) : W5 m ρ c (Proc.devRef .tc r) = m ((c : Thread nD τ).loc r) :=
  (W5_of_ne m ρ c r h4).trans (W4_of m ρ c r h0 h1 h2 h3)
theorem W7_of_W5 (r : Ref sig .tc) (h5 : r ∉ hostOps1_W) (h6 : r ∉ hostOps1_1_W) :
    W7 m ρ c (Proc.devRef .tc r) = W5 m ρ c (Proc.devRef .tc r) :=
  (StableHlo.after_of_writes_sub hostOps1_1 _ hostOps1_1_writes h6).trans (StableHlo.after_of_writes_sub hostOps1 _ hostOps1_writes h5)
theorem W8_of_W5 (r : Ref sig .tc) (h5 : r ∉ hostOps1_W) (h6 : r ∉ hostOps1_1_W) (h7 : r ∉ hostOps1_2_W) :
    W8 m ρ c (Proc.devRef .tc r) = W5 m ρ c (Proc.devRef .tc r) :=
  (StableHlo.after_of_writes_sub hostOps1_2 _ hostOps1_2_writes h7).trans (W7_of_W5 m ρ c r h5 h6)

/-! ## The padded arrays -/

theorem W1_c : W1 m ρ c (Proc.devRef .tc main_c) = constantI S_ 32 0#32 := after_c (W0 m ρ c)
theorem W2_v0 : W2 m ρ c (Proc.devRef .tc main_v0)
    = pad S200704x256 ![0, 0] ![704, 0] ![0, 0] (W1 m ρ c (Proc.devRef .tc main_arg0)) (sitofp (F := Ideal) .f32 (W1 m ρ c (Proc.devRef .tc main_c)))
        pads_S200000x256_S200704x256_07040_000 h_S_ := after_padx (W1 m ρ c)
theorem W3_v1 : W3 m ρ c (Proc.devRef .tc main_v1)
    = shapeCast S200000x1 (W2 m ρ c (Proc.devRef .tc main_arg1)) shapeCasts_S200000_S200000x1 := after_bcol (W2 m ρ c)
theorem W3_c0 : W3 m ρ c (Proc.devRef .tc main_c_0) = constantI S_ 32 4294967295#32 := after_cneg (W2 m ρ c)
theorem W4_v2 : W4 m ρ c (Proc.devRef .tc main_v2)
    = pad S200704x1 ![0, 0] ![704, 0] ![0, 0] (W3 m ρ c (Proc.devRef .tc main_v1)) (W3 m ρ c (Proc.devRef .tc main_c_0))
        pads_S200000x1_S200704x1_07040_000 h_S_ := after_padb (W3 m ρ c)

/-- The pooling region finds x padded with zero rows. -/
theorem V4_x : (V4 m ρ c main_v0 : S200704x256.Idx → EReal)
    = pad S200704x256 ![0, 0] ![704, 0] ![0, 0] (xarg m c) (sitofp (F := Ideal) .f32 (constantI S_ 32 0#32))
        pads_S200000x256_S200704x256_07040_000 h_S_ := by
  show W4 m ρ c (Proc.devRef .tc main_v0) = _
  rw [show W4 m ρ c (Proc.devRef .tc main_v0) = W2 m ρ c (Proc.devRef .tc main_v0) from
    (StableHlo.after_of_writes_sub hostOps0_3 _ hostOps0_3_writes (by decide)).trans
      (StableHlo.after_of_writes_sub hostOps0_2 _ hostOps0_2_writes (by decide))]
  rw [W2_v0, W1_of m ρ c main_arg0 (by decide), W1_c]

/-- The pooling region finds the batch column padded with rows of −1. -/
theorem V4_b : (V4 m ρ c main_v2 : S200704x1.Idx → BitVec 32)
    = pad S200704x1 ![0, 0] ![704, 0] ![0, 0] (shapeCast S200000x1 (barg m c) shapeCasts_S200000_S200000x1) (constantI S_ 32 4294967295#32)
        pads_S200000x1_S200704x1_07040_000 h_S_ := by
  show W4 m ρ c (Proc.devRef .tc main_v2) = _
  rw [W4_v2, W3_v1, W3_c0, W2_of m ρ c main_arg1 (by decide) (by decide)]

/-- Row r' of the padded x. -/
theorem V4_x_apply (r' : Fin 200704) (d : Fin 256) :
    V4 m ρ c main_v0 (ix2 r' d) = if h : r'.val < 200000 then xarg m c (ix2 ⟨r'.val, h⟩ d) else 0 := by
  rw [V4_x, padx_apply]
  split
  · rfl
  · exact padval_zero

/-- Row r' of the padded batch column. -/
theorem V4_b_apply (r' : Fin 200704) :
    V4 m ρ c main_v2 (ix2 r' (0 : Fin 1)) = if h : r'.val < 200000 then barg m c (ix1 ⟨r'.val, h⟩) else 0xFFFFFFFF#32 := by
  rw [V4_b, padb_apply]
  split
  · exact bcol_apply _ _
  · exact padval_neg

/-- The scaling region finds the same padded arrays: the pooling region only reads them and no host stretch
    after it writes them. -/
theorem V8_x : V8 m ρ c main_v0 = V4 m ρ c main_v0 :=
  (W8_of_W5 m ρ c main_v0 (by decide) (by decide) (by decide)).trans
    ((W5_arr m ρ c 0).trans (((dat0 (V4 m ρ) c).arrAt_in 0 rfl _).trans (A_eq0 (V4 m ρ) c 0)))
theorem V8_b : V8 m ρ c main_v2 = V4 m ρ c main_v2 :=
  (W8_of_W5 m ρ c main_v2 (by decide) (by decide) (by decide)).trans
    ((W5_arr m ρ c 1).trans (((dat0 (V4 m ρ) c).arrAt_in 1 rfl _).trans (A_eq0 (V4 m ρ) c 1)))

/-! ## What the pooling region leaves -/

/-- The tiles as sequences (anything past the grid). -/
def xtiles : ℕ → Vec Ideal S2048x256 .f32 := fun t => if h : t < cfg0.N then iblk0 (V4 m ρ) c 0 ⟨t, h⟩ else fun _ => 0
def btiles : ℕ → Vec Ideal S2048x1 .i32 := fun t => if h : t < cfg0.N then iblk0 (V4 m ρ) c 1 ⟨t, h⟩ else fun _ => 0

theorem xtiles_apply (t : ℕ) (ht : t < 98) (k : Fin 2048) (d : Fin 256) :
    xtiles m ρ c t (ix2 k d) = if h : 2048 * t + k.val < 200000 then xarg m c (ix2 ⟨2048 * t + k.val, h⟩ d) else 0 := by
  have hN : t < cfg0.N := by rw [show cfg0.N = 98 from N_0]; exact ht
  unfold xtiles
  rw [dif_pos hN, iblk0_0_apply, V4_x_apply]

theorem btiles_apply (t : ℕ) (ht : t < 98) (k : Fin 2048) :
    btiles m ρ c t (ix2 k (0 : Fin 1)) = if h : 2048 * t + k.val < 200000 then barg m c (ix1 ⟨2048 * t + k.val, h⟩) else 0xFFFFFFFF#32 := by
  have hN : t < cfg0.N := by rw [show cfg0.N = 98 from N_0]; exact ht
  unfold btiles
  rw [dif_pos hN, iblk0_1_apply, V4_b_apply]

/-- The accumulators after the last tile, as the fold over the tile sequences. -/
theorem acc_last : accAt0 (V4 m ρ) c 97 last_lt = accOf (xtiles m ρ c) (btiles m ρ c) 97 :=
  accAt0_eq_accOf (V4 m ρ) c _ _ (fun t h => by unfold xtiles; rw [dif_pos h]) (fun t h => by unfold btiles; rw [dif_pos h]) 97 last_lt

/-- The pooled sums the region leaves are the reference's scatter-added sums. -/
theorem V5_sums : (V5 m ρ c main_v3_0 : S1024x256.Idx → EReal)
    = Cert.ReferenceIdeal.Read.val_main_v2 (F := Ideal) (xarg m c) (barg m c) := by
  show W5 m ρ c (Proc.devRef .tc main_v3_0) = _
  rw [show W5 m ρ c (Proc.devRef .tc main_v3_0) = (dat0 (V4 m ρ) c).arrAt 2 cfg0.N from W5_arr m ρ c 2,
    pool_arr2 (V4 m ρ) c _ (after0_2 (V4 m ρ) c), acc_last]
  funext i
  obtain ⟨g, d, rfl⟩ : ∃ (g : Fin 1024) (d : Fin 256), i = ix2 g d := ⟨i 0, i 1, eq_ix2 i⟩
  exact pool_sums (xarg m c) (barg m c) _ _ (xtiles_apply m ρ c) (btiles_apply m ρ c) g d

/-- The pooled count row the region leaves, as a column, is the reference's scatter-added counts. -/
theorem V5_counts : (shapeCast S1024x1 (V5 m ρ c main_v3_1 : S1x1024.Idx → EReal) shapeCasts_S1x1024_S1024x1)
    = Cert.ReferenceIdeal.Read.val_main_v6 (F := Ideal) (barg m c) := by
  funext i
  obtain ⟨g, q, rfl⟩ : ∃ (g : Fin 1024) (q : Fin 1), i = ix2 g q := ⟨i 0, i 1, eq_ix2 i⟩
  obtain rfl : q = 0 := Subsingleton.elim _ _
  rw [cntcol_apply]
  show W5 m ρ c (Proc.devRef .tc main_v3_1) _ = _
  rw [show W5 m ρ c (Proc.devRef .tc main_v3_1) = (dat0 (V4 m ρ) c).arrAt 3 cfg0.N from W5_arr m ρ c 3,
    pool_arr3 (V4 m ρ) c _ (after0_3 (V4 m ρ) c), acc_last]
  exact pool_counts (xarg m c) (barg m c) _ _ (xtiles_apply m ρ c) (btiles_apply m ρ c) g

/-! ## The gate row the scaling region finds -/

/-- The gate as the kernel's host operations compute it, over the pooling region's outputs. -/
theorem V8_gate : (V8 m ρ c main_v28 : S1x1024.Idx → EReal)
    = shapeCast S1x1024
        (gate (F := Ideal) (V5 m ρ c main_v3_0) (shapeCast S1024x1 (V5 m ρ c main_v3_1) shapeCasts_S1x1024_S1024x1)
          (m ((c : Thread nD τ).loc main_arg2)) (m ((c : Thread nD τ).loc main_arg3)) (m ((c : Thread nD τ).loc main_arg4))
          (m ((c : Thread nD τ).loc main_arg5)) (m ((c : Thread nD τ).loc main_arg6)))
        shapeCasts_S1024x1_S1x1024 := by
  show StableHlo.after hostOps1_2 (W7 m ρ c) (Proc.devRef .tc main_v28) = _
  rw [after_out]
  rw [show W7 m ρ c (Proc.devRef .tc main_v17) = StableHlo.after hostOps1_1 (W6 m ρ c) (Proc.devRef .tc main_v17) from rfl, after_act]
  rw [show W6 m ρ c (Proc.devRef .tc main_v14) = StableHlo.after hostOps1 (W5 m ρ c) (Proc.devRef .tc main_v14) from rfl, after_mask]
  rw [show W6 m ρ c (Proc.devRef .tc main_v12) = StableHlo.after hostOps1 (W5 m ρ c) (Proc.devRef .tc main_v12) from rfl, after_hidden]
  rw [show W6 m ρ c (Proc.devRef .tc main_v16) = StableHlo.after hostOps1 (W5 m ρ c) (Proc.devRef .tc main_v16) from rfl, after_scaled]
  rw [W7_of_W5 m ρ c main_arg5 (by decide) (by decide), W7_of_W5 m ρ c main_arg6 (by decide) (by decide),
    W5_of m ρ c main_arg2 (by decide) (by decide) (by decide) (by decide) (by decide),
    W5_of m ρ c main_arg3 (by decide) (by decide) (by decide) (by decide) (by decide),
    W5_of m ρ c main_arg4 (by decide) (by decide) (by decide) (by decide) (by decide),
    W5_of m ρ c main_arg5 (by decide) (by decide) (by decide) (by decide) (by decide),
    W5_of m ρ c main_arg6 (by decide) (by decide) (by decide) (by decide) (by decide)]
  rfl

end Cert.KernelIdeal.Hand

end
-- ==== Proof.ScaleArr.lean ====
/-
  Region 1 (the scaling kernel), from blocks to arrays.

  The grid has 98 points. Point `t` reads rows `2048 t … 2048 t + 2047` of the row array and of the array
  of graph ids, the whole gate row, and writes back rows `2048 t … 2048 t + 2047` of the output array:
  every printed index map is `t ↦ (t, 0)` or the constant `(0, 0)` (`idx1`, decided once over the grid), and
  an element of a block sits in its array, on each axis, at block index × block size + its own coordinate.

  * `iblk1_0_apply`, `iblk1_1_apply`, `iblk1_2_apply`: each input window's block at a point, element by
    element, as the region-entry array read at those rows.
  * `scaleG`: ONE function of the whole output array's index — at row `r` it is what the body leaves at
    row `r % 2048` of its output buffer at point `r / 2048`. What point `t` writes back is the restriction
    of `scaleG` to its block (`flushed1_3_eq`): a row `2048 t + k` with `k < 2048` has quotient `t` and
    remainder `k`.
  * the 98 blocks of 2048 rows cover the 200704 rows (`cover1_3_arr`): row `r` lies in the block of point
    `r / 2048`. So the output array after the region IS `scaleG` (`scale_arrAt`, `scale_arr`).
-/
import proofs.«402786_j54597624267060_1_alg».proof.Proof.Scale
import Idealize.ShloMosaic.Lib.Pipeline.Value
import Idealize.ShloMosaic.Lib.ValueIdx
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

/-! ## The grid's arithmetic -/

/-- The printed index maps, decided over the 98 points: the row tile, the id tile and the output tile move
    one block of rows per point and stay at column block 0; the gate row's block never moves. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `k` of point `t`'s block is a row of the array: 98 blocks of 2048 rows are 200704 rows. -/
theorem row_lt (t : Fin cfg1.N) (k : Fin 2048) : 2048 * t.val + k.val < 200704 := by
  have h1 : t.val < 98 := lt_of_lt_of_eq t.isLt N_1
  have h2 := k.isLt
  omega

/-- The point whose block holds row `r` of the array. -/
theorem tile_of_row_lt (r : Nat) (h : r < 200704) : r / 2048 < cfg1.N := by
  show r / 2048 < grid1.N
  rw [N_1]; omega

section
variable (V : (c : Dev nD) → (b : Ref sig .tc) → Buf (Elt F) ((c : Thread nD τ).loc b))

/-! ## Each input block as rows of its array -/

/-- The row tile at point `t`: rows `2048 t + k` of the row array, all 256 columns. -/
theorem iblk1_0_apply (c : Dev nD) (t : Fin cfg1.N) (k : Fin 2048) (d : Fin 256) :
    iblk1 V c 0 t (ix2 k d) = V c main_v0 (ix2 ⟨2048 * t.val + k.val, row_lt t k⟩ d) := by
  obtain ⟨e0, e1, -⟩ := idx1 t
  unfold iblk1
  rw [View.read_apply]
  show V c main_v0 _ = V c main_v0 _
  congr 1
  funext a
  apply Fin.ext
  match a with
  | ⟨0, _⟩ => show win1_0.index t (0 : Fin 2) * 2048 + 1 * k.val = 2048 * t.val + k.val; omega
  | ⟨1, _⟩ => show win1_0.index t (1 : Fin 2) * 256 + 1 * d.val = d.val; omega

/-- The id tile at point `t`: rows `2048 t + k` of the one-column array of graph ids. -/
theorem iblk1_1_apply (c : Dev nD) (t : Fin cfg1.N) (k : Fin 2048) :
    iblk1 V c 1 t (ix2 k (0 : Fin 1)) = V c main_v2 (ix2 ⟨2048 * t.val + k.val, row_lt t k⟩ (0 : Fin 1)) := by
  obtain ⟨-, -, e0, e1, -⟩ := idx1 t
  unfold iblk1
  rw [View.read_apply]
  show V c main_v2 _ = V c main_v2 _
  congr 1
  funext a
  apply Fin.ext
  match a with
  | ⟨0, _⟩ => show win1_1.index t (0 : Fin 2) * 2048 + 1 * k.val = 2048 * t.val + k.val; omega
  | ⟨1, _⟩ => show win1_1.index t (1 : Fin 2) * 1 + 1 * (0 : Fin 1).val = (0 : Fin 1).val; omega

/-- The gate row at every point: the whole one-row array. -/
theorem iblk1_2_apply (c : Dev nD) (t : Fin cfg1.N) (g : Fin 1024) :
    iblk1 V c 2 t (ix2 (0 : Fin 1) g) = V c main_v28 (ix2 (0 : Fin 1) g) := by
  obtain ⟨-, -, -, -, e0, e1, -⟩ := idx1 t
  unfold iblk1
  rw [View.read_apply]
  show V c main_v28 _ = V c main_v28 _
  congr 1
  funext a
  apply Fin.ext
  match a with
  | ⟨0, _⟩ => show win1_2.index t (0 : Fin 2) * 1 + 1 * (0 : Fin 1).val = (0 : Fin 1).val; omega
  | ⟨1, _⟩ => show win1_2.index t (1 : Fin 2) * 1024 + 1 * g.val = g.val; omega

/-! ## The output array as one function of its index -/

/-- What the body leaves in its output buffer at point `p`, at index `x` of the buffer. -/
def scaleRow (c : Dev nD) (p : Fin cfg1.N) (x : S2048x256.Idx) : Elt F .f32 :=
  out1_3 (iblk1 V c 0 p) (iblk1 V c 1 p) (iblk1 V c 2 p) x

/-- The whole output array: row `r` is row `r % 2048` of what the body leaves at point `r / 2048`. -/
def scaleG (c : Dev nD) : S200704x256.Idx → Elt F .f32 := fun i =>
  scaleRow V c ⟨(i 0).val / 2048, tile_of_row_lt _ (idx2_lt0 i)⟩
    (ix2 ⟨(i 0).val % 2048, Nat.mod_lt _ (by decide)⟩ ⟨(i 1).val, idx2_lt1 i⟩)

/-- `scaleG` at the array index that is row `j 0`, column `j 1` of point `t`'s block. -/
theorem scaleG_at (c : Dev nD) (t : Fin cfg1.N) (i : S200704x256.Idx) (j : S2048x256.Idx)
    (h0 : (i 0).val = 2048 * t.val + (j 0).val) (h1 : (i 1).val = (j 1).val) :
    scaleG V c i = scaleRow V c t j := by
  have hj0 : (j 0).val < 2048 := idx2_lt0 j
  unfold scaleG
  congr 1
  · apply Fin.ext
    show (i 0).val / 2048 = t.val
    omega
  · funext a
    apply Fin.ext
    match a with
    | ⟨0, _⟩ => show (i 0).val % 2048 = (j 0).val; omega
    | ⟨1, _⟩ => show (i 1).val = (j 1).val; exact h1

/-- The output window is never cut and its view reads an array at the embedded index: so a buffer `X` that
    agrees, index by index, with an array function `G` at the block's embedded indices IS, written back,
    the block of `G`. Stated over arbitrary `X` and `G`. -/
theorem blk1_3_read_eq (t : Fin cfg1.N) (X : S2048x256.Idx → Elt F .f32) (G : S200704x256.Idx → Elt F .f32)
    (h : ∀ j : S2048x256.Idx, X j = G (((cfg1.win 3).blk t).view.emb j)) :
    (cfg1.win 3).cut (grid1.coords t) X = ((cfg1.win 3).blk t).view.read (Elt F) G :=
  funext fun j => h j

theorem flushed1_3_eq (c : Dev nD) (t : Fin cfg1.N) :
    (dat1 V c).flushed 3 t = ((cfg1.win 3).blk t).view.read (Elt F) (scaleG V c) := by
  show (cfg1.win 3).cut (grid1.coords t) ((dat1 V c).after 3 t) = _
  rw [after1_3]
  obtain ⟨-, -, -, -, -, -, e0, e1⟩ := idx1 t
  refine blk1_3_read_eq t _ _ fun j => ?_
  refine (scaleG_at V c t _ j ?_ ?_).symm
  · show win1_3.index t (0 : Fin 2) * 2048 + 1 * (j 0).val = 2048 * t.val + (j 0).val; omega
  · show win1_3.index t (1 : Fin 2) * 256 + 1 * (j 1).val = (j 1).val; omega

/-- An index of the output array is in point `t`'s block iff each coordinate is in the block's range on its axis. -/
theorem mem_blk1_3 (t : Fin cfg1.N) (i : S200704x256.Idx) :
    i ∈ ((cfg1.win 3).blk t).view.set ↔ ∀ a : Fin 2, win1_3.index t a * S2048x256.size a ≤ (i a).val ∧ (i a).val < win1_3.index t a * S2048x256.size a + S2048x256.size a := by
  show i ∈ ((View.whole main_v29).slice (win1_3.rect t)).set ↔ _
  rw [View.set_slice_whole, Rect.mem_set_unit]
  exact Iff.rfl

/-- Every index of the output array is in the block of a point that writes back: row `r` in that of
    point `r / 2048`. -/
theorem cover1_3_arr (i : S200704x256.Idx) :
    ∃ t : Fin cfg1.N, (cfg1.win 3).flush t = true ∧ i ∈ ((cfg1.win 3).blk t).view.set := by
  have hi0 : (i 0).val < 200704 := idx2_lt0 i
  have hi1 : (i 1).val < 256 := idx2_lt1 i
  refine ⟨⟨(i 0).val / 2048, tile_of_row_lt _ hi0⟩, flush1_3 _, ?_⟩
  rw [mem_blk1_3]
  obtain ⟨-, -, -, -, -, -, e0, e1⟩ := idx1 ⟨(i 0).val / 2048, tile_of_row_lt _ hi0⟩
  intro a
  match a with
  | ⟨0, _⟩ =>
    show win1_3.index ⟨(i 0).val / 2048, tile_of_row_lt _ hi0⟩ (0 : Fin 2) * 2048 ≤ (i 0).val
      ∧ (i 0).val < win1_3.index ⟨(i 0).val / 2048, tile_of_row_lt _ hi0⟩ (0 : Fin 2) * 2048 + 2048
    rw [e0]; show (i 0).val / 2048 * 2048 ≤ (i 0).val ∧ (i 0).val < (i 0).val / 2048 * 2048 + 2048; omega
  | ⟨1, _⟩ =>
    show win1_3.index ⟨(i 0).val / 2048, tile_of_row_lt _ hi0⟩ (1 : Fin 2) * 256 ≤ (i 1).val
      ∧ (i 1).val < win1_3.index ⟨(i 0).val / 2048, tile_of_row_lt _ hi0⟩ (1 : Fin 2) * 256 + 256
    rw [e1]; omega

/-- THE OUTPUT ARRAY after the region is `scaleG`. -/
theorem scale_arrAt (c : Dev nD) : (dat1 V c).arrAt 3 cfg1.N = scaleG V c :=
  (dat1 V c).arrAt_eq_of_cover 3 (scaleG V c) (fun t _ => flushed1_3_eq V c t) (cover1_3_arr)

/-- Element by element: row `r'` of the output array is row `r' % 2048` of the body's output at point
    `r' / 2048`, a function of the three input blocks there. -/
theorem scale_arr (c : Dev nD) (r' : Fin 200704) (d : Fin 256) :
    (dat1 V c).arrAt 3 cfg1.N (ix2 r' d)
      = out1_3 (iblk1 V c 0 ⟨r'.val / 2048, tile_of_row_lt _ r'.isLt⟩) (iblk1 V c 1 ⟨r'.val / 2048, tile_of_row_lt _ r'.isLt⟩)
          (iblk1 V c 2 ⟨r'.val / 2048, tile_of_row_lt _ r'.isLt⟩) (ix2 ⟨r'.val % 2048, Nat.mod_lt _ (by decide)⟩ d) := by
  rw [scale_arrAt]
  rfl

end

end Cert.KernelIdeal.Hand

end
-- ==== Proof.ScaleValue.lean ====
/-
  The scaling kernel's one store, read at an index, at the exact reals.

  The store holds  x[k, d] · s[k]  where the score of row k is the masked sum
      s[k] = Σ_g onehot(k, g) · gate[0, g],   onehot(k, g) = 1 if batch[k] is the word of g, else 0.
  For a row whose batch word, read as a natural number, is below 1024, exactly one g matches — the
  number itself: the 32-bit word of a number is that word, and two numbers below 1024 with the
  same 32-bit word are equal — so the sum is the one term  1 · gate[0, batch k] = gate[0, batch k].
  Only  1 · y = y  and  0 · y = 0  are used of the extended reals, which hold for every y.
-/
import proofs.«402786_j54597624267060_1_alg».proof.Proof.ValueDefs
import proofs.«402786_j54597624267060_1_alg».proof.Proof.ScaleDefs
import Idealize.ShloMosaic.Lib.ValueIdx
import Idealize.ShloMosaic.Lib.Pipeline.Value
import Idealize.ShloMosaic.PureOps.Ideal.Laws
import Idealize.ShloMosaic.Lib.StableHlo.Predicate

noncomputable section

namespace Cert.KernelIdeal.Hand

open Idealize.ShloMosaic Idealize.ShloMosaic.TcCoe Idealize.SL.Sem Idealize.ShloMosaic.ValueIdx
open Cert.KernelIdeal Cert.KernelIdeal.Gen

/-- The zero offsets of a whole-buffer rectangle, however spelt. -/
theorem offsets_zero : (![0, 0] : Fin 2 → Nat) = fun _ => 0 := funext fun a => by fin_cases a <;> rfl

/-- The store is one whole-buffer piece over whole-buffer loads: the buffer holds the payload of the blocks. -/
theorem out1_3_eq_pay (x0 : Vec Ideal S2048x256 .f32) (x1 : Vec Ideal S2048x1 .i32) (x2 : Vec Ideal S1x1024 .f32) :
    out1_3 x0 x1 x2 = k1_pay1 x0 x1 x2 := by
  unfold out1_3
  rw [View.canon_unit_zero offsets_zero]
  simp only [View.ld_unit_zero (S := S2048x256) offsets_zero, View.ld_unit_zero (S := S2048x1) offsets_zero,
    View.ld_unit_zero (S := S1x1024) offsets_zero]

/-- A set bit, widened and read as a signed number, is 1. -/
theorem sitofp_bit_one : (FloatOps.sitofp (F := Ideal) .f32 ((1#1 : BitVec 1).setWidth 32)) = 1 := by
  show (((((1#1 : BitVec 1).setWidth 32).toInt : ℤ) : ℝ) : EReal) = 1
  have e : ((1#1 : BitVec 1).setWidth 32).toInt = 1 := by decide
  rw [e]; simp

/-- A clear bit, widened and read as a signed number, is 0. -/
theorem sitofp_bit_zero : (FloatOps.sitofp (F := Ideal) .f32 ((0#1 : BitVec 1).setWidth 32)) = 0 := by
  show (((((0#1 : BitVec 1).setWidth 32).toInt : ℤ) : ℝ) : EReal) = 0
  have e : ((0#1 : BitVec 1).setWidth 32).toInt = 0 := by decide
  rw [e]; simp

/-- The one-hot entry: 1 where the row's batch word is the word of the column's number, else 0. -/
theorem onehot_apply (x1 : Vec Ideal S2048x1 .i32) (k : Fin 2048) (g : Fin 1024) :
    (sitofp .f32 (extui 32 (cmpi .eq
        (broadcastTo S2048x1024 (shapeCast S2048x1 x1 shapeCasts_S2048x1_S2048x1) broadcasts_S2048x1_S2048x1024)
        (iota .tc S2048x1024 32 [1] iota_S2048x1024_d1_w32)) natLt_1_32) : FVec Ideal S2048x1024 .f32) (ix2 k g)
      = if x1 (ix2 k (0 : Fin 1)) = BitVec.ofNat 32 g.val then 1 else 0 := by
  rw [sitofp_apply, extui_apply]
  have hb : broadcastTo S2048x1024 (shapeCast S2048x1 x1 shapeCasts_S2048x1_S2048x1) broadcasts_S2048x1_S2048x1024 (ix2 k g)
      = x1 (ix2 k (0 : Fin 1)) := by
    rw [shapeCast_self]
    refine broadcastTo_apply x1 broadcasts_S2048x1_S2048x1024 (ix2 k g) (ix2 k (0 : Fin 1)) ?_
    intro a
    match a with
    | ⟨0, _⟩ => rfl
    | ⟨1, _⟩ => rfl
  have hi : iota .tc S2048x1024 32 [1] iota_S2048x1024_d1_w32 (ix2 k g) = BitVec.ofNat 32 g.val :=
    iota_single_apply .tc S2048x1024 32 1 iota_S2048x1024_d1_w32 (ix2 k g)
  show FloatOps.sitofp (F := Ideal) .f32 ((IntOp.cmpi .eq
      (broadcastTo S2048x1024 (shapeCast S2048x1 x1 shapeCasts_S2048x1_S2048x1) broadcasts_S2048x1_S2048x1024 (ix2 k g))
      (iota .tc S2048x1024 32 [1] iota_S2048x1024_d1_w32 (ix2 k g))).setWidth 32) = _
  rw [hb, hi]
  by_cases h : x1 (ix2 k (0 : Fin 1)) = BitVec.ofNat 32 g.val
  · rw [if_pos h, StableHlo.Predicate.cmpi_eq_iff.mpr h]; exact sitofp_bit_one
  · rw [if_neg h, eq_zero_of_ne_one (fun e => h (StableHlo.Predicate.cmpi_eq_iff.mp e))]; exact sitofp_bit_zero

/-- The score of a row whose batch word is in range: the masked sum is the gate of the row's graph. -/
theorem score_apply (x1 : Vec Ideal S2048x1 .i32) (x2 : Vec Ideal S1x1024 .f32)
    (k : Fin 2048) (hb : (x1 (ix2 k (0 : Fin 1))).toNat < 1024) :
    multiReduction (F := Ideal) .add [1] S2048
        (mulf (sitofp .f32 (extui 32 (cmpi .eq
            (broadcastTo S2048x1024 (shapeCast S2048x1 x1 shapeCasts_S2048x1_S2048x1) broadcasts_S2048x1_S2048x1024)
            (iota .tc S2048x1024 32 [1] iota_S2048x1024_d1_w32)) natLt_1_32))
          (broadcastTo S2048x1024 (shapeCast S1x1024 x2 shapeCasts_S1x1024_S1x1024) broadcasts_S1x1024_S2048x1024))
        0x00000000#32 reduces_S2048x1024_S2048 (.inl rfl) rfl (ix1 k)
      = x2 (ix2 (0 : Fin 1) ⟨(x1 (ix2 k (0 : Fin 1))).toNat, hb⟩) := by
  refine (Ideal.multiReduction_add_single _ 0x00000000#32 reduces_S2048x1024_S2048 (.inl rfl) rfl (ix1 k)).trans ?_
  show ∑ g : Fin 1024, _ = _
  have hl : ∀ g : Fin 1024, reduces_S2048x1024_S2048.lift (ix1 k) g = ix2 k g := fun g =>
    funext fun c => Fin.ext (match c with | ⟨0, _⟩ => rfl | ⟨1, _⟩ => rfl)
  have hg : ∀ g : Fin 1024,
      broadcastTo S2048x1024 (shapeCast S1x1024 x2 shapeCasts_S1x1024_S1x1024) broadcasts_S1x1024_S2048x1024 (ix2 k g)
        = x2 (ix2 (0 : Fin 1) g) := fun g => by
    rw [shapeCast_self]
    refine broadcastTo_apply x2 broadcasts_S1x1024_S2048x1024 (ix2 k g) (ix2 (0 : Fin 1) g) ?_
    intro a
    match a with
    | ⟨0, _⟩ => rfl
    | ⟨1, _⟩ => rfl
  have hword : x1 (ix2 k (0 : Fin 1)) = BitVec.ofNat 32 (x1 (ix2 k (0 : Fin 1))).toNat := by
    apply BitVec.eq_of_toNat_eq
    rw [BitVec.toNat_ofNat]
    exact (Nat.mod_eq_of_lt (x1 (ix2 k (0 : Fin 1))).isLt).symm
  rw [Finset.sum_eq_single (⟨(x1 (ix2 k (0 : Fin 1))).toNat, hb⟩ : Fin 1024)]
  · rw [hl, mulf_apply, onehot_apply, hg, if_pos hword, one_mul]
  · intro g _ hne
    rw [hl, mulf_apply, onehot_apply, hg, if_neg, zero_mul]
    intro e
    apply hne
    apply Fin.ext
    have e' := congrArg BitVec.toNat e
    rw [BitVec.toNat_ofNat, Nat.mod_eq_of_lt (by have := g.isLt; omega)] at e'
    exact e'.symm
  · intro h; exact absurd (Finset.mem_univ _) h

/-- The scaling kernel's store at (k, d), for a row whose batch word is in range:
    the row's entry times the gate of the row's graph. -/
theorem scale_value (x0 : Vec Ideal S2048x256 .f32) (x1 : Vec Ideal S2048x1 .i32) (x2 : Vec Ideal S1x1024 .f32)
    (k : Fin 2048) (d : Fin 256) (hb : (x1 (ix2 k (0 : Fin 1))).toNat < 1024) :
    out1_3 x0 x1 x2 (ix2 k d) = x0 (ix2 k d) * x2 (ix2 (0 : Fin 1) ⟨(x1 (ix2 k (0 : Fin 1))).toNat, hb⟩) := by
  rw [out1_3_eq_pay]
  unfold k1_pay1
  dsimp only
  rw [mulf_apply, shapeCast_self]
  refine congrArg (x0 (ix2 k d) * ·) ?_
  refine (broadcastTo_apply _ broadcasts_S2048x1_S2048x256 (ix2 k d) (ix2 k (0 : Fin 1)) ?_).trans ?_
  · intro a
    match a with
    | ⟨0, _⟩ => rfl
    | ⟨1, _⟩ => rfl
  refine (shapeCast_apply _ shapeCasts_S2048_S2048x1 (ix2 k (0 : Fin 1)) (ix1 k) ?_).trans ?_
  · rw [Shape.rowMajor_val_one, Shape.rowMajor_val_two]
    show k.val = k.val * 1 + 0
    omega
  exact score_apply x1 x2 k hb

end Cert.KernelIdeal.Hand

end
-- ==== Proof.RefValue.lean ====
/-
  Two facts about the reference program at the exact-real instance.

  * ref_gate: the reference's per-graph gate (its operations 7 to 29) is the function 'gate' applied to the
    reference's own pooled sums and counts (its two scatter-adds) and the five weight arguments.  Operation for
    operation the reference applies the chain  mean = sums / max(counts, 1);  h = mean · W1 + b1;
    PReLU(h);  1 / (1 + exp(−(PReLU(h) · W2 + b2)))  that 'gate' is defined as; the two programs' dimension
    records are structures of the same literal fields, so the two sides are one term.

  * ref_value: at row r and column d, with the row's graph number batch r a word whose value is below 1024, the
    reference's result is  x[r, d] · gate[batch r, 0].  The result is x times the broadcast of a gathered column;
    the gather reads the gate column at the start index  (batch r if batch r ≥ 0 else batch r + 1024)  clamped into
    [0, 1023].  A word whose value is below 1024 is non-negative as a signed number, so the start index is batch r
    itself, and it is already inside the clamp's range.
-/
import proofs.«402786_j54597624267060_1_alg».proof.Proof.ValueDefs
import proofs.«402786_j54597624267060_1_alg».proof.Proof.Gen.ReferenceIdeal.Read
import Idealize.ShloMosaic.Lib.ValueIdx
import Idealize.ShloMosaic.Lib.Pipeline.Value
import Idealize.ShloMosaic.Lib.StableHlo.Predicate
import Idealize.ShloMosaic.PureOps.Ideal.Laws

noncomputable section

namespace Cert.KernelIdeal.Hand

open Idealize.ShloMosaic Idealize.ShloMosaic.TcCoe Idealize.SL.Sem Idealize.ShloMosaic.ValueIdx
open Cert.KernelIdeal Cert.KernelIdeal.Gen

open Cert.ReferenceIdeal.Read in
/-- The reference's gate is 'gate' of the reference's sums and counts. -/
theorem ref_gate (x0 : FVec Ideal S200000x256 .f32) (x1 : IVec S200000 32) (x2 : FVec Ideal S256x128 .f32)
    (x3 : FVec Ideal S128 .f32) (x4 : FVec Ideal S_ .f32) (x5 : FVec Ideal S128x1 .f32) (x6 : FVec Ideal S1 .f32) :
    Cert.ReferenceIdeal.Read.val_main_v29 (F := Ideal) x0 x1 x2 x3 x4 x5 x6
      = gate (F := Ideal) (Cert.ReferenceIdeal.Read.val_main_v2 (F := Ideal) x0 x1)
          (Cert.ReferenceIdeal.Read.val_main_v6 (F := Ideal) x1) x2 x3 x4 x5 x6 := by
  -- open the reference's operations 7 to 29 (never the two scatter-adds), then name the scatter-adds s and cnt
  simp only [val_main_v29, val_main_v28, val_main_cst_5, val_main_v27, val_main_v26, val_main_cst_4, val_main_v25,
    val_main_v24, val_main_v23, val_main_v22, val_main_v21, val_main_v20, val_main_v19, val_main_v18, val_main_v17,
    val_main_v16, val_main_v15, val_main_cst_3, val_main_v14, val_main_v13, val_main_v12, val_main_v11, val_main_v10,
    val_main_v9, val_main_v8, val_main_v7, val_main_cst_2]
  generalize val_main_v2 (F := Ideal) x0 x1 = s
  generalize val_main_v6 (F := Ideal) x1 = cnt
  -- both sides are now the same chain over records with the same literal fields
  unfold gate gateHidden
  rfl

/-! ### The gather of the gate column, read at a row

The reference's gather takes the gate column [1024, 1] and the index column [200000, 1]; its one collapsed operand
axis 0 is the one the start index names, its one offset axis 1 has extent one.  Result element (r, 0) is therefore
the gate column at row  clamp(start index of row r, 0, 1023)  and column 0. -/

local notation "dG" => Cert.ReferenceIdeal.gather_S1024x1_S200000x1_S200000x1_1_0_n_n_0_1_11

/-- The start-indices position that result row r reads its one start-index component from: (r, 0). -/
theorem gather_siIdx (r : Fin 200000) :
    GatherDims.siIdx dG (ix2 r (0 : Fin 1)) ⟨List.idxOf (0 : Fin 2) (GatherDims.startIndexMap dG),
        List.idxOf_lt_length_iff.2 (List.mem_singleton.mpr rfl)⟩ = ix2 r (0 : Fin 1) := by
  funext b
  refine Fin.ext ?_
  match b with
  | ⟨0, _⟩ => rfl
  | ⟨1, _⟩ => rfl

/-- On the table's axis 0 the operand index is the start index read signed and clamped into [0, 1023]:
    that axis is collapsed (no offset coordinate) and there are no batching axes. -/
theorem gather_axis0 (idx : IVec Cert.ReferenceIdeal.S200000x1 32) (r : Fin 200000) :
    (GatherDims.operandIdx dG (ix2 r (0 : Fin 1)) idx 0).val
      = min (idx (ix2 r (0 : Fin 1))).toInt.toNat (1024 - 1) := by
  show GatherDims.start dG (ix2 r (0 : Fin 1)) idx 0 + GatherDims.batchCoord dG (ix2 r (0 : Fin 1)) 0
      + GatherDims.offCoord dG (ix2 r (0 : Fin 1)) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ GatherDims.startIndexMap dG from List.mem_singleton.mpr rfl), gather_siIdx r]
  rfl

/-! ### The start index of a row whose graph number is below 1024 -/

/-- A word whose value is below 1024 is not negative as a signed number, so the reference's wrap
    (add 1024 where negative) leaves it as it is. -/
theorem wrap_small (w : BitVec 32) (h : w.toNat < 1024) :
    Scalar.select (IntOp.cmpi .slt w 0#32) (IntOp.addi w 1024#32) w = w := by
  have hlt : ¬ (IntOp.cmpi .slt w 0#32 = 1#1) := by
    rw [StableHlo.Predicate.slt_iff_toNat (by omega) (by decide)]
    exact Nat.not_lt_zero _
  unfold Scalar.select
  exact if_neg hlt

/-- Such a word, read signed and clamped into [0, 1023], is its own value. -/
theorem clamp_small (w : BitVec 32) (h : w.toNat < 1024) : min w.toInt.toNat (1024 - 1) = w.toNat := by
  rw [StableHlo.Predicate.toInt_eq_toNat_of_lt (by omega), Int.toNat_natCast]
  exact Nat.min_eq_left (by omega)

open Cert.ReferenceIdeal.Read in
/-- The reference's index column at row r: the wrapped graph number of row r. -/
theorem ref_index_col (x1 : IVec S200000 32) (r : Fin 200000) (hb : (x1 (ix1 r)).toNat < 1024) :
    val_main_v35 (F := Ideal) x1 (ix2 r (0 : Fin 1)) = x1 (ix1 r) := by
  rw [val_main_v35_apply, val_main_v34_apply, val_main_v31_apply, val_main_v33_apply, val_main_v30_apply,
    val_main_v32_apply, val_main_c_apply, val_main_c_6_apply]
  have e : idx_main_v35 (ix2 r (0 : Fin 1)) = ix1 r := by
    funext a; match a with | ⟨0, _⟩ => rfl
  rw [e]
  exact wrap_small _ hb

open Cert.ReferenceIdeal.Read in
/-- The reference's gathered column at row r is the gate of row r's graph. -/
theorem ref_gather_row (x0 : FVec Ideal S200000x256 .f32) (x1 : IVec S200000 32) (x2 : FVec Ideal S256x128 .f32)
    (x3 : FVec Ideal S128 .f32) (x4 : FVec Ideal S_ .f32) (x5 : FVec Ideal S128x1 .f32) (x6 : FVec Ideal S1 .f32)
    (r : Fin 200000) (hb : (x1 (ix1 r)).toNat < 1024) :
    val_main_v36 (F := Ideal) x0 x1 x2 x3 x4 x5 x6 (ix2 r (0 : Fin 1))
      = val_main_v29 (F := Ideal) x0 x1 x2 x3 x4 x5 x6 (ix2 ⟨(x1 (ix1 r)).toNat, hb⟩ (0 : Fin 1)) := by
  unfold val_main_v36
  generalize val_main_v29 (F := Ideal) x0 x1 x2 x3 x4 x5 x6 = g
  unfold Host.gather
  refine congrArg g ?_
  funext a
  match a with
  | ⟨0, _⟩ =>
    refine Fin.ext ?_
    refine (gather_axis0 _ r).trans ?_
    rw [ref_index_col x1 r hb]
    exact clamp_small _ hb
  | ⟨1, _⟩ => exact Subsingleton.elim (α := Fin 1) _ _

open Cert.ReferenceIdeal.Read in
/-- The reference's result at (r, d), for a row whose graph number is below 1024. -/
theorem ref_value (x0 : FVec Ideal S200000x256 .f32) (x1 : IVec S200000 32) (x2 : FVec Ideal S256x128 .f32)
    (x3 : FVec Ideal S128 .f32) (x4 : FVec Ideal S_ .f32) (x5 : FVec Ideal S128x1 .f32) (x6 : FVec Ideal S1 .f32)
    (r : Fin 200000) (d : Fin 256) (hb : (x1 (ix1 r)).toNat < 1024) :
    Cert.ReferenceIdeal.Read.val_main_v38 (F := Ideal) x0 x1 x2 x3 x4 x5 x6 (ix2 r d)
      = x0 (ix2 r d) * Cert.ReferenceIdeal.Read.val_main_v29 (F := Ideal) x0 x1 x2 x3 x4 x5 x6
          (ix2 ⟨(x1 (ix1 r)).toNat, hb⟩ (0 : Fin 1)) := by
  have e : idx_main_v37 (ix2 r d) = ix2 r (0 : Fin 1) := by
    funext a; match a with | ⟨0, _⟩ => rfl | ⟨1, _⟩ => rfl
  rw [val_main_v38_apply, val_main_v37_apply, Ideal.mulf_def, e, ref_gather_row x0 x1 x2 x3 x4 x5 x6 r hb]

end Cert.KernelIdeal.Hand

end
-- ==== Proof.KernelValue.lean ====
/-
  At the exact-real instance, under the range of the batch words (0 ≤ batch r < 1024 for every row), the
  program's result is the reference's, index by index. Row r of the result is row r of the scaling region's
  output array, that is row r mod 2048 of the block of tile r / 2048: x[r, d] times the row's score
  Σ_g [batch r = g] · gate[g], which for an in-range word is gate[batch r]. The reference's row is x[r, d] times
  the gathered gate[batch r]. Both gates are the one gate function of the same pooled sums and counts.
-/
import proofs.«402786_j54597624267060_1_alg».proof.Proof.EntryValue
import proofs.«402786_j54597624267060_1_alg».proof.Proof.ScaleArr
import proofs.«402786_j54597624267060_1_alg».proof.Proof.ScaleValue
import proofs.«402786_j54597624267060_1_alg».proof.Proof.RefValue

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-- The gate the kernel's host operations compute is the reference's gate stage: one function of the same sums
    and counts. -/
theorem gate_eq :
    gate (F := Ideal) (V5 m ρ c main_v3_0) (shapeCast S1024x1 (V5 m ρ c main_v3_1) shapeCasts_S1x1024_S1024x1)
        (m ((c : Thread nD τ).loc main_arg2)) (m ((c : Thread nD τ).loc main_arg3)) (m ((c : Thread nD τ).loc main_arg4))
        (m ((c : Thread nD τ).loc main_arg5)) (m ((c : Thread nD τ).loc main_arg6))
      = Cert.ReferenceIdeal.Read.val_main_v29 (F := Ideal) (xarg m c) (barg m c)
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [ref_gate, ← V5_sums m ρ c, ← V5_counts m ρ c]

/-- A row of the result splits into its tile and its row inside the tile. -/
theorem row_split (r : Fin 200000) : 2048 * (r.val / 2048) + r.val % 2048 = r.val := Nat.div_add_mod r.val 2048

/-- A function of a word read at the word's value does not care how the word is spelt. -/
theorem at_word {α : Type} (G : S1024x1.Idx → α) (w w' : BitVec 32) (e : w = w') (h : w.toNat < 1024) (h' : w'.toNat < 1024) :
    G (ix2 ⟨w.toNat, h⟩ (0 : Fin 1)) = G (ix2 ⟨w'.toNat, h'⟩ (0 : Fin 1)) := by
  subst e; rfl

/-- THE VALUE. Where every batch word is a graph id, the program's result array is the reference's. -/
theorem kernel_value (hr : ∀ r : Fin 200000, (barg m c (ix1 r)).toNat < 1024) :
    (W10 m ρ c (Proc.devRef .tc main_v30) : S200000x256.Idx → EReal)
      = Cert.ReferenceIdeal.Read.val_main_v38 (F := Ideal) (xarg m c) (barg m c)
          (m ((c : Thread nD τ).loc main_arg2)) (m ((c : Thread nD τ).loc main_arg3)) (m ((c : Thread nD τ).loc main_arg4))
          (m ((c : Thread nD τ).loc main_arg5)) (m ((c : Thread nD τ).loc main_arg6)) := by
  funext i
  obtain ⟨r, d, rfl⟩ : ∃ (r : Fin 200000) (d : Fin 256), i = ix2 r d := ⟨i 0, i 1, eq_ix2 i⟩
  -- the reference's row
  rw [ref_value _ _ _ _ _ _ _ r d (hr r), ← gate_eq m ρ c]
  -- the program's row: the slice, then the scaling region's output array at row r
  show StableHlo.after hostOps2 (W9 m ρ c) (Proc.devRef .tc main_v30) (ix2 r d) = _
  rw [after_slice, slice_apply]
  rw [show W9 m ρ c (Proc.devRef .tc main_v29) = (dat1 (V8 m ρ) c).arrAt 3 cfg1.N from W9_arr m ρ c 3, scale_arr]
  -- the tile and the row inside it
  have hrow : 2048 * (r.val / 2048) + r.val % 2048 = r.val := row_split r
  have hlt : r.val < 200000 := r.isLt
  -- the row's batch word, as the scaling region's block holds it
  have hbw : ∀ (t : Fin cfg1.N) (k : Fin 2048) (e : 2048 * t.val + k.val = r.val),
      iblk1 (V8 m ρ) c 1 t (ix2 k (0 : Fin 1)) = barg m c (ix1 r) := by
    intro t k e
    rw [iblk1_1_apply, V8_b, V4_b_apply, dif_pos (by show 2048 * t.val + k.val < 200000; omega)]
    exact congrArg (barg m c) (congrArg ix1 (Fin.ext e))
  have hxw : ∀ (t : Fin cfg1.N) (k : Fin 2048) (e : 2048 * t.val + k.val = r.val),
      iblk1 (V8 m ρ) c 0 t (ix2 k d) = xarg m c (ix2 r d) := by
    intro t k e
    rw [iblk1_0_apply, V8_x, V4_x_apply, dif_pos (by show 2048 * t.val + k.val < 200000; omega)]
    exact congrArg (xarg m c) (congrArg (fun a => ix2 a d) (Fin.ext e))
  have hgw : ∀ (t : Fin cfg1.N) (g : Fin 1024),
      iblk1 (V8 m ρ) c 2 t (ix2 (0 : Fin 1) g)
        = gate (F := Ideal) (V5 m ρ c main_v3_0) (shapeCast S1024x1 (V5 m ρ c main_v3_1) shapeCasts_S1x1024_S1024x1)
            (m ((c : Thread nD τ).loc main_arg2)) (m ((c : Thread nD τ).loc main_arg3)) (m ((c : Thread nD τ).loc main_arg4))
            (m ((c : Thread nD τ).loc main_arg5)) (m ((c : Thread nD τ).loc main_arg6)) (ix2 g (0 : Fin 1)) := by
    intro t g
    rw [iblk1_2_apply, V8_gate, grow_apply]
  -- the score of an in-range row is its graph's gate
  have hN : r.val / 2048 < cfg1.N := tile_of_row_lt r.val (by omega)
  have hb' := hbw ⟨r.val / 2048, hN⟩ ⟨r.val % 2048, Nat.mod_lt _ (by decide)⟩ hrow
  have hbr : (iblk1 (V8 m ρ) c 1 ⟨r.val / 2048, hN⟩ (ix2 (⟨r.val % 2048, Nat.mod_lt _ (by decide)⟩ : Fin 2048) (0 : Fin 1))).toNat < 1024 := by
    rw [hb']; exact hr r
  rw [scale_value _ _ _ (⟨r.val % 2048, Nat.mod_lt _ (by decide)⟩ : Fin 2048) d hbr,
    hxw ⟨r.val / 2048, hN⟩ ⟨r.val % 2048, Nat.mod_lt _ (by decide)⟩ hrow, hgw]
  exact congrArg (fun y => xarg m c (ix2 r d) * y) (at_word _ _ _ hb' _ _)

end Cert.KernelIdeal.Hand

end
-- ==== Proof.PreRange.lean ====
/-
  The precondition's last conjunct, read back. The printed precondition is a conjunction of seven 0-dimensional
  i1 words, nested to the left: six say that every entry of a float argument is finite, and the seventh is the
  conjunction, over all 200000 rows r, of (0 ≤ batch r) and (batch r < 1024), both compares signed. If the whole
  conjunction is 1 then so is its last member; a conjunction over all rows that is 1 is 1 at each row; at a row both
  compares are 1; and a 32-bit word w with 0 ≤ w and w < 1024 as a signed integer has sign bit clear, so its
  unsigned value is its signed value and lies below 1024. The float arguments play no part: the statement holds at
  every float instance.
-/
import proofs.«402786_j54597624267060_1_alg».proof.Pre_finite_inputs
import proofs.«402786_j54597624267060_1_alg».proof.Proof.Gen.Pre_finite_inputs
import Idealize.ShloMosaic.Lib.ReduceAll
import Idealize.ShloMosaic.Lib.StableHlo.Predicate
import Idealize.ShloMosaic.Lib.ValueIdx

noncomputable section

namespace Cert.KernelIdeal.Hand

open Idealize.ShloMosaic Idealize.ShloMosaic.ValueIdx

/-- A 32-bit word that is ≥ 0 and < 1024 as a signed integer is < 1024 as an unsigned one: the signed value of w is
    w.toNat when 2 · w.toNat < 2³², and w.toNat − 2³² (negative) otherwise; the lower bound excludes the second case. -/
private theorem toNat_lt_of_signed_range (w : BitVec 32)
    (hge : IntOp.cmpi .sge w (0#32) = 1#1) (hlt : IntOp.cmpi .slt w (1024#32) = 1#1) : w.toNat < 1024 := by
  have h0 : (0#32 : BitVec 32).toInt ≤ w.toInt := IntOp.cmpi_sge.1 hge
  have h1 : w.toInt < (1024#32 : BitVec 32).toInt := IntOp.cmpi_slt.1 hlt
  have e0 : (0#32 : BitVec 32).toInt = 0 := by decide
  have e1 : (1024#32 : BitVec 32).toInt = 1024 := by decide
  rw [e0] at h0
  rw [e1] at h1
  have key := BitVec.toInt_eq_toNat_cond w
  have hw := w.isLt
  by_cases hc : 2 * w.toNat < 2 ^ 32
  · rw [if_pos hc] at key; omega
  · rw [if_neg hc] at key; omega

/-- The precondition gives the range of every batch word. -/
theorem range_of_pre {F : FTy → Type} [FloatOps F] [Cert.Pre_finite_inputs.Facts]
    (x0 : FVec F Cert.Pre_finite_inputs.S200000x256 .f32) (x1 : IVec Cert.Pre_finite_inputs.S200000 32)
    (x2 : FVec F Cert.Pre_finite_inputs.S256x128 .f32) (x3 : FVec F Cert.Pre_finite_inputs.S128 .f32)
    (x4 : FVec F Cert.Pre_finite_inputs.S_ .f32) (x5 : FVec F Cert.Pre_finite_inputs.S128x1 .f32)
    (x6 : FVec F Cert.Pre_finite_inputs.S1 .f32)
    (h : Cert.Pre_finite_inputs.fn (F := F) x0 x1 x2 x3 x4 x5 x6 = fun _ => 1#1) :
    ∀ r : Fin 200000, (x1 (Idealize.ShloMosaic.ValueIdx.ix1 r)).toNat < 1024 := by
  intro r
  -- the one word of the 0-dimensional result
  have hw := congrFun h ix0
  dsimp only [Cert.Pre_finite_inputs.fn, Cert.Pre_finite_inputs.fn_part1, Cert.Pre_finite_inputs.fn_part2] at hw
  -- the outermost conjunction: (the six finiteness words) ∧ (the conjunction over all rows); keep the second
  have hall := (IntOp.andi_eq_one.1 hw).2
  -- the index type of a 0-dimensional tensor has one element (an index assigns a coordinate to each of no axes),
  -- so a conjunction over all rows that is 1 is 1 at row r
  haveI : Subsingleton Cert.Pre_finite_inputs.S_.Idx := ⟨fun a b => funext fun d => d.elim0⟩
  have hr := Host.reduce_andi_all _ _ _ _ _ hall (ix1 r)
  -- at row r: both compares are 1; the compared constants, broadcast from a scalar, read 0 and 1024 at every row
  obtain ⟨hge, hlt⟩ := IntOp.andi_eq_one.1 hr
  exact toNat_lt_of_signed_range (x1 (ix1 r)) hge hlt

end Cert.KernelIdeal.Hand

end
-- ==== Proof.lean ====
/-
  The certificate of a segment-mean pooling gate: a pooling kernel that accumulates, tile by tile, the per-graph
  sums  Σ_r [batch r = g] · x[r, ·]  (as a one-hot matrix product) and counts, host operations that turn them into a
  per-graph gate  σ(PReLU(mean · W1 + b1) · W2 + b2),  and a scaling kernel that multiplies each row by its graph's
  gate (as a one-hot masked sum) — against the jnp reference that pools by a scatter-add and scales by a gather.

  The three frames: the kernel's program, read at the word level and at the exact reals, is its ten items run in
  order (two kernel regions among host stretches), and no item writes an argument; the reference is a line of host
  operations.  The idealization rewrote nothing, so nothing is owed for it.  Over the exact reals, where every batch
  word is a graph id (0 ≤ batch r < 1024, part of the precondition: outside it the reference's gather reads a
  clamped or wrapped index while the kernel's one-hot row is empty), both programs end with
  x[r, d] · gate[batch r]  in every entry: the kernel's pooled sums and counts are the reference's scatter-added
  ones (a sum over tiles is the sum over rows; the appended rows contribute nothing), the gate is one function of
  them on both sides, and a one-hot masked sum of the gate row is the gate at the row's graph.
-/
import proofs.«402786_j54597624267060_1_alg».proof.Defs
import proofs.«402786_j54597624267060_1_alg».proof.Proof.Gen.Kernel
import proofs.«402786_j54597624267060_1_alg».proof.Proof.Gen.KernelIdeal
import proofs.«402786_j54597624267060_1_alg».proof.Proof.Gen.ReferenceIdeal
import proofs.«402786_j54597624267060_1_alg».proof.Proof.Gen.ReferenceIdeal.Run
import proofs.«402786_j54597624267060_1_alg».proof.Proof.Gen.ReferenceIdeal.Read
import proofs.«402786_j54597624267060_1_alg».proof.Proof.Gen.Pre_finite_inputs
import proofs.«402786_j54597624267060_1_alg».proof.Proof.Bits.Run
import proofs.«402786_j54597624267060_1_alg».proof.Proof.Run
import proofs.«402786_j54597624267060_1_alg».proof.Proof.KernelValue
import proofs.«402786_j54597624267060_1_alg».proof.Proof.PreRange
import Idealize.ShloMosaic.Adequacy
import Idealize.ShloMosaic.Init

noncomputable section

namespace Cert.Proof

open Idealize.ShloMosaic Idealize.ShloMosaic.TcCoe Idealize.SL.Sem

/-- The program as printed, at the word level, runs and leaves its arguments. -/
theorem frame_k : Cert.frame_Kernel := fun m ρ _ => Cert.Kernel.Hand.frame m ρ

/-- The same at the exact reals. -/
theorem frame_ki : Cert.frame_KernelIdeal := fun m ρ _ => Cert.KernelIdeal.Hand.frame m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

open Cert.KernelIdeal Cert.KernelIdeal.Gen Cert.KernelIdeal.Hand in
/-- Over the exact reals both programs end with the same result array: the kernel's run names every buffer's final
    contents, the result's among them; the reference's run names its result as the composed term of the arguments;
    the two are one function of arguments that agree, every batch word being a graph id by the precondition. -/
theorem algebraic : Cert.algebraic_KernelIdeal_ReferenceIdeal := by
  intro m ρ m' ρ' hpre hagree
  refine ⟨fun c => W10 m ρ c (Proc.devRef .tc main_v30), ?_, ?_⟩
  · refine (θ_run Cert.KernelIdeal.defs _ _).mono (fun _ h c => ?_) (run_main (F := Ideal) m ρ)
    exact ⟨h c _ (mem_uc main_v30 (by decide)),
      (h c _ (mem_uc main_arg0 (by decide))).trans (W10_of_untouched m ρ c main_arg0 (by decide) (by decide) (by decide) (by decide) (by decide) (by decide) (by decide) (by decide) (by decide) (by decide)),
      (h c _ (mem_uc main_arg1 (by decide))).trans (W10_of_untouched m ρ c main_arg1 (by decide) (by decide) (by decide) (by decide) (by decide) (by decide) (by decide) (by decide) (by decide) (by decide)),
      (h c _ (mem_uc main_arg2 (by decide))).trans (W10_of_untouched m ρ c main_arg2 (by decide) (by decide) (by decide) (by decide) (by decide) (by decide) (by decide) (by decide) (by decide) (by decide)),
      (h c _ (mem_uc main_arg3 (by decide))).trans (W10_of_untouched m ρ c main_arg3 (by decide) (by decide) (by decide) (by decide) (by decide) (by decide) (by decide) (by decide) (by decide) (by decide)),
      (h c _ (mem_uc main_arg4 (by decide))).trans (W10_of_untouched m ρ c main_arg4 (by decide) (by decide) (by decide) (by decide) (by decide) (by decide) (by decide) (by decide) (by decide) (by decide)),
      (h c _ (mem_uc main_arg5 (by decide))).trans (W10_of_untouched m ρ c main_arg5 (by decide) (by decide) (by decide) (by decide) (by decide) (by decide) (by decide) (by decide) (by decide) (by decide)),
      (h c _ (mem_uc main_arg6 (by decide))).trans (W10_of_untouched m ρ c main_arg6 (by decide) (by decide) (by decide) (by decide) (by decide) (by decide) (by decide) (by decide) (by decide) (by decide))⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v38_eq, (hagree c).1, (hagree c).2.1, (hagree c).2.2.1, (hagree c).2.2.2.1,
      (hagree c).2.2.2.2.1, (hagree c).2.2.2.2.2.1, (hagree c).2.2.2.2.2.2]
    exact (kernel_value m ρ c (range_of_pre _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
